-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![1024, 2048]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S512 : Shape := ⟨1, ![512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S1024x512 .f32) (main_arg1 : FVec F S512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  main_v8
-- ==== Pre_finite_inputs_ReferenceIdeal.lean ====
abbrev S1024x2048 : Shape := ⟨2, ![1024, 2048]⟩
abbrev S2048 : Shape := ⟨1, ![2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S1024x2048 .f32) (main_arg1 : FVec F S2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  main_v8
-- ==== Kernel.lean ====
abbrev S1024x512 : Shape := ⟨2, ![1024, 512]⟩
abbrev S512 : Shape := ⟨1, ![512]⟩
abbrev S8x128 : Shape := ⟨2, ![8, 128]⟩
abbrev S3x8x128 : Shape := ⟨3, ![3, 8, 128]⟩
abbrev S4 : Shape := ⟨1, ![4]⟩
abbrev S3 : Shape := ⟨1, ![3]⟩
abbrev S_ : Shape := ⟨0, ![]⟩
abbrev S8x128x512 : Shape := ⟨3, ![8, 128, 512]⟩
abbrev S1 : Shape := ⟨1, ![1]⟩
abbrev S1x8x128 : Shape := ⟨3, ![1, 8, 128]⟩
abbrev S1x1x512 : Shape := ⟨3, ![1, 1, 512]⟩
abbrev S8x128x1 : Shape := ⟨3, ![8, 128, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .f32⟩
  | .hbm, ⟨1, _⟩ => ⟨S512, .f32⟩
  | .hbm, ⟨2, _⟩ => ⟨S1024x512, .f32⟩
  | .local _ .vmem, ⟨0, _⟩ => ⟨S1024x512, .f32⟩
  | .local _ .vmem, ⟨1, _⟩ => ⟨S512, .f32⟩
  | .local _ .vmem, ⟨2, _⟩ => ⟨S1024x512, .f32⟩
  | .local _ .vmem, ⟨3, _⟩ => ⟨S8x128, .f32⟩
  | .local _ .vmem, ⟨4, _⟩ => ⟨S3x8x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v24 : BitVec 32 := Scalar.addi v2 c1_i32_16
  let c4_i32_17 : BitVec 32 := 4#32
  let v25 : BitVec 32 := Scalar.remsi v24 c4_i32_17
  let c1_i32_21 : BitVec 32 := 1#32
  let v26 : BitVec 32 := Scalar.muli v25 c1_i32_21
  let v27 : BitVec 32 := Scalar.addi c0_i32_22 v26
  v27.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_25 : BitVec 32 := 2#32
  let v34 : BitVec 32 := Scalar.addi v2 c2_i32_25
  let c4_i32_26 : BitVec 32 := 4#32
  let v35 : BitVec 32 := Scalar.remsi v34 c4_i32_26
  let c1_i32_30 : BitVec 32 := 1#32
  let v36 : BitVec 32 := Scalar.muli v35 c1_i32_30
  let v37 : BitVec 32 := Scalar.addi c0_i32_31 v36
  v37.toNat
def k0_dev6 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_34 : BitVec 32 := 3#32
  let v44 : BitVec 32 := Scalar.addi v2 c3_i32_34
  let c4_i32_35 : BitVec 32 := 4#32
  let v45 : BitVec 32 := Scalar.remsi v44 c4_i32_35
  let c1_i32_39 : BitVec 32 := 1#32
  let v46 : BitVec 32 := Scalar.muli v45 c1_i32_39
  let v47 : BitVec 32 := Scalar.addi c0_i32_40 v46
  v47.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x512_S8x128x512 : S1024x512.ShapeCasts S8x128x512
  reduces_S8x128x512_S8x128 : S8x128x512.Reduces [2] S8x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  hamt_3 : (3#32 : BitVec 32).msb = false
  inb_S4_S1_1 : ∀ a, (![1] : Fin 1 → Nat) a + S1.size a ≤ S4.size a
  squeezes_S1_S_ : S1.Squeezes S_
  inb_S3_S1_2 : ∀ a, (![2] : Fin 1 → Nat) a + S1.size a ≤ S3.size a
  inb_S3x8x128_S1x8x128_2_0_0 : ∀ a, (![2, 0, 0] : Fin 3 → Nat) a + S1x8x128.size a ≤ S3x8x128.size a
  squeezes_S1x8x128_S8x128 : S1x8x128.Squeezes S8x128
  inb_S4_S1_2 : ∀ a, (![2] : Fin 1 → Nat) a + S1.size a ≤ S4.size a
  inb_S3_S1_1 : ∀ a, (![1] : Fin 1 → Nat) a + S1.size a ≤ S3.size a
  inb_S3x8x128_S1x8x128_1_0_0 : ∀ a, (![1, 0, 0] : Fin 3 → Nat) a + S1x8x128.size a ≤ S3x8x128.size a
  inb_S4_S1_3 : ∀ a, (![3] : Fin 1 → Nat) a + S1.size a ≤ S4.size a
  inb_S3_S1_0 : ∀ a, (![0] : Fin 1 → Nat) a + S1.size a ≤ S3.size a
  inb_S3x8x128_S1x8x128_0_0_0 : ∀ a, (![0, 0, 0] : Fin 3 → Nat) a + S1x8x128.size a ≤ S3x8x128.size a
  inb_S512_S512_0 : ∀ a, (![0] : Fin 1 → Nat) a + S512.size a ≤ S512.size a
  h_S512 : 0 < S512.numel
  shapeCasts_S512_S512 : S512.ShapeCasts S512
  shapeCasts_S512_S1x1x512 : S512.ShapeCasts S1x1x512
  broadcasts_S1x1x512_S8x128x512 : S1x1x512.Broadcasts S8x128x512
  h_S1x8x128 : 0 < S1x8x128.numel
  shapeCasts_S1x8x128_S8x128 : S1x8x128.ShapeCasts S8x128
  shapeCasts_S8x128_S8x128x1 : S8x128.ShapeCasts S8x128x1
  broadcasts_S8x128x1_S8x128x512 : S8x128x1.Broadcasts S8x128x512
  shapeCasts_S8x128x512_S1024x512 : S8x128x512.ShapeCasts S1024x512
  hcc0_scratch2 : 3 + S4.numel ≤ 10
  hcc0_scratch3 : 7 + S3.numel ≤ 10
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole
  hstage0_2 : ∀ j, (stage0_2 j).IsWhole

variable [Facts₀]

abbrev cc0_scratch2 : DmaSems sig S4 := SemArray.consecutive 3 S4 hcc0_scratch2
abbrev cc0_scratch3 : DmaSems sig S3 := SemArray.consecutive 7 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v1) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S2048 : Shape := ⟨1, ![2048]⟩
abbrev S_ : Shape := ⟨0, ![]⟩
abbrev S1024 : Shape := ⟨1, ![1024]⟩
abbrev S1024x1 : Shape := ⟨2, ![1024, 1]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048, .f32⟩
  | .hbm, ⟨2, _⟩ => ⟨S1024x2048, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S_, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x1, .f32⟩
  | .hbm, ⟨13, _⟩ => ⟨S1x2048, .f32⟩
  | .hbm, ⟨14, _⟩ => ⟨S1024x2048, .f32⟩
  | .hbm, ⟨15, _⟩ => ⟨S1024x2048, .f32⟩
  | .hbm, ⟨16, _⟩ => ⟨S1024x2048, .f32⟩
  | .hbm, ⟨17, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S1024x2048_S1024_d1 : S1024x2048.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S2048_S1x2048_1 : S2048.BroadcastsInDim S1x2048 (![1] : Fin 1 → Fin S1x2048.rank)
  bcast_S1x2048_S1024x2048_0_1 : S1x2048.BroadcastsInDim S1024x2048 (![0, 1] : Fin 2 → Fin S1024x2048.rank)
  bcast_S1024x1_S1024x2048_0_1 : S1024x1.BroadcastsInDim S1024x2048 (![0, 1] : Fin 2 → Fin S1024x2048.rank)

variable [Facts₀]

class Facts : Prop extends Facts₀ where

variable [Facts]
-- ==== Proof.KernelSpec.lean ====
/-
  What each device's result buffer ends holding, as a pure function of the four devices' argument blocks.

  Device `c` first reduces its own 512 columns: `mine` is, row by row (a row `128 p + q` sits at `(p, q)`), the sum of the
  squares of its block's entries. Every device then receives the three other devices' row sums: slot `s` of its receive
  buffer is written by the device `s + 1` places further round the mesh. The four partial sums added together are the sum of
  squares of the whole row of 2048 entries, whichever device adds them and in whatever order; divided by 2048, shifted by the
  epsilon and passed through the reciprocal square root they scale the device's own block, already multiplied by its block
  of the gains.
-/
import proofs.«900583_g7700000000000584_dist_rmsnorm_colshard_i_m1024_n512_v7x_i4_f32_1_alg».proof.Proof.Gen.Kernel.Skeleton
import Idealize.ShloMosaic.Lib.ValueIdx

noncomputable section

namespace Cert.Kernel.Hand

open Cert.Kernel Cert.Kernel.Gen
open Idealize.ShloMosaic Idealize.ShloMosaic.ValueIdx

variable {F : FTy → Type} [FloatOps F]

/-- The device `k` places after `c` round the mesh of four. -/
def peer (c : Dev nD) (k : ℕ) : Dev nD := ⟨(c.val + k) % 4, Nat.mod_lt _ (by decide)⟩

/-- A device's own partial result: per row, the sum of the squares of its 512 entries of that row. -/
def mine (x : Vec F S1024x512 .f32) : FVec F S8x128 .f32 := k0_pay3 x

/-- The receive buffer of device `c` once every transfer has landed: slot `s` holds the partial sums of the device
    `s + 1` places after `c`. -/
def comm (xs : Dev nD → Vec F S1024x512 .f32) (c : Dev nD) : Vec F S3x8x128 .f32 :=
  fun i => mine (xs (peer c ((i 0).val + 1))) (ix2 (i 1) (i 2))

/-- Slot `s` of that buffer as the one-slot vector a load of it yields. -/
def slot (xs : Dev nD → Vec F S1024x512 .f32) (c : Dev nD) (s : Fin 3) : Vec F S1x8x128 .f32 :=
  fun j => mine (xs (peer c (s.val + 1))) (ix2 (j 1) (j 2))

/-- The result block of device `c`: its block times its gains, scaled by the reciprocal root of the mean of squares
    over all four devices' partial sums plus epsilon. -/
def out (xs : Dev nD → Vec F S1024x512 .f32) (gs : Dev nD → Vec F S512 .f32) (c : Dev nD) : FVec F S1024x512 .f32 :=
  k0_pay1 (k0_pay4 (k0_pay2 (xs c)) (gs c)) (k0_pay5 (mine (xs c)) (slot xs c 0) (slot xs c 1)) (slot xs c 2)

end Cert.Kernel.Hand

end
-- ==== Proof.KernelProto.lean ====
/-
  The cross-device protocol of the kernel, as a schedule of duties.

  Every device owns seven cells. Its barrier cell collects one unit from each of the three other devices: the unit
  from the device `4 - k` places after it (duty `k`) tells it that that device has entered the kernel, and hands it
  the slot of that device's receive buffer it is about to write, with the fact that the slot's receive cell stands
  at round 0. Its three send cells each collect the credit of one outgoing copy of its partial sums and give back the
  share of the source the copy read. Its three receive cells each collect the credit of one incoming copy and hand
  over the slot, now holding the sender's partial sums.
-/
import proofs.«900583_g7700000000000584_dist_rmsnorm_colshard_i_m1024_n512_v7x_i4_f32_1_alg».proof.Proof.KernelSpec
import proofs.«900583_g7700000000000584_dist_rmsnorm_colshard_i_m1024_n512_v7x_i4_f32_1_alg».proof.Proof.Gen.Kernel.Launch
import proofs.«900583_g7700000000000584_dist_rmsnorm_colshard_i_m1024_n512_v7x_i4_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

theorem peer_peer_13 (c : Dev nD) : peer (peer c 1) 3 = c := by revert c; decide
theorem peer_peer_22 (c : Dev nD) : peer (peer c 2) 2 = c := by revert c; decide
theorem peer_peer_31 (c : Dev nD) : peer (peer c 3) 1 = c := by revert c; decide

/-- The kernel's device chains: the three signals and the three copies go to the devices 1, 2 and 3 places on. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 1 := Fin.ext (k0_dev4_eq c)
theorem dev5_eq (c : Dev nD) : (⟨k0_dev5 c, k0_dev5_lt c⟩ : Dev nD) = peer c 2 := Fin.ext (k0_dev5_eq c)
theorem dev6_eq (c : Dev nD) : (⟨k0_dev6 c, k0_dev6_lt c⟩ : Dev nD) = peer c 3 := Fin.ext (k0_dev6_eq c)

/-- Going `k` places on is a permutation of the mesh. -/
def shift1 : Dev nD ≃ Dev nD := ⟨fun c => peer c 1, fun c => peer c 3, peer_peer_13, by intro c; revert c; decide⟩
def shift2 : Dev nD ≃ Dev nD := ⟨fun c => peer c 2, fun c => peer c 2, peer_peer_22, by intro c; revert c; decide⟩
def shift3 : Dev nD ≃ Dev nD := ⟨fun c => peer c 3, fun c => peer c 1, peer_peer_31, by intro c; revert c; decide⟩

/-! ## The memrefs and cells -/

abbrev xM : Memref sig .tc .vmem S1024x512 .f32 := Memref.whole cc0_stg0_0
abbrev gM : Memref sig .tc .vmem S512 .f32 := Memref.whole cc0_stg1_0
abbrev oM : Memref sig .tc .vmem S1024x512 .f32 := Memref.whole cc0_stg2_0
abbrev mM : Memref sig .tc .vmem S8x128 .f32 := Memref.whole cc0_scratch0
abbrev cM : Memref sig .tc .vmem S3x8x128 .f32 := Memref.whole cc0_scratch1

/-- The three slots of the receive buffer, as the kernel slices them. -/
abbrev slotM0 : Memref sig .tc .vmem S8x128 .f32 :=
  ((cM.slice (Rect.unit (s := S3x8x128) ![0, 0, 0] S1x8x128.size inb_S3x8x128_S1x8x128_0_0_0) (fun _ => rfl)).squeeze S8x128 squeezes_S1x8x128_S8x128)
abbrev slotM1 : Memref sig .tc .vmem S8x128 .f32 :=
  ((cM.slice (Rect.unit (s := S3x8x128) ![1, 0, 0] S1x8x128.size inb_S3x8x128_S1x8x128_1_0_0) (fun _ => rfl)).squeeze S8x128 squeezes_S1x8x128_S8x128)
abbrev slotM2 : Memref sig .tc .vmem S8x128 .f32 :=
  ((cM.slice (Rect.unit (s := S3x8x128) ![2, 0, 0] S1x8x128.size inb_S3x8x128_S1x8x128_2_0_0) (fun _ => rfl)).squeeze S8x128 squeezes_S1x8x128_S8x128)

/-- The runtime's barrier semaphore of collective id 0 (unscoped); the send and receive DMA semaphores (scoped scratch). -/
abbrev barS : Sem sig := (SemArray.scalar (sig.barrier 0 rfl) : Sems sig S_).sem
abbrev sendS1 : DmaSem sig := ((cc0_scratch2.slice (Rect.unit (s := S4) ![1] S1.size inb_S4_S1_1)).squeeze S_ squeezes_S1_S_).sem
abbrev sendS2 : DmaSem sig := ((cc0_scratch2.slice (Rect.unit (s := S4) ![2] S1.size inb_S4_S1_2)).squeeze S_ squeezes_S1_S_).sem
abbrev sendS3 : DmaSem sig := ((cc0_scratch2.slice (Rect.unit (s := S4) ![3] S1.size inb_S4_S1_3)).squeeze S_ squeezes_S1_S_).sem
abbrev recvS0 : DmaSem sig := ((cc0_scratch3.slice (Rect.unit (s := S3) ![0] S1.size inb_S3_S1_0)).squeeze S_ squeezes_S1_S_).sem
abbrev recvS1 : DmaSem sig := ((cc0_scratch3.slice (Rect.unit (s := S3) ![1] S1.size inb_S3_S1_1)).squeeze S_ squeezes_S1_S_).sem
abbrev recvS2 : DmaSem sig := ((cc0_scratch3.slice (Rect.unit (s := S3) ![2] S1.size inb_S3_S1_2)).squeeze S_ squeezes_S1_S_).sem

theorem sendS1_eq : sendS1 = (4 : DmaSem sig) := by decide
theorem sendS2_eq : sendS2 = (5 : DmaSem sig) := by decide
theorem sendS3_eq : sendS3 = (6 : DmaSem sig) := by decide
theorem recvS0_eq : recvS0 = (7 : DmaSem sig) := by decide
theorem recvS1_eq : recvS1 = (8 : DmaSem sig) := by decide
theorem recvS2_eq : recvS2 = (9 : DmaSem sig) := by decide

/-- The seven semaphores of the protocol: barrier; send 1, 2, 3; receive 0, 1, 2. -/
abbrev csem : Fin 7 → SemLoc sig := fun
  | 0 => .reg barS | 1 => .dma sendS1 | 2 => .dma sendS2 | 3 => .dma sendS3 | 4 => .dma recvS0 | 5 => .dma recvS1 | 6 => .dma recvS2
abbrev kcell (ck : Dev nD × Fin 7) : GSem nD τ sig := ((ck.1 : Thread nD τ), csem ck.2)

abbrev barCell (c : Dev nD) : GSem nD τ sig := kcell (c, 0)
abbrev sendCell1 (c : Dev nD) : GSem nD τ sig := kcell (c, 1)
abbrev sendCell2 (c : Dev nD) : GSem nD τ sig := kcell (c, 2)
abbrev sendCell3 (c : Dev nD) : GSem nD τ sig := kcell (c, 3)
abbrev recvCell0 (c : Dev nD) : GSem nD τ sig := kcell (c, 4)
abbrev recvCell1 (c : Dev nD) : GSem nD τ sig := kcell (c, 5)
abbrev recvCell2 (c : Dev nD) : GSem nD τ sig := kcell (c, 6)

/-- The kernel's OWN (scoped) semaphores, as the launch indexes them: the four of the send array (the first is
    never used) and the three of the receive array. -/
abbrev osem : Fin 7 → SemLoc sig := fun
  | 0 => .dma (3 : DmaSem sig) | 1 => .dma sendS1 | 2 => .dma sendS2 | 3 => .dma sendS3 | 4 => .dma recvS0 | 5 => .dma recvS1 | 6 => .dma recvS2

theorem csem_injective : Function.Injective (csem : Fin 7 → SemLoc sig) := by decide

abbrev N : ℕ := (mM : Memref sig .tc .vmem S8x128 .f32).view.dmaCredit
theorem N_pos : 0 < N := View.dmaCredit_pos _ (by decide)

/-! ## Contents -/

/-- Device `d`'s blocks of the two arguments, as launched. -/
def xin (d : Dev nD) : Vec F S1024x512 .f32 := m ((d : Thread nD τ).loc main_arg0)
def gin (d : Dev nD) : Vec F S512 .f32 := m ((d : Thread nD τ).loc main_arg1)

/-- What the partial-sum buffer, the receive buffer and the result's staging buffer of device `c` end up holding. -/
def mineV (c : Dev nD) : (cc0_scratch0 : Ref sig .tc).ty.Contents (Elt F) := mine (xin m c)
def commV (c : Dev nD) : (cc0_scratch1 : Ref sig .tc).ty.Contents (Elt F) := comm (xin m) c
def outV (c : Dev nD) : (cc0_stg2_0 : Ref sig .tc).ty.Contents (Elt F) := out (xin m) (gin m) c

/-- The source of the three copies is read at three quarter shares; the fourth quarter stays with the device. -/
abbrev q1 : PosShare TreeShare := fullShare.left.left
abbrev q2 : PosShare TreeShare := fullShare.left.right
abbrev q3 : PosShare TreeShare := fullShare.right.left
abbrev q0 : PosShare TreeShare := fullShare.right.right

/-! ## The schedule -/

/-- What the signal of the device `4 - k` places after `o` (duty `k` of `o`'s barrier cell) hands `o`: the slot of that
    device's receive buffer that `o` writes, and that the slot's receive cell stands at round 0. -/
def barPay (o : Dev nD) (k : Fin 4) : sProp 𝕄 :=
  if k = 1 then iprop((∃ f, slotM0.view.loc (peer o 3 : Thread nD τ) ↦[slotM0.view.set]{fullShare} f) ∗ reached ER (recvCell0 (peer o 3)) 0)
  else if k = 2 then iprop((∃ f, slotM1.view.loc (peer o 2 : Thread nD τ) ↦[slotM1.view.set]{fullShare} f) ∗ reached ER (recvCell1 (peer o 2)) 0)
  else if k = 3 then iprop((∃ f, slotM2.view.loc (peer o 1 : Thread nD τ) ↦[slotM2.view.set]{fullShare} f) ∗ reached ER (recvCell2 (peer o 1)) 0)
  else iprop(emp)

abbrev IsBar (g : GSem nD τ sig) : Prop := g.1.2 = .tc ∧ g.2 = .reg barS
abbrev IsXfer (g : GSem nD τ sig) : Prop :=
  g.1.2 = .tc ∧ (g.2 = .dma sendS1 ∨ g.2 = .dma sendS2 ∨ g.2 = .dma sendS3 ∨ g.2 = .dma recvS0 ∨ g.2 = .dma recvS1 ∨ g.2 = .dma recvS2)

/-- One round, round 0: a barrier cell has the three duties 1, 2, 3 of one unit each; a send or receive cell the duty 0
    of the block's credit. -/
def sched : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then barPay g.1.1 d
    else if g.2 = .dma recvS0 then slotM0.view.loc (g.1.1 : Thread nD τ) ↦[slotM0.view.set]{fullShare} commV m g.1.1
    else if g.2 = .dma recvS1 then slotM1.view.loc (g.1.1 : Thread nD τ) ↦[slotM1.view.set]{fullShare} commV m g.1.1
    else if g.2 = .dma recvS2 then slotM2.view.loc (g.1.1 : Thread nD τ) ↦[slotM2.view.set]{fullShare} commV m g.1.1
    else if g.2 = .dma sendS1 then mM.view.loc (g.1.1 : Thread nD τ) ↦[mM.view.set]{q1} mineV m g.1.1
    else if g.2 = .dma sendS2 then mM.view.loc (g.1.1 : Thread nD τ) ↦[mM.view.set]{q2} mineV m g.1.1
    else if g.2 = .dma sendS3 then mM.view.loc (g.1.1 : Thread nD τ) ↦[mM.view.set]{q3} mineV m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 4) :
    BI.Storable (upEmb : UEmb _ 𝕄) ((sched (F := F) m).payload g r d) := by
  dsimp only [sched]
  unfold barPay
  (repeat' split) <;> infer_instance

/-! ### The schedule's tables -/

section Sched
variable (c : Dev nD)

theorem ne_recv0_bar : (SemLoc.dma recvS0 : SemLoc sig) ≠ .reg barS := by decide
theorem ne_recv1_bar : (SemLoc.dma recvS1 : SemLoc sig) ≠ .reg barS := by decide
theorem ne_recv1_recv0 : (SemLoc.dma recvS1 : SemLoc sig) ≠ .dma recvS0 := by decide
theorem ne_recv2_bar : (SemLoc.dma recvS2 : SemLoc sig) ≠ .reg barS := by decide
theorem ne_recv2_recv0 : (SemLoc.dma recvS2 : SemLoc sig) ≠ .dma recvS0 := by decide
theorem ne_recv2_recv1 : (SemLoc.dma recvS2 : SemLoc sig) ≠ .dma recvS1 := by decide
theorem ne_send1_bar : (SemLoc.dma sendS1 : SemLoc sig) ≠ .reg barS := by decide
theorem ne_send1_recv0 : (SemLoc.dma sendS1 : SemLoc sig) ≠ .dma recvS0 := by decide
theorem ne_send1_recv1 : (SemLoc.dma sendS1 : SemLoc sig) ≠ .dma recvS1 := by decide
theorem ne_send1_recv2 : (SemLoc.dma sendS1 : SemLoc sig) ≠ .dma recvS2 := by decide
theorem ne_send2_bar : (SemLoc.dma sendS2 : SemLoc sig) ≠ .reg barS := by decide
theorem ne_send2_recv0 : (SemLoc.dma sendS2 : SemLoc sig) ≠ .dma recvS0 := by decide
theorem ne_send2_recv1 : (SemLoc.dma sendS2 : SemLoc sig) ≠ .dma recvS1 := by decide
theorem ne_send2_recv2 : (SemLoc.dma sendS2 : SemLoc sig) ≠ .dma recvS2 := by decide
theorem ne_send2_send1 : (SemLoc.dma sendS2 : SemLoc sig) ≠ .dma sendS1 := by decide
theorem ne_send3_bar : (SemLoc.dma sendS3 : SemLoc sig) ≠ .reg barS := by decide
theorem ne_send3_recv0 : (SemLoc.dma sendS3 : SemLoc sig) ≠ .dma recvS0 := by decide
theorem ne_send3_recv1 : (SemLoc.dma sendS3 : SemLoc sig) ≠ .dma recvS1 := by decide
theorem ne_send3_recv2 : (SemLoc.dma sendS3 : SemLoc sig) ≠ .dma recvS2 := by decide
theorem ne_send3_send1 : (SemLoc.dma sendS3 : SemLoc sig) ≠ .dma sendS1 := by decide
theorem ne_send3_send2 : (SemLoc.dma sendS3 : SemLoc sig) ≠ .dma sendS2 := by decide

theorem duties_bar : (sched (F := F) m).duties (barCell c) 0 = {1, 2, 3} := by dsimp only [sched]; exact if_pos ⟨rfl, rfl, rfl⟩
theorem duties_send1 : (sched (F := F) m).duties (sendCell1 c) 0 = {0} := by
  dsimp only [sched]; rw [if_neg (fun h => ne_send1_bar h.2.2)]; exact if_pos ⟨rfl, rfl, .inl rfl⟩
theorem duties_send2 : (sched (F := F) m).duties (sendCell2 c) 0 = {0} := by
  dsimp only [sched]; rw [if_neg (fun h => ne_send2_bar h.2.2)]; exact if_pos ⟨rfl, rfl, .inr (.inl rfl)⟩
theorem duties_send3 : (sched (F := F) m).duties (sendCell3 c) 0 = {0} := by
  dsimp only [sched]; rw [if_neg (fun h => ne_send3_bar h.2.2)]; exact if_pos ⟨rfl, rfl, .inr (.inr (.inl rfl))⟩
theorem duties_recv0 : (sched (F := F) m).duties (recvCell0 c) 0 = {0} := by
  dsimp only [sched]; rw [if_neg (fun h => ne_recv0_bar h.2.2)]; exact if_pos ⟨rfl, rfl, .inr (.inr (.inr (.inl rfl)))⟩
theorem duties_recv1 : (sched (F := F) m).duties (recvCell1 c) 0 = {0} := by
  dsimp only [sched]; rw [if_neg (fun h => ne_recv1_bar h.2.2)]; exact if_pos ⟨rfl, rfl, .inr (.inr (.inr (.inr (.inl rfl))))⟩
theorem duties_recv2 : (sched (F := F) m).duties (recvCell2 c) 0 = {0} := by
  dsimp only [sched]; rw [if_neg (fun h => ne_recv2_bar h.2.2)]; exact if_pos ⟨rfl, rfl, .inr (.inr (.inr (.inr (.inr (rfl)))))⟩
theorem duties_later (g : GSem nD τ sig) : ∀ r, 1 ≤ r → (sched (F := F) m).duties g r = ∅ :=
  fun r hr => by dsimp only [sched]; rw [if_neg fun h => by omega, if_neg fun h => by omega]

theorem amount_bar (d : Fin 4) : (sched (F := F) m).amount (barCell c) 0 d = 1 := by dsimp only [sched]; exact if_pos rfl
theorem amount_send1 (d : Fin 4) : (sched (F := F) m).amount (sendCell1 c) 0 d = N := by dsimp only [sched]; exact if_neg ne_send1_bar
theorem amount_send2 (d : Fin 4) : (sched (F := F) m).amount (sendCell2 c) 0 d = N := by dsimp only [sched]; exact if_neg ne_send2_bar
theorem amount_send3 (d : Fin 4) : (sched (F := F) m).amount (sendCell3 c) 0 d = N := by dsimp only [sched]; exact if_neg ne_send3_bar
theorem amount_recv0 (d : Fin 4) : (sched (F := F) m).amount (recvCell0 c) 0 d = N := by dsimp only [sched]; exact if_neg ne_recv0_bar
theorem amount_recv1 (d : Fin 4) : (sched (F := F) m).amount (recvCell1 c) 0 d = N := by dsimp only [sched]; exact if_neg ne_recv1_bar
theorem amount_recv2 (d : Fin 4) : (sched (F := F) m).amount (recvCell2 c) 0 d = N := by dsimp only [sched]; exact if_neg ne_recv2_bar

theorem expect_bar : (sched (F := F) m).expect (barCell c) 0 = 3 := by
  unfold Schedule.expect Schedule.amountOf
  rw [duties_bar, Finset.sum_congr rfl fun d _ => amount_bar m c d, Finset.sum_const, smul_eq_mul]; rfl
theorem expect_send1 : (sched (F := F) m).expect (sendCell1 c) 0 = N := by
  unfold Schedule.expect Schedule.amountOf; rw [duties_send1, Finset.sum_singleton, amount_send1]
theorem expect_send2 : (sched (F := F) m).expect (sendCell2 c) 0 = N := by
  unfold Schedule.expect Schedule.amountOf; rw [duties_send2, Finset.sum_singleton, amount_send2]
theorem expect_send3 : (sched (F := F) m).expect (sendCell3 c) 0 = N := by
  unfold Schedule.expect Schedule.amountOf; rw [duties_send3, Finset.sum_singleton, amount_send3]
theorem expect_recv0 : (sched (F := F) m).expect (recvCell0 c) 0 = N := by
  unfold Schedule.expect Schedule.amountOf; rw [duties_recv0, Finset.sum_singleton, amount_recv0]
theorem expect_recv1 : (sched (F := F) m).expect (recvCell1 c) 0 = N := by
  unfold Schedule.expect Schedule.amountOf; rw [duties_recv1, Finset.sum_singleton, amount_recv1]
theorem expect_recv2 : (sched (F := F) m).expect (recvCell2 c) 0 = N := by
  unfold Schedule.expect Schedule.amountOf; rw [duties_recv2, Finset.sum_singleton, amount_recv2]

theorem payload_bar (d : Fin 4) : (sched (F := F) m).payload (barCell c) 0 d = barPay c d := by dsimp only [sched]; exact if_pos rfl
theorem payload_bar_1 : (sched (F := F) m).payload (barCell c) 0 1
    = iprop((∃ f, slotM0.view.loc (peer c 3 : Thread nD τ) ↦[slotM0.view.set]{fullShare} f) ∗ reached ER (recvCell0 (peer c 3)) 0) := by
  rw [payload_bar]; unfold barPay; exact if_pos rfl
theorem payload_bar_2 : (sched (F := F) m).payload (barCell c) 0 2
    = iprop((∃ f, slotM1.view.loc (peer c 2 : Thread nD τ) ↦[slotM1.view.set]{fullShare} f) ∗ reached ER (recvCell1 (peer c 2)) 0) := by
  rw [payload_bar]; unfold barPay; rw [if_neg (by decide)]; exact if_pos rfl
theorem payload_bar_3 : (sched (F := F) m).payload (barCell c) 0 3
    = iprop((∃ f, slotM2.view.loc (peer c 1 : Thread nD τ) ↦[slotM2.view.set]{fullShare} f) ∗ reached ER (recvCell2 (peer c 1)) 0) := by
  rw [payload_bar]; unfold barPay; rw [if_neg (by decide), if_neg (by decide)]; exact if_pos rfl
/-- The same three, as the PAYER sees them: its own slots. -/
theorem payload_bar_peer1 : (sched (F := F) m).payload (barCell (peer c 1)) 0 1
    = iprop((∃ f, slotM0.view.loc (c : Thread nD τ) ↦[slotM0.view.set]{fullShare} f) ∗ reached ER (recvCell0 c) 0) := by
  rw [payload_bar_1, peer_peer_13]
theorem payload_bar_peer2 : (sched (F := F) m).payload (barCell (peer c 2)) 0 2
    = iprop((∃ f, slotM1.view.loc (c : Thread nD τ) ↦[slotM1.view.set]{fullShare} f) ∗ reached ER (recvCell1 c) 0) := by
  rw [payload_bar_2, peer_peer_22]
theorem payload_bar_peer3 : (sched (F := F) m).payload (barCell (peer c 3)) 0 3
    = iprop((∃ f, slotM2.view.loc (c : Thread nD τ) ↦[slotM2.view.set]{fullShare} f) ∗ reached ER (recvCell2 c) 0) := by
  rw [payload_bar_3, peer_peer_31]
theorem payload_recv0 (d : Fin 4) : (sched (F := F) m).payload (recvCell0 c) 0 d = (slotM0.view.loc (c : Thread nD τ) ↦[slotM0.view.set]{fullShare} commV m c : sProp 𝕄) := by
  dsimp only [sched]; rw [if_neg ne_recv0_bar]; exact if_pos rfl
theorem payload_recv1 (d : Fin 4) : (sched (F := F) m).payload (recvCell1 c) 0 d = (slotM1.view.loc (c : Thread nD τ) ↦[slotM1.view.set]{fullShare} commV m c : sProp 𝕄) := by
  dsimp only [sched]; rw [if_neg ne_recv1_bar, if_neg ne_recv1_recv0]; exact if_pos rfl
theorem payload_recv2 (d : Fin 4) : (sched (F := F) m).payload (recvCell2 c) 0 d = (slotM2.view.loc (c : Thread nD τ) ↦[slotM2.view.set]{fullShare} commV m c : sProp 𝕄) := by
  dsimp only [sched]; rw [if_neg ne_recv2_bar, if_neg ne_recv2_recv0, if_neg ne_recv2_recv1]; exact if_pos rfl
theorem payload_send1 (d : Fin 4) : (sched (F := F) m).payload (sendCell1 c) 0 d = (mM.view.loc (c : Thread nD τ) ↦[mM.view.set]{q1} mineV m c : sProp 𝕄) := by
  dsimp only [sched]; rw [if_neg ne_send1_bar, if_neg ne_send1_recv0, if_neg ne_send1_recv1, if_neg ne_send1_recv2]; exact if_pos rfl
theorem payload_send2 (d : Fin 4) : (sched (F := F) m).payload (sendCell2 c) 0 d = (mM.view.loc (c : Thread nD τ) ↦[mM.view.set]{q2} mineV m c : sProp 𝕄) := by
  dsimp only [sched]; rw [if_neg ne_send2_bar, if_neg ne_send2_recv0, if_neg ne_send2_recv1, if_neg ne_send2_recv2, if_neg ne_send2_send1]; exact if_pos rfl
theorem payload_send3 (d : Fin 4) : (sched (F := F) m).payload (sendCell3 c) 0 d = (mM.view.loc (c : Thread nD τ) ↦[mM.view.set]{q3} mineV m c : sProp 𝕄) := by
  dsimp only [sched]; rw [if_neg ne_send3_bar, if_neg ne_send3_recv0, if_neg ne_send3_recv1, if_neg ne_send3_recv2, if_neg ne_send3_send1, if_neg ne_send3_send2]; exact if_pos rfl

end Sched

/-! ## What each core owes at launch; the levels -/

/-- Device `c` owes the receive cell of each slot it writes on another device the block's credit, and each other device's
    barrier cell one unit — summed so that each signal and each copy, in program order, peels the last summand. -/
def O₃ (c : Dev nD) : CellTallies nD τ sig Unit :=
  tallyAt (recvCell0 (peer c 3)) () N + tallyAt (recvCell1 (peer c 2)) () N + tallyAt (recvCell2 (peer c 1)) () N
def O₂ (c : Dev nD) : CellTallies nD τ sig Unit := O₃ c + tallyAt (barCell (peer c 3)) () 1
def O₁ (c : Dev nD) : CellTallies nD τ sig Unit := O₂ c + tallyAt (barCell (peer c 2)) () 1
def O₀ (c : Dev nD) : CellTallies nD τ sig Unit := O₁ c + tallyAt (barCell (peer c 1)) () 1

def L (g : GSem nD τ sig) : Finset Unit := if g.1.2 = .tc then {()} else ∅
/-- barrier cells at 1, receive cells at 2, everything else (staging, send) at 0. -/
def lv (g : GSem nD τ sig) (_ : Unit) : ℕ :=
  if g.2 = .reg barS then 1 else if g.2 = .dma recvS0 ∨ g.2 = .dma recvS1 ∨ g.2 = .dma recvS2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₃_pos {c : Dev nD} {g : GSem nD τ sig} {u : Unit} (h : 0 < O₃ c g u) :
    g = recvCell0 (peer c 3) ∨ g = recvCell1 (peer c 2) ∨ g = recvCell2 (peer c 1) := by
  unfold O₃ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem lv_recv0 (c : Dev nD) (u : Unit) : lv (recvCell0 c) u = 2 := by
  dsimp only [lv]; rw [if_neg ne_recv0_bar, if_pos (.inl rfl)]
theorem lv_recv1 (c : Dev nD) (u : Unit) : lv (recvCell1 c) u = 2 := by
  dsimp only [lv]; rw [if_neg ne_recv1_bar, if_pos (.inr (.inl rfl))]
theorem lv_recv2 (c : Dev nD) (u : Unit) : lv (recvCell2 c) u = 2 := by
  dsimp only [lv]; rw [if_neg ne_recv2_bar, if_pos (.inr (.inr rfl))]
theorem lv_bar (c : Dev nD) (u : Unit) : lv (barCell c) u = 1 := by dsimp only [lv]; rw [if_pos rfl]

omit [FloatOps F] in
/-- At its barrier wait a device owes the three receive credits only: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; exact Nat.le_of_eq (lv_bar c ()))
    (fun g u hg => by
      rcases O₃_pos hg with rfl | rfl | rfl
      · rw [lv_recv0]; decide
      · rw [lv_recv1]; decide
      · rw [lv_recv2]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The two input staging buffers once fetched: the device's blocks. -/
def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))

/-- All cells' invariants under the names `K` the launch allocated them at, and that every cell stands at round 0. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at' (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
theorem reached_at' (ck : Dev nD × Fin 7) :
    (bigSep Finset.univ fun ck : Dev nD × Fin 7 => (reached ER (kcell ck) 0 : sProp 𝕄)) ⊢ reached ER (kcell ck) 0 :=
  bigSep_elim (Finset.mem_univ ck)
theorem inv_at (K : Dev nD × Fin 7 → ℕ) (ck : Dev nD × Fin 7) :
    records m K ⊢ (cellInv ER (sched m) (K ck) (kcell ck) : sProp 𝕄) := by
  unfold records; iintro ⟨H, -⟩; iapply (inv_at' m K ck); iexact H
theorem reached_at (K : Dev nD × Fin 7 → ℕ) (ck : Dev nD × Fin 7) :
    records m K ⊢ (reached ER (kcell ck) 0 : sProp 𝕄) := by
  unfold records; iintro ⟨-, H⟩; iapply (reached_at' (F := F) ck); iexact H

/-- The tokens of the duties device `c` pays: its three signals, its three copies' landings, its three copies' departures. -/
def payToks (c : Dev nD) : sProp 𝕄 :=
  iprop(dutyTok ER (barCell (peer c 1)) 0 1 ∗ dutyTok ER (barCell (peer c 2)) 0 2 ∗ dutyTok ER (barCell (peer c 3)) 0 3
    ∗ dutyTok ER (recvCell2 (peer c 1)) 0 0 ∗ dutyTok ER (recvCell1 (peer c 2)) 0 0 ∗ dutyTok ER (recvCell0 (peer c 3)) 0 0
    ∗ dutyTok ER (sendCell1 c) 0 0 ∗ dutyTok ER (sendCell2 c) 0 0 ∗ dutyTok ER (sendCell3 c) 0 0)

/-- Device `c`'s positions: round 0 of its seven cells, nothing taken. -/
def positions (c : Dev nD) : sProp 𝕄 :=
  iprop(atPos ER (barCell c) 0 ∅ 0 ∗ atPos ER (sendCell1 c) 0 ∅ 0 ∗ atPos ER (sendCell2 c) 0 ∅ 0 ∗ atPos ER (sendCell3 c) 0 ∅ 0
    ∗ atPos ER (recvCell0 c) 0 ∅ 0 ∗ atPos ER (recvCell1 c) 0 ∅ 0 ∗ atPos ER (recvCell2 c) 0 ∅ 0)

/-- The protocol's ghost state device `c` starts from. -/
def ghost (K : Dev nD × Fin 7 → ℕ) (c : Dev nD) : sProp 𝕄 := iprop(records m K ∗ positions c ∗ payToks c)

/-- The credit the other devices owe device `c`'s cells at launch. -/
def credits (c : Dev nD) : sProp 𝕄 :=
  iprop(cred (tallyAt (barCell c) () 3) ∗ cred (tallyAt (recvCell0 c) () N) ∗ cred (tallyAt (recvCell1 c) () N) ∗ cred (tallyAt (recvCell2 c) () N))

/-- What device `c`'s body starts from besides its buffers: the ghost state at some names, its credit, the level facts, and
    the one own semaphore the kernel never touches, at zero. -/
def start (c : Dev nD) : sProp 𝕄 :=
  iprop((∃ K, ghost m K c) ∗ credits c ∗ levAts L lv ∗ semVal ((c : Thread nD τ), osem 0) 0)

def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- After the point: the two scratch buffers whole again, the kernel's seven own semaphores at zero, their cells closed. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ semVal ((c : Thread nD τ), osem 0) 0 ∗ semVal (sendCell1 c) 0 ∗ semVal (sendCell2 c) 0 ∗ semVal (sendCell3 c) 0
    ∗ semVal (recvCell0 c) 0 ∗ semVal (recvCell1 c) 0 ∗ semVal (recvCell2 c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## What the launch deals each device, before and after the global step -/

/-- The duty tokens of device `c`'s OWN cells, as minted. -/
def toks (c : Dev nD) : sProp 𝕄 :=
  iprop(dutyTok ER (barCell c) 0 1 ∗ dutyTok ER (barCell c) 0 2 ∗ dutyTok ER (barCell c) 0 3
    ∗ dutyTok ER (sendCell1 c) 0 0 ∗ dutyTok ER (sendCell2 c) 0 0 ∗ dutyTok ER (sendCell3 c) 0 0
    ∗ dutyTok ER (recvCell0 c) 0 0 ∗ dutyTok ER (recvCell1 c) 0 0 ∗ dutyTok ER (recvCell2 c) 0 0)

/-- What the launch element deals device `c`. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)

/-- What the global step makes of it: the ghost state at some names, and the untouched own semaphore passed through. -/
def G' (c : Dev nD) : sProp 𝕄 := iprop((∃ K, ghost m K c) ∗ semVal ((c : Thread nD τ), osem 0) 0)

end Cert.Kernel.Hand

end
-- ==== Proof.KernelBodyDefs.lean ====
/-
  What one device's body starts from and what it leaves: the protocol's ghost state and credit, the two scratch buffers and the
  three staging buffers before; the scratch buffers whole again, the own semaphores at zero and the result's staging buffer at
  the device's block of the result after.
-/
import proofs.«900583_g7700000000000584_dist_rmsnorm_colshard_i_m1024_n512_v7x_i4_f32_1_alg».proof.Proof.KernelProto
import Idealize.ShloMosaic.Lib.Tactic

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 7 → ℕ)

def bodyPre (c : Dev nD) : sProp 𝕄 :=
  iprop((ghost m K c ∗ credits c ∗ levAts L lv ∗ semVal ((c : Thread nD τ), osem 0) 0
      ∗ (∃ f, ((c : Thread nD τ).loc cc0_scratch0) ↦{fullShare} f) ∗ (∃ f, ((c : Thread nD τ).loc cc0_scratch1) ↦{fullShare} f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (gstg m ρ c) ∗ stg c cc0_stg2_0 (outV m c))

theorem fetch_0 (t : Fin cfg0.N) : (cfg0.win (0 : Fin 3)).fetch t = true := fetch0_0 t
theorem fetch_1 (t : Fin cfg0.N) : (cfg0.win (1 : Fin 3)).fetch t = true := fetch0_1 t

end Body

end Cert.Kernel.Hand

end
-- ==== Proof.KernelSlots.lean ====
/-
  The receive buffer and its three slots, as views: where a slot's elements lie in the buffer, that the buffer is the
  disjoint union of its slots (so holding the buffer is holding the three slots, and three slots that agree with one
  contents slot by slot join to the buffer holding it), what a copy of a device's partial sums leaves in the slot it
  lands in, and what a load of one slot of the filled buffer yields.

  A slot is the slice of the `[3, 8, 128]` buffer at leading offset `k` of sizes `[1, 8, 128]`, squeezed to `[8, 128]`:
  its element `(p, q)` is the buffer's element `(k, p, q)`, and its element set is the indices with leading coordinate
  `k`. Everything is proved once for a leading offset `k < 3` and read off at `k = 0, 1, 2`.
-/
import proofs.«900583_g7700000000000584_dist_rmsnorm_colshard_i_m1024_n512_v7x_i4_f32_1_alg».proof.Proof.KernelProto
import Idealize.ShloMosaic.Lib.Pipeline.Value
import Idealize.ShloMosaic.Lib.Exec.Geometry
import Idealize.ShloMosaic.Lib.ValueIdx
import Idealize.ShloMosaic.Rules.PointsTo

noncomputable section

namespace Cert.Kernel.Hand

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where a slot's elements lie -/

/-- The slice of the receive buffer at leading offset `k`, squeezed: what the kernel spells for slot `k`. -/
abbrev slotAt (k : ℕ) (inb : ∀ a, (![k, 0, 0] : Fin 3 → Nat) a + S1x8x128.size a ≤ S3x8x128.size a) :
    Memref sig .tc .vmem S8x128 .f32 :=
  ((cM.slice (Rect.unit (s := S3x8x128) ![k, 0, 0] S1x8x128.size inb) (fun _ => rfl)).squeeze S8x128 squeezes_S1x8x128_S8x128)

omit [FloatOps F] in
/-- Element `(p, q)` of the slot at offset `k` is element `(k, p, q)` of the buffer. -/
theorem slotAt_emb (k : ℕ) (inb : ∀ a, (![k, 0, 0] : Fin 3 → Nat) a + S1x8x128.size a ≤ S3x8x128.size a) (hk : k < 3)
    (y : S8x128.Idx) : (slotAt k inb).view.emb y = ix3 (⟨k, hk⟩ : Fin 3) (y 0) (y 1) := by
  show (Rect.unit (s := S3x8x128) ![k, 0, 0] S1x8x128.size inb).emb (Shape.reshapeEquiv squeezes_S1x8x128_S8x128.numel_eq y) = _
  rw [Shape.reshapeEquiv_cons_one]
  funext a; refine Fin.ext ?_
  match a with
  | ⟨0, _⟩ => show k + 1 * 0 = k; omega
  | ⟨1, _⟩ => show 0 + 1 * (y 0 : Nat) = (y 0 : Nat); omega
  | ⟨2, _⟩ => show 0 + 1 * (y 1 : Nat) = (y 1 : Nat); omega

omit [FloatOps F] in
/-- The slot at offset `k` is the elements of the buffer whose leading coordinate is `k`. -/
theorem mem_slotAt_set (k : ℕ) (inb : ∀ a, (![k, 0, 0] : Fin 3 → Nat) a + S1x8x128.size a ≤ S3x8x128.size a)
    (i : S3x8x128.Idx) : i ∈ (slotAt k inb).view.set ↔ (i 0 : ℕ) = k := by
  rw [show (slotAt k inb).view.set = (Rect.unit (s := S3x8x128) ![k, 0, 0] S1x8x128.size inb).set from
    (View.set_reshape _ _).trans (View.set_slice_whole cc0_scratch1 _)]
  rw [Rect.mem_set_unit]
  constructor
  · intro h
    have := h 0
    have h1 : ((![k, 0, 0] : Fin 3 → Nat) 0) = k := rfl
    have h2 : S1x8x128.size 0 = 1 := rfl
    omega
  · intro h a
    match a with
    | ⟨0, _⟩ => exact ⟨by show k ≤ (i 0 : Nat); omega, by show (i 0 : Nat) < k + 1; omega⟩
    | ⟨1, _⟩ => exact ⟨Nat.zero_le _, by have : (i 1 : ℕ) < 8 := (i 1).isLt; show (i 1 : Nat) < 0 + 8; omega⟩
    | ⟨2, _⟩ => exact ⟨Nat.zero_le _, by have : (i 2 : ℕ) < 128 := (i 2).isLt; show (i 2 : Nat) < 0 + 128; omega⟩

omit [FloatOps F] in
theorem slot0_emb (y : S8x128.Idx) : slotM0.view.emb y = ix3 (0 : Fin 3) (y 0) (y 1) := slotAt_emb 0 _ (by decide) y
omit [FloatOps F] in
theorem slot1_emb (y : S8x128.Idx) : slotM1.view.emb y = ix3 (1 : Fin 3) (y 0) (y 1) := slotAt_emb 1 _ (by decide) y
omit [FloatOps F] in
theorem slot2_emb (y : S8x128.Idx) : slotM2.view.emb y = ix3 (2 : Fin 3) (y 0) (y 1) := slotAt_emb 2 _ (by decide) y

omit [FloatOps F] in
theorem mem_slot0_set (i : S3x8x128.Idx) : i ∈ slotM0.view.set ↔ (i 0 : ℕ) = 0 := mem_slotAt_set 0 _ i
omit [FloatOps F] in
theorem mem_slot1_set (i : S3x8x128.Idx) : i ∈ slotM1.view.set ↔ (i 0 : ℕ) = 1 := mem_slotAt_set 1 _ i
omit [FloatOps F] in
theorem mem_slot2_set (i : S3x8x128.Idx) : i ∈ slotM2.view.set ↔ (i 0 : ℕ) = 2 := mem_slotAt_set 2 _ i

omit [FloatOps F] in
theorem slot0_set : slotM0.view.set = Finset.univ.filter (fun i : S3x8x128.Idx => (i 0 : ℕ) = 0) := by
  ext i; rw [Finset.mem_filter]; exact (mem_slot0_set i).trans (by simp)
omit [FloatOps F] in
theorem slot1_set : slotM1.view.set = Finset.univ.filter (fun i : S3x8x128.Idx => (i 0 : ℕ) = 1) := by
  ext i; rw [Finset.mem_filter]; exact (mem_slot1_set i).trans (by simp)
omit [FloatOps F] in
theorem slot2_set : slotM2.view.set = Finset.univ.filter (fun i : S3x8x128.Idx => (i 0 : ℕ) = 2) := by
  ext i; rw [Finset.mem_filter]; exact (mem_slot2_set i).trans (by simp)

/-! ## The receive buffer is its three slots -/

omit [FloatOps F] in
theorem slots_cover : (Finset.univ : Finset S3x8x128.Idx) = slotM0.view.set ∪ (slotM1.view.set ∪ slotM2.view.set) := by
  ext i
  simp only [Finset.mem_univ, Finset.mem_union, true_iff]
  have h3 : (i 0 : ℕ) < 3 := (i 0).isLt
  rcases (by omega : (i 0 : ℕ) = 0 ∨ (i 0 : ℕ) = 1 ∨ (i 0 : ℕ) = 2) with h | h | h
  · exact .inl ((mem_slot0_set i).mpr h)
  · exact .inr (.inl ((mem_slot1_set i).mpr h))
  · exact .inr (.inr ((mem_slot2_set i).mpr h))

omit [FloatOps F] in
theorem slot0_disjoint : Disjoint slotM0.view.set (slotM1.view.set ∪ slotM2.view.set) :=
  Finset.disjoint_left.mpr fun i h0 h12 => by
    have e0 := (mem_slot0_set i).mp h0
    rcases Finset.mem_union.mp h12 with h | h
    · have := (mem_slot1_set i).mp h; omega
    · have := (mem_slot2_set i).mp h; omega

omit [FloatOps F] in
theorem slot12_disjoint : Disjoint slotM1.view.set slotM2.view.set :=
  Finset.disjoint_left.mpr fun i h1 h2 => by
    have e1 := (mem_slot1_set i).mp h1
    have e2 := (mem_slot2_set i).mp h2
    omega

omit [FloatOps F] in
/-- The whole receive buffer, held in full, is its three slots held in full. -/
theorem comm_split (c : Dev nD) (f : Buf (Elt F) ((c : Thread nD τ).loc cc0_scratch1)) :
    ((((c : Thread nD τ).loc cc0_scratch1) ↦{fullShare} f : sProp 𝕄))
      ⊣⊢ iprop((slotM0.view.loc (c : Thread nD τ) ↦[slotM0.view.set]{fullShare} f)
        ∗ (slotM1.view.loc (c : Thread nD τ) ↦[slotM1.view.set]{fullShare} f)
        ∗ (slotM2.view.loc (c : Thread nD τ) ↦[slotM2.view.set]{fullShare} f)) := by
  show (pointsTo ((c : Thread nD τ).loc cc0_scratch1) (Finset.univ : Finset S3x8x128.Idx) fullShare f : sProp 𝕄) ⊣⊢ _
  rw [slots_cover]
  exact (pointsTo_union slot0_disjoint).trans (sep_congr_right (pointsTo_union slot12_disjoint))

omit [FloatOps F] in
/-- Three slots holding, each on its own elements, what `g` holds there are the whole buffer holding `g`. -/
theorem comm_join (c : Dev nD) (f0 f1 f2 g : Buf (Elt F) ((c : Thread nD τ).loc cc0_scratch1))
    (h0 : ∀ i ∈ slotM0.view.set, f0 i = g i) (h1 : ∀ i ∈ slotM1.view.set, f1 i = g i)
    (h2 : ∀ i ∈ slotM2.view.set, f2 i = g i) :
    iprop((slotM0.view.loc (c : Thread nD τ) ↦[slotM0.view.set]{fullShare} f0)
        ∗ (slotM1.view.loc (c : Thread nD τ) ↦[slotM1.view.set]{fullShare} f1)
        ∗ (slotM2.view.loc (c : Thread nD τ) ↦[slotM2.view.set]{fullShare} f2))
      ⊢ ((((c : Thread nD τ).loc cc0_scratch1) ↦{fullShare} g : sProp 𝕄)) := by
  have e0 : (slotM0.view.loc (c : Thread nD τ) ↦[slotM0.view.set]{fullShare} f0 : sProp 𝕄)
      = (slotM0.view.loc (c : Thread nD τ) ↦[slotM0.view.set]{fullShare} g) := pointsTo_congr h0
  have e1 : (slotM1.view.loc (c : Thread nD τ) ↦[slotM1.view.set]{fullShare} f1 : sProp 𝕄)
      = (slotM1.view.loc (c : Thread nD τ) ↦[slotM1.view.set]{fullShare} g) := pointsTo_congr h1
  have e2 : (slotM2.view.loc (c : Thread nD τ) ↦[slotM2.view.set]{fullShare} f2 : sProp 𝕄)
      = (slotM2.view.loc (c : Thread nD τ) ↦[slotM2.view.set]{fullShare} g) := pointsTo_congr h2
  rw [e0, e1, e2]
  exact (comm_split c g).2

/-! ## The landings -/

/-- What device `c`'s copy into the slot at offset `k` of the device `n` places on leaves there is what that device's
    receive buffer is to hold there, when coming back round from it by `k + 1` places ends at `c`. -/
theorem landedAt (k : ℕ) (inb : ∀ a, (![k, 0, 0] : Fin 3 → Nat) a + S1x8x128.size a ≤ S3x8x128.size a) (hk : k < 3)
    (c d : Dev nD) (hd : peer d (k + 1) = c) (fd : Buf (Elt F) ((slotAt k inb).view.loc (d : Thread nD τ))) :
    ∀ i ∈ (slotAt k inb).view.set,
      (slotAt k inb).view.write (Elt F) fd (mM.view.read (Elt F) (mineV m c)) Finset.univ i = commV m d i := by
  intro i hi
  obtain ⟨y, rfl⟩ := View.exists_emb_of_mem_set _ hi
  rw [View.write_emb_of_mem _ _ (Finset.mem_univ y), cast_eq, slotAt_emb k inb hk]
  show mine (xin m c) y = mine (xin m (peer d (k + 1))) (ix2 (y 0) (y 1))
  rw [hd]
  exact congrArg (mine (xin m c)) (eq_ix2 y)

theorem landed0 (c : Dev nD) (fd : Buf (Elt F) (slotM0.view.loc ((peer c 3 : Dev nD) : Thread nD τ))) :
    ∀ i ∈ slotM0.view.set,
      slotM0.view.write (Elt F) fd (mM.view.read (Elt F) (mineV m c)) Finset.univ i = commV m (peer c 3) i :=
  landedAt m 0 _ (by decide) c (peer c 3) (peer_peer_31 c) fd
theorem landed1 (c : Dev nD) (fd : Buf (Elt F) (slotM1.view.loc ((peer c 2 : Dev nD) : Thread nD τ))) :
    ∀ i ∈ slotM1.view.set,
      slotM1.view.write (Elt F) fd (mM.view.read (Elt F) (mineV m c)) Finset.univ i = commV m (peer c 2) i :=
  landedAt m 1 _ (by decide) c (peer c 2) (peer_peer_22 c) fd
theorem landed2 (c : Dev nD) (fd : Buf (Elt F) (slotM2.view.loc ((peer c 1 : Dev nD) : Thread nD τ))) :
    ∀ i ∈ slotM2.view.set,
      slotM2.view.write (Elt F) fd (mM.view.read (Elt F) (mineV m c)) Finset.univ i = commV m (peer c 1) i :=
  landedAt m 2 _ (by decide) c (peer c 1) (peer_peer_13 c) fd

/-! ## The loads -/

/-- A load of the one-slot block at leading offset `k` of the whole receive buffer, once it holds what it is to hold,
    yields slot `k`. -/
theorem load_slotAt (k : ℕ) (inb : ∀ a, (![k, 0, 0] : Fin 3 → Nat) a + S1x8x128.size a ≤ S3x8x128.size a) (hk : k < 3)
    (c : Dev nD) :
    cM.view.readAt (Elt F) (Rect.unit (s := S3x8x128) ![k, 0, 0] S1x8x128.size inb).toLoadRect (commV m c)
      = slot (xin m) c ⟨k, hk⟩ := by
  funext j
  have hidx : (Rect.unit (s := S3x8x128) ![k, 0, 0] S1x8x128.size inb).toLoadRect.idx j
      = ix3 (⟨k, hk⟩ : Fin 3) (j 1) (j 2) := by
    funext a; refine Fin.ext ?_
    match a with
    | ⟨0, _⟩ => have : (j 0 : ℕ) < 1 := (j 0).isLt; show k + 1 * (j 0 : ℕ) = k; omega
    | ⟨1, _⟩ => show 0 + 1 * (j 1 : ℕ) = (j 1 : ℕ); omega
    | ⟨2, _⟩ => show 0 + 1 * (j 2 : ℕ) = (j 2 : ℕ); omega
  show comm (xin m) c ((Rect.unit (s := S3x8x128) ![k, 0, 0] S1x8x128.size inb).toLoadRect.idx j) = slot (xin m) c ⟨k, hk⟩ j
  rw [hidx]
  rfl

theorem load_slot_0 (c : Dev nD) :
    cM.view.readAt (Elt F) (Rect.unit (s := S3x8x128) ![0, 0, 0] S1x8x128.size inb_S3x8x128_S1x8x128_0_0_0).toLoadRect (commV m c)
      = slot (xin m) c 0 := load_slotAt m 0 _ (by decide) c
theorem load_slot_1 (c : Dev nD) :
    cM.view.readAt (Elt F) (Rect.unit (s := S3x8x128) ![1, 0, 0] S1x8x128.size inb_S3x8x128_S1x8x128_1_0_0).toLoadRect (commV m c)
      = slot (xin m) c 1 := load_slotAt m 1 _ (by decide) c
theorem load_slot_2 (c : Dev nD) :
    cM.view.readAt (Elt F) (Rect.unit (s := S3x8x128) ![2, 0, 0] S1x8x128.size inb_S3x8x128_S1x8x128_2_0_0).toLoadRect (commV m c)
      = slot (xin m) c 2 := load_slotAt m 2 _ (by decide) c

/-- info: 'Cert.Kernel.Hand.comm_split' depends on axioms: [propext, Classical.choice, Quot.sound] -/
#guard_msgs in #print axioms comm_split
/-- info: 'Cert.Kernel.Hand.comm_join' depends on axioms: [propext, Classical.choice, Quot.sound] -/
#guard_msgs in #print axioms comm_join
/-- info: 'Cert.Kernel.Hand.landed0' depends on axioms: [propext, Classical.choice, Quot.sound] -/
#guard_msgs in #print axioms landed0
/-- info: 'Cert.Kernel.Hand.landed1' depends on axioms: [propext, Classical.choice, Quot.sound] -/
#guard_msgs in #print axioms landed1
/-- info: 'Cert.Kernel.Hand.landed2' depends on axioms: [propext, Classical.choice, Quot.sound] -/
#guard_msgs in #print axioms landed2
/-- info: 'Cert.Kernel.Hand.load_slot_0' depends on axioms: [propext, Classical.choice, Quot.sound] -/
#guard_msgs in #print axioms load_slot_0
/-- info: 'Cert.Kernel.Hand.load_slot_1' depends on axioms: [propext, Classical.choice, Quot.sound] -/
#guard_msgs in #print axioms load_slot_1
/-- info: 'Cert.Kernel.Hand.load_slot_2' depends on axioms: [propext, Classical.choice, Quot.sound] -/
#guard_msgs in #print axioms load_slot_2

end Cert.Kernel.Hand

end
-- ==== Proof.KernelStaged.lean ====
/-
  The two input staging buffers, once fetched, hold the device's blocks as launched, and with them the body's result
  is the kernel side's result block.

  Each input window is the whole array at block index 0: the block's entry at an index is the array's entry at
  0 · size + 1 · index, the same index.
-/
import proofs.«900583_g7700000000000584_dist_rmsnorm_colshard_i_m1024_n512_v7x_i4_f32_1_alg».proof.Proof.KernelProto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staging buffer of the block, once fetched, holds the device's block as launched. -/
theorem xstg_eq (c : Dev nD) : xstg m ρ c = xin m c := by
  funext i
  unfold xstg xin
  show m ((c : Thread nD τ).loc main_arg0) ((win0_0.blk (0 : Fin 1)).view.emb i) = m ((c : Thread nD τ).loc main_arg0) i
  refine congrArg (m ((c : Thread nD τ).loc main_arg0)) (funext fun a => Fin.ext ?_)
  show 0 * _ + 1 * (i a).val = (i a).val
  omega

/-- The staging buffer of the gains, once fetched, holds the device's gains as launched. -/
theorem gstg_eq (c : Dev nD) : gstg m ρ c = gin m c := by
  funext i
  unfold gstg gin
  show m ((c : Thread nD τ).loc main_arg1) ((win0_1.blk (0 : Fin 1)).view.emb i) = m ((c : Thread nD τ).loc main_arg1) i
  refine congrArg (m ((c : Thread nD τ).loc main_arg1)) (funext fun a => Fin.ext ?_)
  show 0 * _ + 1 * (i a).val = (i a).val
  omega

/-- The body's result of the fetched staging buffers, the device's own partial sums and the three slots is the
    kernel side's result block. -/
theorem outV_eq (c : Dev nD) :
    k0_pay1 (k0_pay4 (k0_pay2 (xstg m ρ c)) (gstg m ρ c)) (k0_pay5 (mineV m c) (slot (xin m) c 0) (slot (xin m) c 1))
      (slot (xin m) c 2) = outV m c := by
  rw [xstg_eq, gstg_eq]
  rfl

end Cert.Kernel.Hand

end
-- ==== Proof.KernelBody.lean ====
/-
  One device's body, once, at a symbolic device of the mesh.

  The device signals the three others' barrier cells, each signal handing over the slot of its own receive buffer that the
  signalled device will write; it stores the row sums of squares of its block; it waits for the three signals to it, which bring
  the three slots it writes on the others; it starts the three copies of its row sums, each reading the source at a quarter
  share; it waits for its three receive cells, which bring its own slots back holding the others' row sums; it adds the four
  partial sums, scales its block and stores the result; it waits for its three send cells, which bring the source's shares
  back. At the end the receive buffer's slots and the source's shares are put together again and the six own cells closed.
-/
import proofs.«900583_g7700000000000584_dist_rmsnorm_colshard_i_m1024_n512_v7x_i4_f32_1_alg».proof.Proof.KernelBodyDefs
import proofs.«900583_g7700000000000584_dist_rmsnorm_colshard_i_m1024_n512_v7x_i4_f32_1_alg».proof.Proof.KernelSlots
import proofs.«900583_g7700000000000584_dist_rmsnorm_colshard_i_m1024_n512_v7x_i4_f32_1_alg».proof.Proof.KernelStaged
import Idealize.ShloMosaic.Lib.Tactic

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

omit [FloatOps F] in
/-- A whole buffer held outright, spelt through its whole view. -/
theorem whole_pts (c : Dev nD) (b : Ref sig .tc) (f : Buf (Elt F) ((c : Thread nD τ).loc b)) :
    ((((c : Thread nD τ).loc b) ↦{fullShare} f : sProp 𝕄))
      = ((Memref.whole b).view.loc (c : Thread nD τ) ↦[(Memref.whole b).view.set]{fullShare} f) := by
  show ((((c : Thread nD τ).loc b) ↦[Finset.univ]{fullShare} f : sProp 𝕄)) = ((((c : Thread nD τ).loc b) ↦[(Memref.whole b).view.set]{fullShare} f))
  rw [show (Memref.whole b).view.set = Finset.univ from View.set_whole b]

omit [FloatOps F] in
theorem hz2 : (![0, 0] : Fin 2 → Nat) = fun _ => 0 := funext fun a => by fin_cases a <;> rfl

/-- The partial-sum buffer after the store of the row sums. -/
theorem mine_written (c : Dev nD) (fm : Buf (Elt F) ((c : Thread nD τ).loc cc0_scratch0)) :
    (Memref.whole cc0_scratch0).view.writes (Elt F) fm
      [⟨Rect.unit (s := S8x128) ![0, 0] S8x128.size inb_S8x128_S8x128_0_0,
          k0_pay3 (View.readAt (Elt F) (Memref.whole cc0_stg0_0).view
              (Rect.unit (s := S1024x512) ![0, 0] S1024x512.size inb_S1024x512_S1024x512_0_0).toLoadRect (xstg m ρ c))⟩]
      = mineV m c := by
  rw [View.writes_singleton]
  refine (Memref.write_access_unit_zero_univ (Elt F) cc0_scratch0 hz2 _ fm _).trans ?_
  refine (congrArg k0_pay3 (Memref.readAt_unit_zero (Elt F) cc0_stg0_0 hz2 _ (xstg m ρ c))).trans ?_
  rw [xstg_eq]; rfl

theorem mine_stored (c : Dev nD) (fm : Buf (Elt F) ((c : Thread nD τ).loc cc0_scratch0)) :
    ((Memref.whole cc0_scratch0).view.loc (c : Thread nD τ) ↦[(Memref.whole cc0_scratch0).view.set]{fullShare}
      (Memref.whole cc0_scratch0).view.writes (Elt F) fm
        [⟨Rect.unit (s := S8x128) ![0, 0] S8x128.size inb_S8x128_S8x128_0_0,
            k0_pay3 (View.readAt (Elt F) (Memref.whole cc0_stg0_0).view
                (Rect.unit (s := S1024x512) ![0, 0] S1024x512.size inb_S1024x512_S1024x512_0_0).toLoadRect (xstg m ρ c))⟩] : sProp 𝕄)
      ⊢ (mM.view.loc (c : Thread nD τ) ↦[mM.view.set]{fullShare} mineV m c) :=
  Entails.of_eq (by rw [mine_written m ρ c fm])
omit [FloatOps F] in
/-- The source of the three copies, cut into quarter shares and put together again. -/
theorem mine_cut (c : Dev nD) (f : Buf (Elt F) (mM.view.loc (c : Thread nD τ))) :
    (mM.view.loc (c : Thread nD τ) ↦[mM.view.set]{fullShare} f : sProp 𝕄)
      ⊢ iprop((mM.view.loc (c : Thread nD τ) ↦[mM.view.set]{q1} f) ∗ (mM.view.loc (c : Thread nD τ) ↦[mM.view.set]{q2} f)
          ∗ (mM.view.loc (c : Thread nD τ) ↦[mM.view.set]{q3} f) ∗ (mM.view.loc (c : Thread nD τ) ↦[mM.view.set]{q0} f)) := by
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨H1, H2⟩
  icases HR with ⟨H3, H0⟩
  isplitl [H1]; · iexact H1
  isplitl [H2]; · iexact H2
  isplitl [H3]; · iexact H3
  iexact H0

omit [FloatOps F] in
theorem mine_glue (c : Dev nD) (f : Buf (Elt F) (mM.view.loc (c : Thread nD τ))) :
    iprop((mM.view.loc (c : Thread nD τ) ↦[mM.view.set]{q1} f) ∗ (mM.view.loc (c : Thread nD τ) ↦[mM.view.set]{q2} f)
          ∗ (mM.view.loc (c : Thread nD τ) ↦[mM.view.set]{q3} f) ∗ (mM.view.loc (c : Thread nD τ) ↦[mM.view.set]{q0} f))
      ⊢ (mM.view.loc (c : Thread nD τ) ↦[mM.view.set]{fullShare} f : sProp 𝕄) := by
  iintro ⟨H1, H2, H3, H0⟩
  iapply (pointsTo_share (PosShare.mem_left_op_right fullShare)).2
  isplitl [H1 H2]
  · iapply (pointsTo_share (PosShare.mem_left_op_right fullShare.left)).2
    isplitl [H1]; · iexact H1
    iexact H2
  · iapply (pointsTo_share (PosShare.mem_left_op_right fullShare.right)).2
    isplitl [H3]; · iexact H3
    iexact H0

omit [FloatOps F] in
theorem slot_amount2 : (slotM2 : Memref sig .tc .vmem S8x128 .f32).view.amount (.dma recvS2) = N := rfl
omit [FloatOps F] in
theorem slot_amount1 : (slotM1 : Memref sig .tc .vmem S8x128 .f32).view.amount (.dma recvS1) = N := rfl
omit [FloatOps F] in
theorem slot_amount0 : (slotM0 : Memref sig .tc .vmem S8x128 .f32).view.amount (.dma recvS0) = N := rfl

set_option maxHeartbeats 1600000 in
/-- The copy to the device 1 place on: its landing in slot 2 there holds this device's row sums. -/
theorem wp_send1 (c n : Dev nD) (hn : n = peer c 1)
    {hsc : (slotM2 : Memref sig (Dev.tc n : Thread nD τ).2.kind .vmem S8x128 .f32).view.ref.isScScratch = false}
    {hsrc : (mM : Memref sig .tc .vmem S8x128 .f32).view.WordExact} {hdst : (slotM2 : Memref sig .tc .vmem S8x128 .f32).view.WordExact}
    {hsem : DmaTarget.Typed .vmem (.dma recvS2) (.remote (Dev.tc n : Thread nD τ) (slotM2 : Memref sig .tc .vmem S8x128 .f32) (.dma sendS1) hsc)}
    {α : Type} {Q : α → sProp 𝕄} {k : PUnit → Prog (TpuEff nD τ sig (Elt F) Λ₀ .tc) α}
    (fn : Buf (Elt F) ((slotM2 : Memref sig .tc .vmem S8x128 .f32).view.loc (peer c 1 : Thread nD τ))) (W : Waits sig Unit) (O : CellTallies nD τ sig Unit) :
    iprop(cellInv ER (sched m) (K (c, 1)) (sendCell1 c) ∗ cellInv ER (sched m) (K (peer c 1, 6)) (recvCell2 (peer c 1))
        ∗ (mM.view.loc (c : Thread nD τ) ↦[mM.view.set]{q1} mineV m c)
        ∗ (slotM2.view.loc (peer c 1 : Thread nD τ) ↦[slotM2.view.set]{fullShare} fn)
        ∗ owes (c : Thread nD τ) (O + tallyAt (recvCell2 (peer c 1)) () N) W
        ∗ dutyTok ER (sendCell1 c) 0 0 ∗ reached ER (sendCell1 c) 0
        ∗ dutyTok ER (recvCell2 (peer c 1)) 0 0 ∗ reached ER (recvCell2 (peer c 1)) 0)
      ⊢ iprop(((cred (tallyAt (sendCell1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) slotM2 (.dma sendS1) hsc) (.dma recvS2) hsrc hdst hsem) k) Q) := by
  subst hn
  exact Rounds.wp_send_pointsTo 𝒱₀ ER (sched m) (c : Thread nD τ) none (c' := (peer c 1 : Thread nD τ))
    (src := (mM : Memref sig .tc .vmem S8x128 .f32)) (dst := (slotM2 : Memref sig .tc .vmem S8x128 .f32))
    (sS := .dma sendS1) (sem := .dma recvS2) (κ₁ := K (c, 1)) (κ₂ := K (peer c 1, 6))
    (r₁ := 0) (r₂ := 0) (d₁ := 0) (d₂ := 0) (fd := fn) (q := q1) (fs := mineV m c)
    (by rw [duties_send1]; exact Finset.mem_singleton_self _) (by rw [duties_recv2]; exact Finset.mem_singleton_self _)
    () () N slot_amount2 (amount_send1 m c 0) (amount_recv2 m (peer c 1) 0) O rfl (W := W)
    (by rw [payload_send1])
    (by rw [payload_recv2]; exact Entails.of_eq (pointsTo_congr (landed2 m c fn)))

set_option maxHeartbeats 1600000 in
/-- The copy to the device 2 places on: its landing in slot 1 there holds this device's row sums. -/
theorem wp_send2 (c n : Dev nD) (hn : n = peer c 2)
    {hsc : (slotM1 : Memref sig (Dev.tc n : Thread nD τ).2.kind .vmem S8x128 .f32).view.ref.isScScratch = false}
    {hsrc : (mM : Memref sig .tc .vmem S8x128 .f32).view.WordExact} {hdst : (slotM1 : Memref sig .tc .vmem S8x128 .f32).view.WordExact}
    {hsem : DmaTarget.Typed .vmem (.dma recvS1) (.remote (Dev.tc n : Thread nD τ) (slotM1 : Memref sig .tc .vmem S8x128 .f32) (.dma sendS2) hsc)}
    {α : Type} {Q : α → sProp 𝕄} {k : PUnit → Prog (TpuEff nD τ sig (Elt F) Λ₀ .tc) α}
    (fn : Buf (Elt F) ((slotM1 : Memref sig .tc .vmem S8x128 .f32).view.loc (peer c 2 : Thread nD τ))) (W : Waits sig Unit) (O : CellTallies nD τ sig Unit) :
    iprop(cellInv ER (sched m) (K (c, 2)) (sendCell2 c) ∗ cellInv ER (sched m) (K (peer c 2, 5)) (recvCell1 (peer c 2))
        ∗ (mM.view.loc (c : Thread nD τ) ↦[mM.view.set]{q2} mineV m c)
        ∗ (slotM1.view.loc (peer c 2 : Thread nD τ) ↦[slotM1.view.set]{fullShare} fn)
        ∗ owes (c : Thread nD τ) (O + tallyAt (recvCell1 (peer c 2)) () N) W
        ∗ dutyTok ER (sendCell2 c) 0 0 ∗ reached ER (sendCell2 c) 0
        ∗ dutyTok ER (recvCell1 (peer c 2)) 0 0 ∗ reached ER (recvCell1 (peer c 2)) 0)
      ⊢ iprop(((cred (tallyAt (sendCell2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) slotM1 (.dma sendS2) hsc) (.dma recvS1) hsrc hdst hsem) k) Q) := by
  subst hn
  exact Rounds.wp_send_pointsTo 𝒱₀ ER (sched m) (c : Thread nD τ) none (c' := (peer c 2 : Thread nD τ))
    (src := (mM : Memref sig .tc .vmem S8x128 .f32)) (dst := (slotM1 : Memref sig .tc .vmem S8x128 .f32))
    (sS := .dma sendS2) (sem := .dma recvS1) (κ₁ := K (c, 2)) (κ₂ := K (peer c 2, 5))
    (r₁ := 0) (r₂ := 0) (d₁ := 0) (d₂ := 0) (fd := fn) (q := q2) (fs := mineV m c)
    (by rw [duties_send2]; exact Finset.mem_singleton_self _) (by rw [duties_recv1]; exact Finset.mem_singleton_self _)
    () () N slot_amount1 (amount_send2 m c 0) (amount_recv1 m (peer c 2) 0) O rfl (W := W)
    (by rw [payload_send2])
    (by rw [payload_recv1]; exact Entails.of_eq (pointsTo_congr (landed1 m c fn)))

set_option maxHeartbeats 1600000 in
/-- The copy to the device 3 places on: its landing in slot 0 there holds this device's row sums. -/
theorem wp_send3 (c n : Dev nD) (hn : n = peer c 3)
    {hsc : (slotM0 : Memref sig (Dev.tc n : Thread nD τ).2.kind .vmem S8x128 .f32).view.ref.isScScratch = false}
    {hsrc : (mM : Memref sig .tc .vmem S8x128 .f32).view.WordExact} {hdst : (slotM0 : Memref sig .tc .vmem S8x128 .f32).view.WordExact}
    {hsem : DmaTarget.Typed .vmem (.dma recvS0) (.remote (Dev.tc n : Thread nD τ) (slotM0 : Memref sig .tc .vmem S8x128 .f32) (.dma sendS3) hsc)}
    {α : Type} {Q : α → sProp 𝕄} {k : PUnit → Prog (TpuEff nD τ sig (Elt F) Λ₀ .tc) α}
    (fn : Buf (Elt F) ((slotM0 : Memref sig .tc .vmem S8x128 .f32).view.loc (peer c 3 : Thread nD τ))) (W : Waits sig Unit) :
    iprop(cellInv ER (sched m) (K (c, 3)) (sendCell3 c) ∗ cellInv ER (sched m) (K (peer c 3, 4)) (recvCell0 (peer c 3))
        ∗ (mM.view.loc (c : Thread nD τ) ↦[mM.view.set]{q3} mineV m c)
        ∗ (slotM0.view.loc (peer c 3 : Thread nD τ) ↦[slotM0.view.set]{fullShare} fn)
        ∗ owes (c : Thread nD τ) (tallyAt (recvCell0 (peer c 3)) () N) W
        ∗ dutyTok ER (sendCell3 c) 0 0 ∗ reached ER (sendCell3 c) 0
        ∗ dutyTok ER (recvCell0 (peer c 3)) 0 0 ∗ reached ER (recvCell0 (peer c 3)) 0)
      ⊢ iprop(((cred (tallyAt (sendCell3 c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) slotM0 (.dma sendS3) hsc) (.dma recvS0) hsrc hdst hsem) k) Q) := by
  subst hn
  exact Rounds.wp_send_pointsTo 𝒱₀ ER (sched m) (c : Thread nD τ) none (c' := (peer c 3 : Thread nD τ))
    (src := (mM : Memref sig .tc .vmem S8x128 .f32)) (dst := (slotM0 : Memref sig .tc .vmem S8x128 .f32))
    (sS := .dma sendS3) (sem := .dma recvS0) (κ₁ := K (c, 3)) (κ₂ := K (peer c 3, 4))
    (r₁ := 0) (r₂ := 0) (d₁ := 0) (d₂ := 0) (fd := fn) (q := q3) (fs := mineV m c)
    (by rw [duties_send3]; exact Finset.mem_singleton_self _) (by rw [duties_recv0]; exact Finset.mem_singleton_self _)
    () () N slot_amount0 (amount_send3 m c 0) (amount_recv0 m (peer c 3) 0) 0 (by rw [zero_add]) (W := W)
    (by rw [payload_send3])
    (by rw [payload_recv0]; exact Entails.of_eq (pointsTo_congr (landed0 m c fn)))

omit [FloatOps F] in
/-- Three payloads of one round, as a chain. -/
theorem sep3_chain (P Q R : sProp 𝕄) : Idealize.SL.BI.sep P (Idealize.SL.BI.sep Q R) ⊢ iprop(P ∗ Q ∗ R) := BI.Entails.refl _

omit [FloatOps F] in
theorem hz1 : (![0] : Fin 1 → Nat) = fun _ => 0 := funext fun a => by fin_cases a; rfl

omit [FloatOps F] in
theorem rd_x (f : (cc0_stg0_0 : Ref sig .tc).ty.Contents (Elt F)) :
    View.readAt (Elt F) (Memref.whole cc0_stg0_0).view (Rect.unit (s := S1024x512) ![0, 0] S1024x512.size inb_S1024x512_S1024x512_0_0).toLoadRect f = f :=
  Memref.readAt_unit_zero (Elt F) cc0_stg0_0 hz2 _ f
omit [FloatOps F] in
theorem rd_g (f : (cc0_stg1_0 : Ref sig .tc).ty.Contents (Elt F)) :
    View.readAt (Elt F) (Memref.whole cc0_stg1_0).view (Rect.unit (s := S512) ![0] S512.size inb_S512_S512_0).toLoadRect f = f :=
  Memref.readAt_unit_zero (Elt F) cc0_stg1_0 hz1 _ f
omit [FloatOps F] in
theorem rd_m (f : (cc0_scratch0 : Ref sig .tc).ty.Contents (Elt F)) :
    View.readAt (Elt F) (Memref.whole cc0_scratch0).view (Rect.unit (s := S8x128) ![0, 0] S8x128.size inb_S8x128_S8x128_0_0).toLoadRect f = f :=
  Memref.readAt_unit_zero (Elt F) cc0_scratch0 hz2 _ f

omit [FloatOps F] in
/-- The result's staging buffer after the one store over all of it. -/
theorem out_written (c : Dev nD) (g2 : Buf (Elt F) ((c : Thread nD τ).loc cc0_stg2_0)) (X : FVec F S1024x512 .f32) :
    (Memref.whole cc0_stg2_0).view.writes (Elt F) g2
      [⟨Rect.unit (s := S1024x512) ![0, 0] S1024x512.size inb_S1024x512_S1024x512_0_0, X⟩] = X := by
  rw [View.writes_singleton]
  exact Memref.write_access_unit_zero_univ (Elt F) cc0_stg2_0 hz2 _ g2 X

attribute [local sl_rounds] duties_bar duties_send1 duties_send2 duties_send3 duties_recv0 duties_recv1 duties_recv2
  amount_bar amount_send1 amount_send2 amount_send3 amount_recv0 amount_recv1 amount_recv2
  expect_bar expect_send1 expect_send2 expect_send3 expect_recv0 expect_recv1 expect_recv2
  payload_bar_1 payload_bar_2 payload_bar_3
  payload_recv0 payload_recv1 payload_recv2 payload_send1 payload_send2 payload_send3

attribute [local sl_canon] dev1_eq dev2_eq dev3_eq dev4_eq dev5_eq dev6_eq

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  unfold bodyPre ghost positions payToks credits
  iintro ⟨⟨⟨⟨#Hrec, ⟨HatB, HatS1, HatS2, HatS3, HatR0, HatR1, HatR2⟩, HtB1, HtB2, HtB3, HtR2, HtR1, HtR0, HtS1, HtS2, HtS3⟩, ⟨HcB, HcR0, HcR1, HcR2⟩, #Hlev, Hz0, ⟨%fm, Hmine⟩, ⟨%fc, Hcomm⟩⟩,
    Ho, ⟨%d0, %g0, %hg0, Hx⟩, ⟨%d1, %g1, %hg1, Hg⟩, ⟨%d2, %g2, %hg2, Hout⟩⟩, Hk⟩
  have hx : g0 = xstg m ρ c := by rw [hg0]; unfold Dat.before; rw [if_pos (fetch_0 t₀)]; rfl
  have hg : g1 = gstg m ρ c := by rw [hg1]; unfold Dat.before; rw [if_pos (fetch_1 t₀)]; rfl
  subst hx; subst hg
  unfold Dat.owesAt Pipeline.owesWithin
  icases Ho with ⟨%W, %hW, HO⟩
  rw [show (dats m ρ 0 c).owed t₀.castSucc = O₀ c from rfl]
  unfold O₀ O₁ O₂ O₃
  ihave H := (inv_at m K (c, 0)) $$ Hrec; icases H with #HIbar
  ihave H := (inv_at m K (c, 1)) $$ Hrec; icases H with #HIs1
  ihave H := (inv_at m K (c, 2)) $$ Hrec; icases H with #HIs2
  ihave H := (inv_at m K (c, 3)) $$ Hrec; icases H with #HIs3
  ihave H := (inv_at m K (c, 4)) $$ Hrec; icases H with #HIr0
  ihave H := (inv_at m K (c, 5)) $$ Hrec; icases H with #HIr1
  ihave H := (inv_at m K (c, 6)) $$ Hrec; icases H with #HIr2
  ihave H := (inv_at m K (peer c 1, 0)) $$ Hrec; icases H with #HIbar1
  ihave H := (inv_at m K (peer c 2, 0)) $$ Hrec; icases H with #HIbar2
  ihave H := (inv_at m K (peer c 3, 0)) $$ Hrec; icases H with #HIbar3
  ihave H := (inv_at m K (peer c 1, 6)) $$ Hrec; icases H with #HIr2p
  ihave H := (inv_at m K (peer c 2, 5)) $$ Hrec; icases H with #HIr1p
  ihave H := (inv_at m K (peer c 3, 4)) $$ Hrec; icases H with #HIr0p
  ihave H := (reached_at m K (peer c 1, 0)) $$ Hrec; icases H with #HrB1
  ihave H := (reached_at m K (peer c 2, 0)) $$ Hrec; icases H with #HrB2
  ihave H := (reached_at m K (peer c 3, 0)) $$ Hrec; icases H with #HrB3
  ihave H := (reached_at m K (c, 1)) $$ Hrec; icases H with #HrS1
  ihave H := (reached_at m K (c, 2)) $$ Hrec; icases H with #HrS2
  ihave H := (reached_at m K (c, 3)) $$ Hrec; icases H with #HrS3
  ihave H := (reached_at m K (c, 4)) $$ Hrec; icases H with #HrR0
  ihave H := (reached_at m K (c, 5)) $$ Hrec; icases H with #HrR1
  ihave H := (reached_at m K (c, 6)) $$ Hrec; icases H with #HrR2
  have hmw : (levAts L lv : sProp 𝕄) ⊢ MayWait (c : Thread nD τ) (.reg barS) ()
      (tallyAt (recvCell0 (peer c 3)) () N + tallyAt (recvCell1 (peer c 2)) () N + tallyAt (recvCell2 (peer c 1)) () N) := mayWait_bar c
  -- the receive buffer by slots: each signal hands one slot over
  ihave Hs := (comm_split (F := F) c fc).1 $$ Hcomm
  icases Hs with ⟨Hs0, Hs1, Hs2⟩
  sl_unfold [cc0_body]
  sl_exec
  -- the three signals: each hands the device it goes to the slot of this device's receive buffer that device writes
  iapply (Rounds.wp_signal 𝒱₀ ER (sched m) (c : Thread nD τ) none (dst := (peer c 1 : Thread nD τ)) (κ := K (peer c 1, 0))
      (d := 1) (by rw [duties_bar]; decide) ((amount_bar m (peer c 1) 1).trans (by decide)) ()
      (tallyAt (recvCell0 (peer c 3)) () N + tallyAt (recvCell1 (peer c 2)) () N + tallyAt (recvCell2 (peer c 1)) () N +
          tallyAt (barCell (peer c 3)) () 1 + tallyAt (barCell (peer c 2)) () 1) rfl)
    $$ [HO HtB1 Hs0]
  · isplitr; · iexact HIbar1
    isplitl [HO]; · iexact HO
    isplitl [HtB1]; · iexact HtB1
    isplitl [Hs0]
    · rw [payload_bar_peer1]
      isplitl [Hs0]; · iexists fc; iexact Hs0
      iexact HrR0
    · iexact HrB1
  iintro HO
  sl_exec
  iapply (Rounds.wp_signal 𝒱₀ ER (sched m) (c : Thread nD τ) none (dst := (peer c 2 : Thread nD τ)) (κ := K (peer c 2, 0))
      (d := 2) (by rw [duties_bar]; decide) ((amount_bar m (peer c 2) 2).trans (by decide)) ()
      (tallyAt (recvCell0 (peer c 3)) () N + tallyAt (recvCell1 (peer c 2)) () N + tallyAt (recvCell2 (peer c 1)) () N +
          tallyAt (barCell (peer c 3)) () 1) rfl)
    $$ [HO HtB2 Hs1]
  · isplitr; · iexact HIbar2
    isplitl [HO]; · iexact HO
    isplitl [HtB2]; · iexact HtB2
    isplitl [Hs1]
    · rw [payload_bar_peer2]
      isplitl [Hs1]; · iexists fc; iexact Hs1
      iexact HrR1
    · iexact HrB2
  iintro HO
  sl_exec
  iapply (Rounds.wp_signal 𝒱₀ ER (sched m) (c : Thread nD τ) none (dst := (peer c 3 : Thread nD τ)) (κ := K (peer c 3, 0))
      (d := 3) (by rw [duties_bar]; decide) ((amount_bar m (peer c 3) 3).trans (by decide)) ()
      (tallyAt (recvCell0 (peer c 3)) () N + tallyAt (recvCell1 (peer c 2)) () N + tallyAt (recvCell2 (peer c 1)) () N) rfl)
    $$ [HO HtB3 Hs2]
  · isplitr; · iexact HIbar3
    isplitl [HO]; · iexact HO
    isplitl [HtB3]; · iexact HtB3
    isplitl [Hs2]
    · rw [payload_bar_peer3]
      isplitl [Hs2]; · iexists fc; iexact Hs2
      iexact HrR2
    · iexact HrB3
  iintro HO
  ihave Hx := (Entails.of_eq (whole_pts (F := F) c cc0_stg0_0 _)) $$ Hx
  ihave Hg := (Entails.of_eq (whole_pts (F := F) c cc0_stg1_0 _)) $$ Hg
  ihave Hout := (Entails.of_eq (whole_pts (F := F) c cc0_stg2_0 _)) $$ Hout
  ihave Hmine := (Entails.of_eq (whole_pts (F := F) c cc0_scratch0 _)) $$ Hmine
  sl_exec
  -- the three slots the barrier handed over
  ihave Hpay := (sep3_chain (F := F) _ _ _) $$ HatB_pay1
  icases Hpay with ⟨⟨⟨%fp0, Hp0⟩, #HrP0⟩, ⟨⟨%fp1, Hp1⟩, #HrP1⟩, ⟨⟨%fp2, Hp2⟩, #HrP2⟩⟩
  -- the row sums as stored, cut into the three copies' shares and the device's own
  ihave Hmine := (mine_stored m ρ c fm) $$ Hmine
  ihave Hm := (mine_cut (F := F) c (mineV m c)) $$ Hmine
  icases Hm with ⟨Hm1, Hm2, Hm3, Hm0⟩
  iapply (wp_send1 m K c _ (dev4_eq c) fp2 _ (tallyAt (recvCell0 (peer c 3)) () N + tallyAt (recvCell1 (peer c 2)) () N)) $$ [Hm1 Hp2 HO HtS1 HtR2]
  · isplitr; · iexact HIs1
    isplitr; · iexact HIr2p
    isplitl [Hm1]; · iexact Hm1
    isplitl [Hp2]; · iexact Hp2
    isplitl [HO]; · iexact HO
    isplitl [HtS1]; · iexact HtS1
    isplitr; · iexact HrS1
    isplitl [HtR2]; · iexact HtR2
    iexact HrP2
  iintro ⟨HcS1, HO⟩
  sl_exec
  iapply (wp_send2 m K c _ (dev5_eq c) fp1 _ (tallyAt (recvCell0 (peer c 3)) () N)) $$ [Hm2 Hp1 HO HtS2 HtR1]
  · isplitr; · iexact HIs2
    isplitr; · iexact HIr1p
    isplitl [Hm2]; · iexact Hm2
    isplitl [Hp1]; · iexact Hp1
    isplitl [HO]; · iexact HO
    isplitl [HtS2]; · iexact HtS2
    isplitr; · iexact HrS2
    isplitl [HtR1]; · iexact HtR1
    iexact HrP1
  iintro ⟨HcS2, HO⟩
  sl_exec
  iapply (wp_send3 m K c _ (dev6_eq c) fp0 _) $$ [Hm3 Hp0 HO HtS3 HtR0]
  · isplitr; · iexact HIs3
    isplitr; · iexact HIr0p
    isplitl [Hm3]; · iexact Hm3
    isplitl [Hp0]; · iexact Hp0
    isplitl [HO]; · iexact HO
    isplitl [HtS3]; · iexact HtS3
    isplitr; · iexact HrS3
    isplitl [HtR0]; · iexact HtR0
    iexact HrP0
  iintro ⟨HcS3, HO⟩
  sl_exec
  -- the six own cells close: their counters at zero are the device's again
  imod (Rounds.cell_close ER (sched m) (Set.mem_univ (K (c, 1))) (fun h => h) (R := 1) (duties_later m (sendCell1 c))) $$ [HatS1] with HzS1
  · isplitr; · iexact HIs1
    iexact HatS1
  imod (Rounds.cell_close ER (sched m) (Set.mem_univ (K (c, 2))) (fun h => h) (R := 1) (duties_later m (sendCell2 c))) $$ [HatS2] with HzS2
  · isplitr; · iexact HIs2
    iexact HatS2
  imod (Rounds.cell_close ER (sched m) (Set.mem_univ (K (c, 3))) (fun h => h) (R := 1) (duties_later m (sendCell3 c))) $$ [HatS3] with HzS3
  · isplitr; · iexact HIs3
    iexact HatS3
  imod (Rounds.cell_close ER (sched m) (Set.mem_univ (K (c, 4))) (fun h => h) (R := 1) (duties_later m (recvCell0 c))) $$ [HatR0] with HzR0
  · isplitr; · iexact HIr0
    iexact HatR0
  imod (Rounds.cell_close ER (sched m) (Set.mem_univ (K (c, 5))) (fun h => h) (R := 1) (duties_later m (recvCell1 c))) $$ [HatR1] with HzR1
  · isplitr; · iexact HIr1
    iexact HatR1
  imod (Rounds.cell_close ER (sched m) (Set.mem_univ (K (c, 6))) (fun h => h) (R := 1) (duties_later m (recvCell2 c))) $$ [HatR2] with HzR2
  · isplitr; · iexact HIr2
    iexact HatR2
  -- the row sums' four shares and the receive buffer's three slots put together again
  ihave Hmine := (mine_glue (F := F) c (mineV m c)) $$ [HatS1_pay1 HatS2_pay1 HatS3_pay1 Hm0]
  · isplitl [HatS1_pay1]; · iexact HatS1_pay1
    isplitl [HatS2_pay1]; · iexact HatS2_pay1
    isplitl [HatS3_pay1]; · iexact HatS3_pay1
    iexact Hm0
  ihave Hmine := (Entails.of_eq (whole_pts (F := F) c cc0_scratch0 _).symm) $$ Hmine
  ihave Hcomm := (comm_join (F := F) c (commV m c) (commV m c) (commV m c) (commV m c) (fun _ _ => rfl) (fun _ _ => rfl) (fun _ _ => rfl))
    $$ [HatR0_pay1 HatR1_pay1 HatR2_pay1]
  · isplitl [HatR0_pay1]; · iexact HatR0_pay1
    isplitl [HatR1_pay1]; · iexact HatR1_pay1
    iexact HatR2_pay1
  ihave Hx := (Entails.of_eq (whole_pts (F := F) c cc0_stg0_0 _).symm) $$ Hx
  ihave Hg := (Entails.of_eq (whole_pts (F := F) c cc0_stg1_0 _).symm) $$ Hg
  ihave Hout := (Entails.of_eq (whole_pts (F := F) c cc0_stg2_0 _).symm) $$ Hout
  rw [wp_ret]; imodintro
  iapply Hk
  unfold bodyPost Φ₁ Dat.owesAt Pipeline.owesWithin
  rw [show (dats m ρ 0 c).owed t₀.succ = 0 from rfl]
  isplitl [Hmine Hcomm Hz0 HzS1 HzS2 HzS3 HzR0 HzR1 HzR2]
  · isplitl [Hmine]; · iexists _; iexact Hmine
    isplitl [Hcomm]; · iexists _; iexact Hcomm
    isplitl [Hz0]; · iexact Hz0
    isplitl [HzS1]; · iexact HzS1
    isplitl [HzS2]; · iexact HzS2
    isplitl [HzS3]; · iexact HzS3
    isplitl [HzR0]; · iexact HzR0
    isplitl [HzR1]; · iexact HzR1
    iexact HzR2
  isplitl [HO]
  · iexists _
    isplitr
    rotate_left
    · iexact HO
    · ipureintro; exact fun _ _ => Or.inl trivial
  isplitl [Hx]
  · iexists _; isplitr; · (ipureintro; rfl)
    iexact Hx
  isplitl [Hg]
  · iexists _; isplitr; · (ipureintro; rfl)
    iexact Hg
  iexists _; isplitr
  rotate_left
  · iexact Hout
  · ipureintro
    rw [out_written]
    sl_unfold_words
    rw [rd_x, rd_g, rd_m, load_slot_0 m c, load_slot_1 m c, load_slot_2 m c]
    exact outV_eq m ρ c

/-- info: 'Cert.Kernel.Hand.sound_body' depends on axioms: [propext, Classical.choice, Quot.sound] -/
#guard_msgs in #print axioms sound_body

end Body

end Cert.Kernel.Hand

end
-- ==== Proof.KernelObligation.lean ====
/-
  The body's obligation on every device, in the form the launch asks for: at the one point of the grid, from the invariant
  before the point, what the device still owes and the three staging buffers as the pipeline hands them over, the kernel's
  body runs to the invariant after the point, nothing owed, the staging buffers at what the pipeline expects to find.
-/
import proofs.«900583_g7700000000000584_dist_rmsnorm_colshard_i_m1024_n512_v7x_i4_f32_1_alg».proof.Proof.KernelBody

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The obligation's precondition at the one point, the windows' staging buffers written out. -/
def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The body obligation on device `c`: the invariant before the point names the ghost state's names; with them the body's
    own lemma applies, and its post is the obligation's. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev, Hs⟩, Hscr0, Hscr1⟩, Ho, Hx, Hgm, Hout⟩
  iapply (sound_body m ρ K c fun _ => bodyPost m ρ c)
  unfold bodyPre
  isplitr []
  · isplitl [Hg Hcr Hlev Hs Hscr0 Hscr1]
    · isplitl [Hg]; · iexact Hg
      isplitl [Hcr]; · iexact Hcr
      isplitl [Hlev]; · iexact Hlev
      isplitl [Hs]; · iexact Hs
      isplitl [Hscr0]; · iexact Hscr0
      iexact Hscr1
    isplitl [Ho]; · iexact Ho
    isplitl [Hx]; · iexact Hx
    isplitl [Hgm]; · iexact Hgm
    iexact Hout
  · iintro H; iexact H

/-- info: 'Cert.Kernel.Hand.body_obligation' depends on axioms: [propext, Classical.choice, Quot.sound] -/
#guard_msgs in #print axioms body_obligation

end Cert.Kernel.Hand

end
-- ==== Proof.KernelCreds.lean ====
/-
  The credit each device's cells are owed at launch.

  Device `d` owes six dues: the block's credit to the receive cell of the slot it writes on each of the three other
  devices, and one unit to each other device's barrier cell. Going a fixed number of places round the mesh is a
  permutation, so each of the six dues, summed over the payers, lands exactly once on each device: a device's barrier
  cell is owed one unit by each of the three others, three in all, and each of its three receive cells the block's
  credit by the one device that writes that slot.
-/
import proofs.«900583_g7700000000000584_dist_rmsnorm_colshard_i_m1024_n512_v7x_i4_f32_1_alg».proof.Proof.KernelProto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Each due, summed over the payers, at the device it lands on -/

omit [FloatOps F] in
/-- The credit of the copy into slot 0, owed by the device three places back. -/
theorem due_recv0 (c : Dev nD) :
    (Pipeline.launchCred (fun d : Dev nD => (tallyAt (recvCell0 (peer d 3)) () N : CellTallies nD τ sig Unit)) c : sProp 𝕄)
      ⊢ cred (tallyAt (recvCell0 c) () N) :=
  Pipeline.launchCred_tallyAt (.dma recvS0) (fun d => peer d 3) (fun d => peer d 1) peer_peer_13 peer_peer_31 () N c

omit [FloatOps F] in
/-- The credit of the copy into slot 1, owed by the device two places back. -/
theorem due_recv1 (c : Dev nD) :
    (Pipeline.launchCred (fun d : Dev nD => (tallyAt (recvCell1 (peer d 2)) () N : CellTallies nD τ sig Unit)) c : sProp 𝕄)
      ⊢ cred (tallyAt (recvCell1 c) () N) :=
  Pipeline.launchCred_tallyAt (.dma recvS1) (fun d => peer d 2) (fun d => peer d 2) peer_peer_22 peer_peer_22 () N c

omit [FloatOps F] in
/-- The credit of the copy into slot 2, owed by the device one place back. -/
theorem due_recv2 (c : Dev nD) :
    (Pipeline.launchCred (fun d : Dev nD => (tallyAt (recvCell2 (peer d 1)) () N : CellTallies nD τ sig Unit)) c : sProp 𝕄)
      ⊢ cred (tallyAt (recvCell2 c) () N) :=
  Pipeline.launchCred_tallyAt (.dma recvS2) (fun d => peer d 1) (fun d => peer d 3) peer_peer_31 peer_peer_13 () N c

omit [FloatOps F] in
/-- The barrier unit of the device three places back, -/
theorem due_bar3 (c : Dev nD) :
    (Pipeline.launchCred (fun d : Dev nD => (tallyAt (barCell (peer d 3)) () 1 : CellTallies nD τ sig Unit)) c : sProp 𝕄)
      ⊢ cred (tallyAt (barCell c) () 1) :=
  Pipeline.launchCred_tallyAt (.reg barS) (fun d => peer d 3) (fun d => peer d 1) peer_peer_13 peer_peer_31 () 1 c

omit [FloatOps F] in
/-- of the device two places back, -/
theorem due_bar2 (c : Dev nD) :
    (Pipeline.launchCred (fun d : Dev nD => (tallyAt (barCell (peer d 2)) () 1 : CellTallies nD τ sig Unit)) c : sProp 𝕄)
      ⊢ cred (tallyAt (barCell c) () 1) :=
  Pipeline.launchCred_tallyAt (.reg barS) (fun d => peer d 2) (fun d => peer d 2) peer_peer_22 peer_peer_22 () 1 c

omit [FloatOps F] in
/-- and of the device one place back. -/
theorem due_bar1 (c : Dev nD) :
    (Pipeline.launchCred (fun d : Dev nD => (tallyAt (barCell (peer d 1)) () 1 : CellTallies nD τ sig Unit)) c : sProp 𝕄)
      ⊢ cred (tallyAt (barCell c) () 1) :=
  Pipeline.launchCred_tallyAt (.reg barS) (fun d => peer d 1) (fun d => peer d 3) peer_peer_31 peer_peer_13 () 1 c

omit [FloatOps F] in
/-- Three units on one cell are the cell's credit of three. -/
theorem cred_three (g : GSem nD τ sig) :
    (iprop(cred (tallyAt g () 1) ∗ cred (tallyAt g () 1) ∗ cred (tallyAt g () 1)) : sProp 𝕄) ⊢ cred (tallyAt g () 3) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

omit [FloatOps F] in
/-- What the devices owe at launch, as the sum of the six dues. -/
theorem O₀_eq : (O₀ : Dev nD → CellTallies nD τ sig Unit) = fun d =>
    ((((tallyAt (recvCell0 (peer d 3)) () N + tallyAt (recvCell1 (peer d 2)) () N) + tallyAt (recvCell2 (peer d 1)) () N)
      + tallyAt (barCell (peer d 3)) () 1) + tallyAt (barCell (peer d 2)) () 1) + tallyAt (barCell (peer d 1)) () 1 := rfl

omit [FloatOps F] in
/-- The launch deals device `c` the credit its four receiving cells are owed: three units on its barrier cell, the
    block's credit on each receive cell. -/
theorem creds (c : Dev nD) : (Pipeline.launchCred O₀ c : sProp 𝕄) ⊢ credits c := by
  rw [O₀_eq, Pipeline.launchCred_add, Pipeline.launchCred_add, Pipeline.launchCred_add, Pipeline.launchCred_add,
    Pipeline.launchCred_add]
  unfold credits
  iintro ⟨⟨⟨⟨⟨H0, H1⟩, H2⟩, H3⟩, H4⟩, H5⟩
  ihave K0 := (due_recv0 (F := F) c) $$ H0
  ihave K1 := (due_recv1 (F := F) c) $$ H1
  ihave K2 := (due_recv2 (F := F) c) $$ H2
  ihave B3 := (due_bar3 (F := F) c) $$ H3
  ihave B2 := (due_bar2 (F := F) c) $$ H4
  ihave B1 := (due_bar1 (F := F) c) $$ H5
  isplitl [B1 B2 B3]
  · iapply (cred_three (F := F) (barCell c))
    isplitl [B1]; · iexact B1
    isplitl [B2]; · iexact B2
    iexact B3
  isplitl [K0]; · iexact K0
  isplitl [K1]; · iexact K1
  iexact K2

end Cert.Kernel.Hand

end
-- ==== Proof.KernelGhost.lean ====
/-
  The ghost side of the launch.

  The protocol's copy of the resource algebra starts from the launch element of the twenty-eight cells (seven a device)
  and the thirty-six duty tokens (nine a device: the three duties of its barrier cell, the one duty of each send and each
  receive cell). Funding turns that element into every cell's round state at counter zero, the fact that its round 0 is
  reached, its owner's position, and the tokens; grouped by device this is what the launch deals each device.

  The global step then has every device's seven protocol semaphores at zero. Each counter with its round state becomes
  the body of the cell's invariant at some name; the names are gathered into one function of (device, cell), under which
  the invariants and the reached-round facts are persistent and so there for every device. The tokens travel round the
  mesh to the devices that pay the duties: the token of duty k of a barrier cell goes to the device 4 - k places after
  the cell's owner (that device's k-th signal pays it), the token of a receive cell to the device that writes its slot
  (slot 2 the device 3 places on, slot 1 the device 2 places on, slot 0 the device 1 place on), and a send cell's token
  stays with its owner. The one scoped semaphore the protocol never touches is passed through at zero.
-/
import proofs.«900583_g7700000000000584_dist_rmsnorm_colshard_i_m1024_n512_v7x_i4_f32_1_alg».proof.Proof.KernelProto
import Idealize.ShloMosaic.Lib.Rounds
import Idealize.ShloMosaic.Lib.Pipeline.Launch
import Idealize.ShloMosaic.Lib.Pipeline.Kit
import Idealize.ShloMosaic.Lib.Tactic
import Idealize.SL.ProofMode.BigOp

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch element -/

/-- Two (device, cell index) pairs name the same cell only if they are equal: the device is the cell's thread, and the
    seven semaphores are distinct. -/
theorem kcell_injective : Function.Injective (kcell : Dev nD × Fin 7 → GSem nD τ sig) := by
  rintro ⟨c, k⟩ ⟨c', k'⟩ h
  have hc : c = c' := by have := congrArg (fun g : GSem nD τ sig => g.1.1) h; exact this
  have hk : k = k' := csem_injective (congrArg Prod.snd h)
  rw [hc, hk]

def protoCells : Finset (GSem nD τ sig) := Finset.univ.map ⟨kcell, kcell_injective⟩

/-- The cell, and the duty of it, that the j-th of a device's nine tokens is for: the barrier cell's duties 1, 2, 3, then
    duty 0 of the send cells 1, 2, 3 and of the receive cells 0, 1, 2. -/
abbrev tokCell : Fin 9 → Fin 7 := fun
  | 0 => 0 | 1 => 0 | 2 => 0 | 3 => 1 | 4 => 2 | 5 => 3 | 6 => 4 | 7 => 5 | 8 => 6
abbrev tokDuty : Fin 9 → Fin 4 := fun
  | 0 => 1 | 1 => 2 | 2 => 3 | 3 => 0 | 4 => 0 | 5 => 0 | 6 => 0 | 7 => 0 | 8 => 0

theorem tok_index_injective : ∀ a b : Fin 9, tokCell a = tokCell b → tokDuty a = tokDuty b → a = b := by decide

/-- A device's own cells' duty tokens as minted, all of round 0. -/
abbrev tokOf (cj : Dev nD × Fin 9) : GSem nD τ sig × ℕ × Fin 4 := (kcell (cj.1, tokCell cj.2), 0, tokDuty cj.2)

theorem tokOf_injective : Function.Injective (tokOf : Dev nD × Fin 9 → GSem nD τ sig × ℕ × Fin 4) := by
  rintro ⟨c, j⟩ ⟨c', j'⟩ h
  have h1 : (c, tokCell j) = (c', tokCell j') := kcell_injective (congrArg Prod.fst h)
  have h2 : tokDuty j = tokDuty j' := by have := congrArg (fun x : GSem nD τ sig × ℕ × Fin 4 => x.2.2) h; exact this
  have hc : c = c' := congrArg Prod.fst h1
  have hj : j = j' := tok_index_injective j j' (congrArg Prod.snd h1) h2
  rw [hc, hj]

def protoToks : Finset (GSem nD τ sig × ℕ × Fin 4) := Finset.univ.map ⟨tokOf, tokOf_injective⟩

/-- The launch element: the staging cells' for the pipeline library's copy of the algebra, the protocol's cells and
    tokens for the other. -/
def u₀ : UU :=
  (initOf (Pipeline.cells cfgs cellOf_inj) (Pipeline.launchToks cfgs cellOf_inj), initOf protoCells protoToks)

/-! ## Funding -/

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- A family over the protocol's cells, summed device by device and cell by cell. -/
theorem bigSep_protoCells (Φ : GSem nD τ sig → sProp 𝕄) :
    bigSep protoCells Φ = bigSep Finset.univ fun c : Dev nD => bigSep Finset.univ fun k : Fin 7 => Φ (kcell (c, k)) := by
  unfold protoCells; rw [bigSep_map, bigSep_univ_prod]; rfl

/-- The minted tokens, summed device by device: each device's nine. -/
theorem bigSep_protoToks :
    bigSep protoToks (fun x => (dutyTok ER x.1 x.2.1 x.2.2 : sProp 𝕄)) = bigSep Finset.univ fun c : Dev nD => toks c := by
  unfold protoToks; rw [bigSep_map, bigSep_univ_prod]
  exact bigSep_congr fun c _ => by unfold toks; rw [bigSep_fin9]; rfl

/-- The protocol's launch element pays for every device's share: its cells' round states at counter zero, their
    positions and reached rounds, and its own cells' tokens. -/
theorem fund_proto : BI.own (ER (initOf protoCells protoToks)) ⊢ (|==> bigSep Finset.univ (G m) : sProp 𝕄) := by
  iintro HX
  imod (Rounds.fund ER (sched m) protoCells protoToks) $$ HX with ⟨Hst, Hr, Hat, Htok⟩
  imodintro
  ihave Hst' := (Entails.of_eq (bigSep_protoCells fun g => roundState ER (sched m) g 0)) $$ Hst
  ihave Hat' := (Entails.of_eq (bigSep_protoCells (F := F) fun g => atPos ER g 0 ∅ 0)) $$ Hat
  ihave Hr' := (Entails.of_eq (bigSep_protoCells (F := F) fun g => reached ER g 0)) $$ Hr
  ihave Htok' := (Entails.of_eq (bigSep_protoToks (F := F))) $$ Htok
  unfold G; simp only [bigSep_sep']
  isplitl [Hst']; · iexact Hst'
  isplitl [Hat' Hr']
  · isplitl [Hat'] <;> iassumption
  iexact Htok'

/-- The launch element splits into the two copies' halves; the protocol's half is funded. -/
theorem hu0 : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

/-! ## The semaphores at zero -/

/-- The kernel's own seven semaphores at zero, one by one: the one the protocol never touches, then the six cells'. -/
theorem ownSems0_eq (c : Dev nD) :
    (Pipeline.ownSems0 (Ix := Unit) (Name := ℕ) (U := UU) (Lvl := ℕ) (Val := Elt F) (τ := τ) osem c : sProp 𝕄)
      = iprop(semVal ((c : Thread nD τ), osem 0) 0 ∗ semVal (sendCell1 c) 0 ∗ semVal (sendCell2 c) 0 ∗ semVal (sendCell3 c) 0
          ∗ semVal (recvCell0 c) 0 ∗ semVal (recvCell1 c) 0 ∗ semVal (recvCell2 c) 0) := by
  rw [Pipeline.ownSems0_eq_of_list c osem [0, 1, 2, 3, 4, 5, 6] (by decide) (by decide)]; rfl

/-- The barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together: the untouched semaphore, and the seven cells' counters in the order of the cells. -/
theorem sems0_eq (c : Dev nD) :
    iprop(Pipeline.ownSems0 (Ix := Unit) (Name := ℕ) (U := UU) (Lvl := ℕ) (Val := Elt F) (τ := τ) osem c ∗ unscopedSems0 c)
      ⊢ (iprop(semVal ((c : Thread nD τ), osem 0) 0 ∗ bigSep Finset.univ fun k : Fin 7 => semVal (kcell (c, k)) 0) : sProp 𝕄) := by
  rw [ownSems0_eq, unscopedSems0_eq, bigSep_fin7]
  iintro ⟨⟨H0, H1, H2, H3, H4, H5, H6⟩, HB⟩
  isplitl [H0]; · iexact H0
  isplitl [HB]; · iexact HB
  isplitl [H1]; · iexact H1
  isplitl [H2]; · iexact H2
  isplitl [H3]; · iexact H3
  isplitl [H4]; · iexact H4
  isplitl [H5]; · iexact H5
  iexact H6

/-! ## The global step, device by device: the cells' invariants allocated -/

/-- Each of a device's seven counters at zero, with the cell's round state at zero, becomes the cell's invariant at some
    name. -/
theorem cells_alloc (c : Dev nD) :
    iprop((bigSep Finset.univ fun k : Fin 7 => semVal (kcell (c, k)) 0)
        ∗ bigSep Finset.univ fun k : Fin 7 => roundState ER (sched m) (kcell (c, k)) 0)
      ⊢ (|={Set.univ}=> bigSep Finset.univ fun k : Fin 7 => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

/-- One device's share after that: its cells' invariants at some names, its positions and reached rounds, its own cells'
    tokens, and the untouched semaphore. -/
def mid (c : Dev nD) : sProp 𝕄 :=
  iprop((bigSep Finset.univ fun k : Fin 7 => iprop(∃ κ : ℕ, cellInv ER (sched m) κ (kcell (c, k))))
    ∗ (bigSep Finset.univ fun k : Fin 7 => iprop(atPos ER (kcell (c, k)) 0 ∅ 0 ∗ reached ER (kcell (c, k)) 0))
    ∗ toks c ∗ semVal ((c : Thread nD τ), osem 0) 0)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> mid m c := by
  unfold G mid
  iintro ⟨Hos, Hus, Hst, Hat, Htok⟩
  ihave Hv := (sems0_eq (F := F) c) $$ [Hos Hus]
  · isplitl [Hos] <;> iassumption
  icases Hv with ⟨H0, Hv⟩
  imod (cells_alloc m c) $$ [Hv Hst] with Hinv
  · isplitl [Hv] <;> iassumption
  imodintro
  isplitl [Hinv]; · iexact Hinv
  isplitl [Hat]; · iexact Hat
  isplitl [Htok]; · iexact Htok
  iexact H0

/-! ## The global step, over the mesh: the names gathered, the tokens dealt -/

/-- The tokens dealt round the mesh. Summed over the payers c: duty k of the barrier cell of the device k places on; the
    receive cell of the slot c writes on the device 1, 2, 3 places on (slots 2, 1, 0); c's own send cells. Each sum is
    the sum over the cells' owners re-indexed by going k places on. -/
theorem toks_around :
    (bigSep Finset.univ fun c : Dev nD => (toks c : sProp 𝕄)) ⊢ bigSep Finset.univ fun c : Dev nD => payToks c := by
  unfold toks payToks
  simp only [bigSep_sep']
  rw [bigSep_univ_equiv shift1 (fun c : Dev nD => (dutyTok ER (barCell c) 0 1 : sProp 𝕄)),
    bigSep_univ_equiv shift2 (fun c : Dev nD => (dutyTok ER (barCell c) 0 2 : sProp 𝕄)),
    bigSep_univ_equiv shift3 (fun c : Dev nD => (dutyTok ER (barCell c) 0 3 : sProp 𝕄)),
    bigSep_univ_equiv shift1 (fun c : Dev nD => (dutyTok ER (recvCell2 c) 0 0 : sProp 𝕄)),
    bigSep_univ_equiv shift2 (fun c : Dev nD => (dutyTok ER (recvCell1 c) 0 0 : sProp 𝕄)),
    bigSep_univ_equiv shift3 (fun c : Dev nD => (dutyTok ER (recvCell0 c) 0 0 : sProp 𝕄))]
  iintro ⟨B1, B2, B3, S1, S2, S3, R0, R1, R2⟩
  isplitl [B1]; · iexact B1
  isplitl [B2]; · iexact B2
  isplitl [B3]; · iexact B3
  isplitl [R2]; · iexact R2
  isplitl [R1]; · iexact R1
  isplitl [R0]; · iexact R0
  isplitl [S1]; · iexact S1
  isplitl [S2]; · iexact S2
  iexact S3

/-- A persistent assertion in hand serves every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions are its seven cells' positions in the order of the cells. -/
theorem positions_eq (c : Dev nD) :
    (positions c : sProp 𝕄) = bigSep Finset.univ fun k : Fin 7 => atPos ER (kcell (c, k)) 0 ∅ 0 := by
  unfold positions; rw [bigSep_fin7]

/-- What stays linear with a device: its positions, the tokens of the duties it pays, the untouched semaphore. -/
theorem linear_intro :
    iprop((bigSep Finset.univ fun c : Dev nD => bigSep Finset.univ fun k : Fin 7 => (atPos ER (kcell (c, k)) 0 ∅ 0 : sProp 𝕄))
        ∗ (bigSep Finset.univ fun c : Dev nD => (payToks c : sProp 𝕄))
        ∗ bigSep Finset.univ fun c : Dev nD => (semVal ((c : Thread nD τ), osem 0) 0 : sProp 𝕄))
      ⊢ bigSep Finset.univ fun c : Dev nD => (iprop(positions c ∗ payToks c ∗ semVal ((c : Thread nD τ), osem 0) 0) : sProp 𝕄) := by
  rw [bigSep_sep', bigSep_sep', bigSep_congr (s := Finset.univ) fun (c : Dev nD) _ => positions_eq (F := F) c]

/-- Under the records at the names K, what stays with device c is what its body starts from. -/
theorem ghost_intro (K : Dev nD × Fin 7 → ℕ) (c : Dev nD) :
    iprop(records m K ∗ (positions c ∗ payToks c ∗ semVal ((c : Thread nD τ), osem 0) 0)) ⊢ G' m c := by
  unfold G' ghost
  iintro ⟨#HR, Hp, Ht, H0⟩
  isplitr [H0]
  · iexists K
    isplitr; · iexact HR
    isplitl [Hp]; · iexact Hp
    iexact Ht
  · iexact H0

theorem regroup : (bigSep Finset.univ fun c : Dev nD => mid m c) ⊢ bigSep Finset.univ (G' m) := by
  unfold mid
  rw [bigSep_sep', bigSep_sep', bigSep_sep',
    ← bigSep_univ_prod (fun ck : Dev nD × Fin 7 => iprop(∃ κ : ℕ, cellInv ER (sched m) κ (kcell ck))),
    bigSep_congr (s := Finset.univ) (fun (c : Dev nD) _ => bigSep_sep' Finset.univ
      (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, H0⟩
  ihave HK := (BI.bigSep_exists_pi Finset.univ
    (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk]; · iexact Htk
    iexact H0

/-- The global step: every device's own and unscoped semaphores at zero with its funded share become what every
    device's body starts from. -/
theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-- info: 'Cert.Kernel.Hand.hu0' depends on axioms: [propext, Classical.choice, Quot.sound] -/
#guard_msgs in #print axioms hu0

/-- info: 'Cert.Kernel.Hand.glob' depends on axioms: [propext, Classical.choice, Quot.sound] -/
#guard_msgs in #print axioms glob

end Cert.Kernel.Hand

end
-- ==== Proof.KernelLaunch.lean ====
/-
  The launch of the kernel on the mesh of four: what the launch theorem asks of the layout, of the levels, of the
  launch credit and of the hand-over between the launch and each device's body, and the run it gives — every fair
  interleaving of the four devices ends, each device's result buffer holding its block scaled by the reciprocal root
  of the mean of squares over all four devices, its two argument buffers what they held.
-/
import proofs.«900583_g7700000000000584_dist_rmsnorm_colshard_i_m1024_n512_v7x_i4_f32_1_alg».proof.Proof.KernelProto
import proofs.«900583_g7700000000000584_dist_rmsnorm_colshard_i_m1024_n512_v7x_i4_f32_1_alg».proof.Proof.KernelCreds
import proofs.«900583_g7700000000000584_dist_rmsnorm_colshard_i_m1024_n512_v7x_i4_f32_1_alg».proof.Proof.KernelGhost

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout -/

theorem ownSemFacts : Pipeline.OwnSemFacts cfg0.spec osem := by decide

theorem share_eq (c : Dev nD) (w : Fin cfg0.W) : (dats m ρ 0 c).share w = fullShare := by unfold Dat.share; split <;> rfl

/-! ## The levels -/

omit [FloatOps F] in
/-- A one-entry tally is positive only at its own cell. -/
theorem tallyAt_pos {g₀ g : GSem nD τ sig} {n : ℕ} {u : Unit} (h : 0 < tallyAt g₀ () n g u) : g = g₀ := by
  rw [tallyAt_apply] at h
  by_contra hn
  rw [if_neg (fun h' => hn h'.1)] at h
  exact Nat.lt_irrefl 0 h

omit [FloatOps F] in
/-- What a device owes at launch sits on six cells: the three receive cells it copies onto and the three barrier cells
    it signals. -/
theorem O₀_pos {c : Dev nD} {g : GSem nD τ sig} {u : Unit} (h : 0 < O₀ c g u) :
    g = recvCell0 (peer c 3) ∨ g = recvCell1 (peer c 2) ∨ g = recvCell2 (peer c 1)
      ∨ g = barCell (peer c 3) ∨ g = barCell (peer c 2) ∨ g = barCell (peer c 1) := by
  unfold O₀ at h
  rcases Pipeline.add_pos_cases h with h | h
  · unfold O₁ at h
    rcases Pipeline.add_pos_cases h with h | h
    · unfold O₂ at h
      rcases Pipeline.add_pos_cases h with h | h
      · rcases O₃_pos h with h | h | h
        · exact .inl h
        · exact .inr (.inl h)
        · exact .inr (.inr (.inl h))
      · exact .inr (.inr (.inr (.inl (tallyAt_pos h))))
    · exact .inr (.inr (.inr (.inr (.inl (tallyAt_pos h)))))
  · exact .inr (.inr (.inr (.inr (.inr (tallyAt_pos h)))))

omit [FloatOps F] in
/-- A staging semaphore's wait: it sits at level 0, below every cell the device owes at launch (barrier cells at 1,
    receive cells at 2); once the device owes nothing there is nothing to show. -/
theorem mayWait_stage (c : Dev nD) (q : DmaSem sig) (hq0 : (SemLoc.dma q : SemLoc sig) ≠ .dma recvS0)
    (hq1 : (SemLoc.dma q : SemLoc sig) ≠ .dma recvS1) (hq2 : (SemLoc.dma q : SemLoc sig) ≠ .dma recvS2)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by
        rw [Finset.mem_singleton.mp hp]; dsimp only [lv]
        rw [if_neg (fun h => by cases h), if_neg (fun h => by rcases h with h | h | h; exacts [hq0 h, hq1 h, hq2 h])])
      (fun g u hg => by
        rcases O₀_pos hg with rfl | rfl | rfl | rfl | rfl | rfl
        · rw [lv_recv0]; decide
        · rw [lv_recv1]; decide
        · rw [lv_recv2]; decide
        · rw [lv_bar]; decide
        · rw [lv_bar]; decide
        · rw [lv_bar]; decide)
  · rw [MayWait_zero]; iintro -; iempintro

/-- The pipeline's own waits, on the three staging semaphores, before and after the one point. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by fin_cases w <;> fin_cases s <;> decide)
      (by fin_cases w <;> fin_cases s <;> decide) _ (by
      rcases t with ⟨_ | _, ht⟩
      · exact Or.inl rfl
      · exact Or.inr rfl)

/-! ## The hand-over between the launch and a device's body -/

/-- What the launch leaves a device after the global step is what its body starts from: the ghost state, the credit
    the other three devices owe its cells, the level facts, the untouched own semaphore. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, Hg, Hs⟩
  ihave Hc := (creds (F := F) c) $$ Hcr
  imodintro
  isplitl
  · isplitl [Hg]; · iexact Hg
    isplitl [Hc]; · iexact Hc
    isplitl [Hlev]; · iexact Hlev
    iexact Hs
  · iempintro

/-- With the two scratch buffers, whole at some contents, that is the body's invariant before the point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- The invariant after the point hands back the two scratch buffers and the kernel's seven own semaphores at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, Hs⟩
  isplitr; · iempintro
  isplitl [Hs]; · iexact Hs
  isplitl [H0]; · iexact H0
  iexact H1

/-! ## The final arrays -/

/-- The two argument arrays are inputs: after the run they hold what they held. -/
theorem final_x (c : Dev nD) : (dats m ρ 0 c).arrAt (0 : Fin 3) cfg0.N = m ((c.tc : Thread nD τ).loc main_arg0) :=
  (dats (F := F) m ρ 0 c).arrAt_in (0 : Fin 3) rfl _
theorem final_g (c : Dev nD) : (dats m ρ 0 c).arrAt (1 : Fin 3) cfg0.N = m ((c.tc : Thread nD τ).loc main_arg1) :=
  (dats (F := F) m ρ 0 c).arrAt_in (1 : Fin 3) rfl _

/-- The result array's one block is the whole array, written back at the one point: it ends holding what the body left
    in the result's staging buffer. -/
theorem final_out (c : Dev nD) : (dats m ρ 0 c).arrAt (2 : Fin 3) cfg0.N = outV m c := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have h : (win0_2.blk (0 : Fin 1)).view.read (Elt F) ((dats m ρ 0 c).arrAt (2 : Fin 3) cfg0.N) = outV m c := by
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (hr _).symm.trans h

/-! ## The run -/

set_option maxRecDepth 8000 in
/-- At the compiled mesh of four devices, for any float values, from any memory with zero counters, given the body's
    obligation on every device: every weakly fair execution of @main — the four kernels meeting on the barrier
    semaphore, exchanging their partial sums, scaling their blocks — terminates, and every final state has each device's
    result array at the computed contents and its two argument arrays unchanged. -/
theorem run_post (hbody : ∀ c, BodyObligation (dats (F := F) m ρ 0 c) (defs₀ (F := F)) 𝒱₀ () Set.univ) :
    θ_run (defs (F := F)) (onTc (τ := τ) (main (F := F))) ⟨m, fun _ => 0, ρ⟩
      (fun r => ∀ c : Dev nD, r.2.mem ((c.tc : Thread nD τ).loc main_v1) = outV m c
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu0 m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (2 : Fin 3)).trans (final_out m ρ c), ((h c).1 (0 : Fin 3)).trans (final_x m ρ c),
      ((h c).1 (1 : Fin 3)).trans (final_g m ρ c)⟩)

/-- info: 'Cert.Kernel.Hand.run_post' depends on axioms: [propext, Classical.choice, Quot.sound] -/
#guard_msgs in #print axioms run_post

end Cert.Kernel.Hand

end
-- ==== Proof.KernelIdealSpec.lean ====
/-
  What each device's result buffer ends holding, as a pure function of the four devices' argument blocks.

  Device `c` first reduces its own 512 columns: `mine` is, row by row (a row `128 p + q` sits at `(p, q)`), the sum of the
  squares of its block's entries. Every device then receives the three other devices' row sums: slot `s` of its receive
  buffer is written by the device `s + 1` places further round the mesh. The four partial sums added together are the sum of
  squares of the whole row of 2048 entries, whichever device adds them and in whatever order; divided by 2048, shifted by the
  epsilon and passed through the reciprocal square root they scale the device's own block, already multiplied by its block
  of the gains.
-/
import proofs.«900583_g7700000000000584_dist_rmsnorm_colshard_i_m1024_n512_v7x_i4_f32_1_alg».proof.Proof.Gen.KernelIdeal.Skeleton
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

/-- The device `k` places after `c` round the mesh of four. -/
def peer (c : Dev nD) (k : ℕ) : Dev nD := ⟨(c.val + k) % 4, Nat.mod_lt _ (by decide)⟩

/-- A device's own partial result: per row, the sum of the squares of its 512 entries of that row. -/
def mine (x : Vec F S1024x512 .f32) : FVec F S8x128 .f32 := k0_pay3 x

/-- The receive buffer of device `c` once every transfer has landed: slot `s` holds the partial sums of the device
    `s + 1` places after `c`. -/
def comm (xs : Dev nD → Vec F S1024x512 .f32) (c : Dev nD) : Vec F S3x8x128 .f32 :=
  fun i => mine (xs (peer c ((i 0).val + 1))) (ix2 (i 1) (i 2))

/-- Slot `s` of that buffer as the one-slot vector a load of it yields. -/
def slot (xs : Dev nD → Vec F S1024x512 .f32) (c : Dev nD) (s : Fin 3) : Vec F S1x8x128 .f32 :=
  fun j => mine (xs (peer c (s.val + 1))) (ix2 (j 1) (j 2))

/-- The result block of device `c`: its block times its gains, scaled by the reciprocal root of the mean of squares
    over all four devices' partial sums plus epsilon. -/
def out (xs : Dev nD → Vec F S1024x512 .f32) (gs : Dev nD → Vec F S512 .f32) (c : Dev nD) : FVec F S1024x512 .f32 :=
  k0_pay1 (k0_pay4 (k0_pay2 (xs c)) (gs c)) (k0_pay5 (mine (xs c)) (slot xs c 0) (slot xs c 1)) (slot xs c 2)

end Cert.KernelIdeal.Hand

end
-- ==== Proof.KernelIdealProto.lean ====
/-
  The cross-device protocol of the kernel, as a schedule of duties.

  Every device owns seven cells. Its barrier cell collects one unit from each of the three other devices: the unit
  from the device `4 - k` places after it (duty `k`) tells it that that device has entered the kernel, and hands it
  the slot of that device's receive buffer it is about to write, with the fact that the slot's receive cell stands
  at round 0. Its three send cells each collect the credit of one outgoing copy of its partial sums and give back the
  share of the source the copy read. Its three receive cells each collect the credit of one incoming copy and hand
  over the slot, now holding the sender's partial sums.
-/
import proofs.«900583_g7700000000000584_dist_rmsnorm_colshard_i_m1024_n512_v7x_i4_f32_1_alg».proof.Proof.KernelIdealSpec
import proofs.«900583_g7700000000000584_dist_rmsnorm_colshard_i_m1024_n512_v7x_i4_f32_1_alg».proof.Proof.Gen.KernelIdeal.Launch
import proofs.«900583_g7700000000000584_dist_rmsnorm_colshard_i_m1024_n512_v7x_i4_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties `Fin 4`) -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

theorem peer_peer_13 (c : Dev nD) : peer (peer c 1) 3 = c := by revert c; decide
theorem peer_peer_22 (c : Dev nD) : peer (peer c 2) 2 = c := by revert c; decide
theorem peer_peer_31 (c : Dev nD) : peer (peer c 3) 1 = c := by revert c; decide

/-- The kernel's device chains: the three signals and the three copies go to the devices 1, 2 and 3 places on. -/
theorem dev1_eq (c : Dev nD) : (⟨k0_dev1 c, k0_dev1_lt c⟩ : Dev nD) = peer c 1 := Fin.ext (k0_dev1_eq c)
theorem dev2_eq (c : Dev nD) : (⟨k0_dev2 c, k0_dev2_lt c⟩ : Dev nD) = peer c 2 := Fin.ext (k0_dev2_eq c)
theorem dev3_eq (c : Dev nD) : (⟨k0_dev3 c, k0_dev3_lt c⟩ : Dev nD) = peer c 3 := Fin.ext (k0_dev3_eq c)
theorem dev4_eq (c : Dev nD) : (⟨k0_dev4 c, k0_dev4_lt c⟩ : Dev nD) = peer c 1 := Fin.ext (k0_dev4_eq c)
theorem dev5_eq (c : Dev nD) : (⟨k0_dev5 c, k0_dev5_lt c⟩ : Dev nD) = peer c 2 := Fin.ext (k0_dev5_eq c)
theorem dev6_eq (c : Dev nD) : (⟨k0_dev6 c, k0_dev6_lt c⟩ : Dev nD) = peer c 3 := Fin.ext (k0_dev6_eq c)

/-- Going `k` places on is a permutation of the mesh. -/
def shift1 : Dev nD ≃ Dev nD := ⟨fun c => peer c 1, fun c => peer c 3, peer_peer_13, by intro c; revert c; decide⟩
def shift2 : Dev nD ≃ Dev nD := ⟨fun c => peer c 2, fun c => peer c 2, peer_peer_22, by intro c; revert c; decide⟩
def shift3 : Dev nD ≃ Dev nD := ⟨fun c => peer c 3, fun c => peer c 1, peer_peer_31, by intro c; revert c; decide⟩

/-! ## The memrefs and cells -/

abbrev xM : Memref sig .tc .vmem S1024x512 .f32 := Memref.whole cc0_stg0_0
abbrev gM : Memref sig .tc .vmem S512 .f32 := Memref.whole cc0_stg1_0
abbrev oM : Memref sig .tc .vmem S1024x512 .f32 := Memref.whole cc0_stg2_0
abbrev mM : Memref sig .tc .vmem S8x128 .f32 := Memref.whole cc0_scratch0
abbrev cM : Memref sig .tc .vmem S3x8x128 .f32 := Memref.whole cc0_scratch1

/-- The three slots of the receive buffer, as the kernel slices them. -/
abbrev slotM0 : Memref sig .tc .vmem S8x128 .f32 :=
  ((cM.slice (Rect.unit (s := S3x8x128) ![0, 0, 0] S1x8x128.size inb_S3x8x128_S1x8x128_0_0_0) (fun _ => rfl)).squeeze S8x128 squeezes_S1x8x128_S8x128)
abbrev slotM1 : Memref sig .tc .vmem S8x128 .f32 :=
  ((cM.slice (Rect.unit (s := S3x8x128) ![1, 0, 0] S1x8x128.size inb_S3x8x128_S1x8x128_1_0_0) (fun _ => rfl)).squeeze S8x128 squeezes_S1x8x128_S8x128)
abbrev slotM2 : Memref sig .tc .vmem S8x128 .f32 :=
  ((cM.slice (Rect.unit (s := S3x8x128) ![2, 0, 0] S1x8x128.size inb_S3x8x128_S1x8x128_2_0_0) (fun _ => rfl)).squeeze S8x128 squeezes_S1x8x128_S8x128)

/-- The runtime's barrier semaphore of collective id 0 (unscoped); the send and receive DMA semaphores (scoped scratch). -/
abbrev barS : Sem sig := (SemArray.scalar (sig.barrier 0 rfl) : Sems sig S_).sem
abbrev sendS1 : DmaSem sig := ((cc0_scratch2.slice (Rect.unit (s := S4) ![1] S1.size inb_S4_S1_1)).squeeze S_ squeezes_S1_S_).sem
abbrev sendS2 : DmaSem sig := ((cc0_scratch2.slice (Rect.unit (s := S4) ![2] S1.size inb_S4_S1_2)).squeeze S_ squeezes_S1_S_).sem
abbrev sendS3 : DmaSem sig := ((cc0_scratch2.slice (Rect.unit (s := S4) ![3] S1.size inb_S4_S1_3)).squeeze S_ squeezes_S1_S_).sem
abbrev recvS0 : DmaSem sig := ((cc0_scratch3.slice (Rect.unit (s := S3) ![0] S1.size inb_S3_S1_0)).squeeze S_ squeezes_S1_S_).sem
abbrev recvS1 : DmaSem sig := ((cc0_scratch3.slice (Rect.unit (s := S3) ![1] S1.size inb_S3_S1_1)).squeeze S_ squeezes_S1_S_).sem
abbrev recvS2 : DmaSem sig := ((cc0_scratch3.slice (Rect.unit (s := S3) ![2] S1.size inb_S3_S1_2)).squeeze S_ squeezes_S1_S_).sem

theorem sendS1_eq : sendS1 = (4 : DmaSem sig) := by decide
theorem sendS2_eq : sendS2 = (5 : DmaSem sig) := by decide
theorem sendS3_eq : sendS3 = (6 : DmaSem sig) := by decide
theorem recvS0_eq : recvS0 = (7 : DmaSem sig) := by decide
theorem recvS1_eq : recvS1 = (8 : DmaSem sig) := by decide
theorem recvS2_eq : recvS2 = (9 : DmaSem sig) := by decide

/-- The seven semaphores of the protocol: barrier; send 1, 2, 3; receive 0, 1, 2. -/
abbrev csem : Fin 7 → SemLoc sig := fun
  | 0 => .reg barS | 1 => .dma sendS1 | 2 => .dma sendS2 | 3 => .dma sendS3 | 4 => .dma recvS0 | 5 => .dma recvS1 | 6 => .dma recvS2
abbrev kcell (ck : Dev nD × Fin 7) : GSem nD τ sig := ((ck.1 : Thread nD τ), csem ck.2)

abbrev barCell (c : Dev nD) : GSem nD τ sig := kcell (c, 0)
abbrev sendCell1 (c : Dev nD) : GSem nD τ sig := kcell (c, 1)
abbrev sendCell2 (c : Dev nD) : GSem nD τ sig := kcell (c, 2)
abbrev sendCell3 (c : Dev nD) : GSem nD τ sig := kcell (c, 3)
abbrev recvCell0 (c : Dev nD) : GSem nD τ sig := kcell (c, 4)
abbrev recvCell1 (c : Dev nD) : GSem nD τ sig := kcell (c, 5)
abbrev recvCell2 (c : Dev nD) : GSem nD τ sig := kcell (c, 6)

/-- The kernel's OWN (scoped) semaphores, as the launch indexes them: the four of the send array (the first is
    never used) and the three of the receive array. -/
abbrev osem : Fin 7 → SemLoc sig := fun
  | 0 => .dma (3 : DmaSem sig) | 1 => .dma sendS1 | 2 => .dma sendS2 | 3 => .dma sendS3 | 4 => .dma recvS0 | 5 => .dma recvS1 | 6 => .dma recvS2

theorem csem_injective : Function.Injective (csem : Fin 7 → SemLoc sig) := by decide

abbrev N : ℕ := (mM : Memref sig .tc .vmem S8x128 .f32).view.dmaCredit
theorem N_pos : 0 < N := View.dmaCredit_pos _ (by decide)

/-! ## Contents -/

/-- Device `d`'s blocks of the two arguments, as launched. -/
def xin (d : Dev nD) : Vec F S1024x512 .f32 := m ((d : Thread nD τ).loc main_arg0)
def gin (d : Dev nD) : Vec F S512 .f32 := m ((d : Thread nD τ).loc main_arg1)

/-- What the partial-sum buffer, the receive buffer and the result's staging buffer of device `c` end up holding. -/
def mineV (c : Dev nD) : (cc0_scratch0 : Ref sig .tc).ty.Contents (Elt F) := mine (xin m c)
def commV (c : Dev nD) : (cc0_scratch1 : Ref sig .tc).ty.Contents (Elt F) := comm (xin m) c
def outV (c : Dev nD) : (cc0_stg2_0 : Ref sig .tc).ty.Contents (Elt F) := out (xin m) (gin m) c

/-- The source of the three copies is read at three quarter shares; the fourth quarter stays with the device. -/
abbrev q1 : PosShare TreeShare := fullShare.left.left
abbrev q2 : PosShare TreeShare := fullShare.left.right
abbrev q3 : PosShare TreeShare := fullShare.right.left
abbrev q0 : PosShare TreeShare := fullShare.right.right

/-! ## The schedule -/

/-- What the signal of the device `4 - k` places after `o` (duty `k` of `o`'s barrier cell) hands `o`: the slot of that
    device's receive buffer that `o` writes, and that the slot's receive cell stands at round 0. -/
def barPay (o : Dev nD) (k : Fin 4) : sProp 𝕄 :=
  if k = 1 then iprop((∃ f, slotM0.view.loc (peer o 3 : Thread nD τ) ↦[slotM0.view.set]{fullShare} f) ∗ reached ER (recvCell0 (peer o 3)) 0)
  else if k = 2 then iprop((∃ f, slotM1.view.loc (peer o 2 : Thread nD τ) ↦[slotM1.view.set]{fullShare} f) ∗ reached ER (recvCell1 (peer o 2)) 0)
  else if k = 3 then iprop((∃ f, slotM2.view.loc (peer o 1 : Thread nD τ) ↦[slotM2.view.set]{fullShare} f) ∗ reached ER (recvCell2 (peer o 1)) 0)
  else iprop(emp)

abbrev IsBar (g : GSem nD τ sig) : Prop := g.1.2 = .tc ∧ g.2 = .reg barS
abbrev IsXfer (g : GSem nD τ sig) : Prop :=
  g.1.2 = .tc ∧ (g.2 = .dma sendS1 ∨ g.2 = .dma sendS2 ∨ g.2 = .dma sendS3 ∨ g.2 = .dma recvS0 ∨ g.2 = .dma recvS1 ∨ g.2 = .dma recvS2)

/-- One round, round 0: a barrier cell has the three duties 1, 2, 3 of one unit each; a send or receive cell the duty 0
    of the block's credit. -/
def sched : Rounds.Schedule (GSem nD τ sig) (Fin 4) 𝕄 where
  duties g r := if r = 0 ∧ IsBar g then {1, 2, 3} else if r = 0 ∧ IsXfer g then {0} else ∅
  unitless _ := False
  amount g _ _ := if g.2 = .reg barS then 1 else N
  payload g _ d :=
    if g.2 = .reg barS then barPay g.1.1 d
    else if g.2 = .dma recvS0 then slotM0.view.loc (g.1.1 : Thread nD τ) ↦[slotM0.view.set]{fullShare} commV m g.1.1
    else if g.2 = .dma recvS1 then slotM1.view.loc (g.1.1 : Thread nD τ) ↦[slotM1.view.set]{fullShare} commV m g.1.1
    else if g.2 = .dma recvS2 then slotM2.view.loc (g.1.1 : Thread nD τ) ↦[slotM2.view.set]{fullShare} commV m g.1.1
    else if g.2 = .dma sendS1 then mM.view.loc (g.1.1 : Thread nD τ) ↦[mM.view.set]{q1} mineV m g.1.1
    else if g.2 = .dma sendS2 then mM.view.loc (g.1.1 : Thread nD τ) ↦[mM.view.set]{q2} mineV m g.1.1
    else if g.2 = .dma sendS3 then mM.view.loc (g.1.1 : Thread nD τ) ↦[mM.view.set]{q3} mineV m g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 4) :
    BI.Storable (upEmb : UEmb _ 𝕄) ((sched (F := F) m).payload g r d) := by
  dsimp only [sched]
  unfold barPay
  (repeat' split) <;> infer_instance

/-! ### The schedule's tables -/

section Sched
variable (c : Dev nD)

theorem ne_recv0_bar : (SemLoc.dma recvS0 : SemLoc sig) ≠ .reg barS := by decide
theorem ne_recv1_bar : (SemLoc.dma recvS1 : SemLoc sig) ≠ .reg barS := by decide
theorem ne_recv1_recv0 : (SemLoc.dma recvS1 : SemLoc sig) ≠ .dma recvS0 := by decide
theorem ne_recv2_bar : (SemLoc.dma recvS2 : SemLoc sig) ≠ .reg barS := by decide
theorem ne_recv2_recv0 : (SemLoc.dma recvS2 : SemLoc sig) ≠ .dma recvS0 := by decide
theorem ne_recv2_recv1 : (SemLoc.dma recvS2 : SemLoc sig) ≠ .dma recvS1 := by decide
theorem ne_send1_bar : (SemLoc.dma sendS1 : SemLoc sig) ≠ .reg barS := by decide
theorem ne_send1_recv0 : (SemLoc.dma sendS1 : SemLoc sig) ≠ .dma recvS0 := by decide
theorem ne_send1_recv1 : (SemLoc.dma sendS1 : SemLoc sig) ≠ .dma recvS1 := by decide
theorem ne_send1_recv2 : (SemLoc.dma sendS1 : SemLoc sig) ≠ .dma recvS2 := by decide
theorem ne_send2_bar : (SemLoc.dma sendS2 : SemLoc sig) ≠ .reg barS := by decide
theorem ne_send2_recv0 : (SemLoc.dma sendS2 : SemLoc sig) ≠ .dma recvS0 := by decide
theorem ne_send2_recv1 : (SemLoc.dma sendS2 : SemLoc sig) ≠ .dma recvS1 := by decide
theorem ne_send2_recv2 : (SemLoc.dma sendS2 : SemLoc sig) ≠ .dma recvS2 := by decide
theorem ne_send2_send1 : (SemLoc.dma sendS2 : SemLoc sig) ≠ .dma sendS1 := by decide
theorem ne_send3_bar : (SemLoc.dma sendS3 : SemLoc sig) ≠ .reg barS := by decide
theorem ne_send3_recv0 : (SemLoc.dma sendS3 : SemLoc sig) ≠ .dma recvS0 := by decide
theorem ne_send3_recv1 : (SemLoc.dma sendS3 : SemLoc sig) ≠ .dma recvS1 := by decide
theorem ne_send3_recv2 : (SemLoc.dma sendS3 : SemLoc sig) ≠ .dma recvS2 := by decide
theorem ne_send3_send1 : (SemLoc.dma sendS3 : SemLoc sig) ≠ .dma sendS1 := by decide
theorem ne_send3_send2 : (SemLoc.dma sendS3 : SemLoc sig) ≠ .dma sendS2 := by decide

theorem duties_bar : (sched (F := F) m).duties (barCell c) 0 = {1, 2, 3} := by dsimp only [sched]; exact if_pos ⟨rfl, rfl, rfl⟩
theorem duties_send1 : (sched (F := F) m).duties (sendCell1 c) 0 = {0} := by
  dsimp only [sched]; rw [if_neg (fun h => ne_send1_bar h.2.2)]; exact if_pos ⟨rfl, rfl, .inl rfl⟩
theorem duties_send2 : (sched (F := F) m).duties (sendCell2 c) 0 = {0} := by
  dsimp only [sched]; rw [if_neg (fun h => ne_send2_bar h.2.2)]; exact if_pos ⟨rfl, rfl, .inr (.inl rfl)⟩
theorem duties_send3 : (sched (F := F) m).duties (sendCell3 c) 0 = {0} := by
  dsimp only [sched]; rw [if_neg (fun h => ne_send3_bar h.2.2)]; exact if_pos ⟨rfl, rfl, .inr (.inr (.inl rfl))⟩
theorem duties_recv0 : (sched (F := F) m).duties (recvCell0 c) 0 = {0} := by
  dsimp only [sched]; rw [if_neg (fun h => ne_recv0_bar h.2.2)]; exact if_pos ⟨rfl, rfl, .inr (.inr (.inr (.inl rfl)))⟩
theorem duties_recv1 : (sched (F := F) m).duties (recvCell1 c) 0 = {0} := by
  dsimp only [sched]; rw [if_neg (fun h => ne_recv1_bar h.2.2)]; exact if_pos ⟨rfl, rfl, .inr (.inr (.inr (.inr (.inl rfl))))⟩
theorem duties_recv2 : (sched (F := F) m).duties (recvCell2 c) 0 = {0} := by
  dsimp only [sched]; rw [if_neg (fun h => ne_recv2_bar h.2.2)]; exact if_pos ⟨rfl, rfl, .inr (.inr (.inr (.inr (.inr (rfl)))))⟩
theorem duties_later (g : GSem nD τ sig) : ∀ r, 1 ≤ r → (sched (F := F) m).duties g r = ∅ :=
  fun r hr => by dsimp only [sched]; rw [if_neg fun h => by omega, if_neg fun h => by omega]

theorem amount_bar (d : Fin 4) : (sched (F := F) m).amount (barCell c) 0 d = 1 := by dsimp only [sched]; exact if_pos rfl
theorem amount_send1 (d : Fin 4) : (sched (F := F) m).amount (sendCell1 c) 0 d = N := by dsimp only [sched]; exact if_neg ne_send1_bar
theorem amount_send2 (d : Fin 4) : (sched (F := F) m).amount (sendCell2 c) 0 d = N := by dsimp only [sched]; exact if_neg ne_send2_bar
theorem amount_send3 (d : Fin 4) : (sched (F := F) m).amount (sendCell3 c) 0 d = N := by dsimp only [sched]; exact if_neg ne_send3_bar
theorem amount_recv0 (d : Fin 4) : (sched (F := F) m).amount (recvCell0 c) 0 d = N := by dsimp only [sched]; exact if_neg ne_recv0_bar
theorem amount_recv1 (d : Fin 4) : (sched (F := F) m).amount (recvCell1 c) 0 d = N := by dsimp only [sched]; exact if_neg ne_recv1_bar
theorem amount_recv2 (d : Fin 4) : (sched (F := F) m).amount (recvCell2 c) 0 d = N := by dsimp only [sched]; exact if_neg ne_recv2_bar

theorem expect_bar : (sched (F := F) m).expect (barCell c) 0 = 3 := by
  unfold Schedule.expect Schedule.amountOf
  rw [duties_bar, Finset.sum_congr rfl fun d _ => amount_bar m c d, Finset.sum_const, smul_eq_mul]; rfl
theorem expect_send1 : (sched (F := F) m).expect (sendCell1 c) 0 = N := by
  unfold Schedule.expect Schedule.amountOf; rw [duties_send1, Finset.sum_singleton, amount_send1]
theorem expect_send2 : (sched (F := F) m).expect (sendCell2 c) 0 = N := by
  unfold Schedule.expect Schedule.amountOf; rw [duties_send2, Finset.sum_singleton, amount_send2]
theorem expect_send3 : (sched (F := F) m).expect (sendCell3 c) 0 = N := by
  unfold Schedule.expect Schedule.amountOf; rw [duties_send3, Finset.sum_singleton, amount_send3]
theorem expect_recv0 : (sched (F := F) m).expect (recvCell0 c) 0 = N := by
  unfold Schedule.expect Schedule.amountOf; rw [duties_recv0, Finset.sum_singleton, amount_recv0]
theorem expect_recv1 : (sched (F := F) m).expect (recvCell1 c) 0 = N := by
  unfold Schedule.expect Schedule.amountOf; rw [duties_recv1, Finset.sum_singleton, amount_recv1]
theorem expect_recv2 : (sched (F := F) m).expect (recvCell2 c) 0 = N := by
  unfold Schedule.expect Schedule.amountOf; rw [duties_recv2, Finset.sum_singleton, amount_recv2]

theorem payload_bar (d : Fin 4) : (sched (F := F) m).payload (barCell c) 0 d = barPay c d := by dsimp only [sched]; exact if_pos rfl
theorem payload_bar_1 : (sched (F := F) m).payload (barCell c) 0 1
    = iprop((∃ f, slotM0.view.loc (peer c 3 : Thread nD τ) ↦[slotM0.view.set]{fullShare} f) ∗ reached ER (recvCell0 (peer c 3)) 0) := by
  rw [payload_bar]; unfold barPay; exact if_pos rfl
theorem payload_bar_2 : (sched (F := F) m).payload (barCell c) 0 2
    = iprop((∃ f, slotM1.view.loc (peer c 2 : Thread nD τ) ↦[slotM1.view.set]{fullShare} f) ∗ reached ER (recvCell1 (peer c 2)) 0) := by
  rw [payload_bar]; unfold barPay; rw [if_neg (by decide)]; exact if_pos rfl
theorem payload_bar_3 : (sched (F := F) m).payload (barCell c) 0 3
    = iprop((∃ f, slotM2.view.loc (peer c 1 : Thread nD τ) ↦[slotM2.view.set]{fullShare} f) ∗ reached ER (recvCell2 (peer c 1)) 0) := by
  rw [payload_bar]; unfold barPay; rw [if_neg (by decide), if_neg (by decide)]; exact if_pos rfl
/-- The same three, as the PAYER sees them: its own slots. -/
theorem payload_bar_peer1 : (sched (F := F) m).payload (barCell (peer c 1)) 0 1
    = iprop((∃ f, slotM0.view.loc (c : Thread nD τ) ↦[slotM0.view.set]{fullShare} f) ∗ reached ER (recvCell0 c) 0) := by
  rw [payload_bar_1, peer_peer_13]
theorem payload_bar_peer2 : (sched (F := F) m).payload (barCell (peer c 2)) 0 2
    = iprop((∃ f, slotM1.view.loc (c : Thread nD τ) ↦[slotM1.view.set]{fullShare} f) ∗ reached ER (recvCell1 c) 0) := by
  rw [payload_bar_2, peer_peer_22]
theorem payload_bar_peer3 : (sched (F := F) m).payload (barCell (peer c 3)) 0 3
    = iprop((∃ f, slotM2.view.loc (c : Thread nD τ) ↦[slotM2.view.set]{fullShare} f) ∗ reached ER (recvCell2 c) 0) := by
  rw [payload_bar_3, peer_peer_31]
theorem payload_recv0 (d : Fin 4) : (sched (F := F) m).payload (recvCell0 c) 0 d = (slotM0.view.loc (c : Thread nD τ) ↦[slotM0.view.set]{fullShare} commV m c : sProp 𝕄) := by
  dsimp only [sched]; rw [if_neg ne_recv0_bar]; exact if_pos rfl
theorem payload_recv1 (d : Fin 4) : (sched (F := F) m).payload (recvCell1 c) 0 d = (slotM1.view.loc (c : Thread nD τ) ↦[slotM1.view.set]{fullShare} commV m c : sProp 𝕄) := by
  dsimp only [sched]; rw [if_neg ne_recv1_bar, if_neg ne_recv1_recv0]; exact if_pos rfl
theorem payload_recv2 (d : Fin 4) : (sched (F := F) m).payload (recvCell2 c) 0 d = (slotM2.view.loc (c : Thread nD τ) ↦[slotM2.view.set]{fullShare} commV m c : sProp 𝕄) := by
  dsimp only [sched]; rw [if_neg ne_recv2_bar, if_neg ne_recv2_recv0, if_neg ne_recv2_recv1]; exact if_pos rfl
theorem payload_send1 (d : Fin 4) : (sched (F := F) m).payload (sendCell1 c) 0 d = (mM.view.loc (c : Thread nD τ) ↦[mM.view.set]{q1} mineV m c : sProp 𝕄) := by
  dsimp only [sched]; rw [if_neg ne_send1_bar, if_neg ne_send1_recv0, if_neg ne_send1_recv1, if_neg ne_send1_recv2]; exact if_pos rfl
theorem payload_send2 (d : Fin 4) : (sched (F := F) m).payload (sendCell2 c) 0 d = (mM.view.loc (c : Thread nD τ) ↦[mM.view.set]{q2} mineV m c : sProp 𝕄) := by
  dsimp only [sched]; rw [if_neg ne_send2_bar, if_neg ne_send2_recv0, if_neg ne_send2_recv1, if_neg ne_send2_recv2, if_neg ne_send2_send1]; exact if_pos rfl
theorem payload_send3 (d : Fin 4) : (sched (F := F) m).payload (sendCell3 c) 0 d = (mM.view.loc (c : Thread nD τ) ↦[mM.view.set]{q3} mineV m c : sProp 𝕄) := by
  dsimp only [sched]; rw [if_neg ne_send3_bar, if_neg ne_send3_recv0, if_neg ne_send3_recv1, if_neg ne_send3_recv2, if_neg ne_send3_send1, if_neg ne_send3_send2]; exact if_pos rfl

end Sched

/-! ## What each core owes at launch; the levels -/

/-- Device `c` owes the receive cell of each slot it writes on another device the block's credit, and each other device's
    barrier cell one unit — summed so that each signal and each copy, in program order, peels the last summand. -/
def O₃ (c : Dev nD) : CellTallies nD τ sig Unit :=
  tallyAt (recvCell0 (peer c 3)) () N + tallyAt (recvCell1 (peer c 2)) () N + tallyAt (recvCell2 (peer c 1)) () N
def O₂ (c : Dev nD) : CellTallies nD τ sig Unit := O₃ c + tallyAt (barCell (peer c 3)) () 1
def O₁ (c : Dev nD) : CellTallies nD τ sig Unit := O₂ c + tallyAt (barCell (peer c 2)) () 1
def O₀ (c : Dev nD) : CellTallies nD τ sig Unit := O₁ c + tallyAt (barCell (peer c 1)) () 1

def L (g : GSem nD τ sig) : Finset Unit := if g.1.2 = .tc then {()} else ∅
/-- barrier cells at 1, receive cells at 2, everything else (staging, send) at 0. -/
def lv (g : GSem nD τ sig) (_ : Unit) : ℕ :=
  if g.2 = .reg barS then 1 else if g.2 = .dma recvS0 ∨ g.2 = .dma recvS1 ∨ g.2 = .dma recvS2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem O₃_pos {c : Dev nD} {g : GSem nD τ sig} {u : Unit} (h : 0 < O₃ c g u) :
    g = recvCell0 (peer c 3) ∨ g = recvCell1 (peer c 2) ∨ g = recvCell2 (peer c 1) := by
  unfold O₃ at h
  rw [Pi.add_apply, Finsupp.add_apply, Pi.add_apply, Finsupp.add_apply, tallyAt_apply, tallyAt_apply, tallyAt_apply] at h
  by_contra hn
  rw [not_or, not_or] at hn
  rw [if_neg (fun h' => hn.1 h'.1), if_neg (fun h' => hn.2.1 h'.1), if_neg (fun h' => hn.2.2 h'.1)] at h
  exact Nat.lt_irrefl 0 h

theorem lv_recv0 (c : Dev nD) (u : Unit) : lv (recvCell0 c) u = 2 := by
  dsimp only [lv]; rw [if_neg ne_recv0_bar, if_pos (.inl rfl)]
theorem lv_recv1 (c : Dev nD) (u : Unit) : lv (recvCell1 c) u = 2 := by
  dsimp only [lv]; rw [if_neg ne_recv1_bar, if_pos (.inr (.inl rfl))]
theorem lv_recv2 (c : Dev nD) (u : Unit) : lv (recvCell2 c) u = 2 := by
  dsimp only [lv]; rw [if_neg ne_recv2_bar, if_pos (.inr (.inr rfl))]
theorem lv_bar (c : Dev nD) (u : Unit) : lv (barCell c) u = 1 := by dsimp only [lv]; rw [if_pos rfl]

omit [FloatOps F] in
/-- At its barrier wait a device owes the three receive credits only: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by rcases O₃_pos hg with rfl | rfl | rfl <;> exact Finset.mem_singleton_self _)
    (fun p hp => by rw [Finset.mem_singleton.mp hp]; exact Nat.le_of_eq (lv_bar c ()))
    (fun g u hg => by
      rcases O₃_pos hg with rfl | rfl | rfl
      · rw [lv_recv0]; decide
      · rw [lv_recv1]; decide
      · rw [lv_recv2]; decide)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The two input staging buffers once fetched: the device's blocks. -/
def xstg (c : Dev nD) : (cc0_stg0_0 : Ref sig .tc).ty.Contents (Elt F) :=
  (win0_0.blk (0 : Fin 1)).view.read (Elt F) ((s₀ m ρ).mem ((c : Thread nD τ).loc main_arg0))
def gstg (c : Dev nD) : (cc0_stg1_0 : Ref sig .tc).ty.Contents (Elt F) :=
  (win0_1.blk (0 : Fin 1)).view.read (Elt F) ((s₀ m ρ).mem ((c : Thread nD τ).loc main_arg1))

/-- All cells' invariants under the names `K` the launch allocated them at, and that every cell stands at round 0. -/
def records (K : Dev nD × Fin 7 → ℕ) : sProp 𝕄 :=
  iprop((bigSep Finset.univ fun ck : Dev nD × Fin 7 => cellInv ER (sched m) (K ck) (kcell ck))
    ∗ bigSep Finset.univ fun ck : Dev nD × Fin 7 => reached ER (kcell ck) 0)

instance records_persistent (K : Dev nD × Fin 7 → ℕ) : BI.Persistent (records m K) := by unfold records; infer_instance

theorem inv_at' (K : Dev nD × Fin 7 → ℕ) (ck : Dev nD × Fin 7) :
    (bigSep Finset.univ fun ck : Dev nD × Fin 7 => (cellInv ER (sched m) (K ck) (kcell ck) : sProp 𝕄)) ⊢ cellInv ER (sched m) (K ck) (kcell ck) :=
  bigSep_elim (Finset.mem_univ ck)
theorem reached_at' (ck : Dev nD × Fin 7) :
    (bigSep Finset.univ fun ck : Dev nD × Fin 7 => (reached ER (kcell ck) 0 : sProp 𝕄)) ⊢ reached ER (kcell ck) 0 :=
  bigSep_elim (Finset.mem_univ ck)
theorem inv_at (K : Dev nD × Fin 7 → ℕ) (ck : Dev nD × Fin 7) :
    records m K ⊢ (cellInv ER (sched m) (K ck) (kcell ck) : sProp 𝕄) := by
  unfold records; iintro ⟨H, -⟩; iapply (inv_at' m K ck); iexact H
theorem reached_at (K : Dev nD × Fin 7 → ℕ) (ck : Dev nD × Fin 7) :
    records m K ⊢ (reached ER (kcell ck) 0 : sProp 𝕄) := by
  unfold records; iintro ⟨-, H⟩; iapply (reached_at' (F := F) ck); iexact H

/-- The tokens of the duties device `c` pays: its three signals, its three copies' landings, its three copies' departures. -/
def payToks (c : Dev nD) : sProp 𝕄 :=
  iprop(dutyTok ER (barCell (peer c 1)) 0 1 ∗ dutyTok ER (barCell (peer c 2)) 0 2 ∗ dutyTok ER (barCell (peer c 3)) 0 3
    ∗ dutyTok ER (recvCell2 (peer c 1)) 0 0 ∗ dutyTok ER (recvCell1 (peer c 2)) 0 0 ∗ dutyTok ER (recvCell0 (peer c 3)) 0 0
    ∗ dutyTok ER (sendCell1 c) 0 0 ∗ dutyTok ER (sendCell2 c) 0 0 ∗ dutyTok ER (sendCell3 c) 0 0)

/-- Device `c`'s positions: round 0 of its seven cells, nothing taken. -/
def positions (c : Dev nD) : sProp 𝕄 :=
  iprop(atPos ER (barCell c) 0 ∅ 0 ∗ atPos ER (sendCell1 c) 0 ∅ 0 ∗ atPos ER (sendCell2 c) 0 ∅ 0 ∗ atPos ER (sendCell3 c) 0 ∅ 0
    ∗ atPos ER (recvCell0 c) 0 ∅ 0 ∗ atPos ER (recvCell1 c) 0 ∅ 0 ∗ atPos ER (recvCell2 c) 0 ∅ 0)

/-- The protocol's ghost state device `c` starts from. -/
def ghost (K : Dev nD × Fin 7 → ℕ) (c : Dev nD) : sProp 𝕄 := iprop(records m K ∗ positions c ∗ payToks c)

/-- The credit the other devices owe device `c`'s cells at launch. -/
def credits (c : Dev nD) : sProp 𝕄 :=
  iprop(cred (tallyAt (barCell c) () 3) ∗ cred (tallyAt (recvCell0 c) () N) ∗ cred (tallyAt (recvCell1 c) () N) ∗ cred (tallyAt (recvCell2 c) () N))

/-- What device `c`'s body starts from besides its buffers: the ghost state at some names, its credit, the level facts, and
    the one own semaphore the kernel never touches, at zero. -/
def start (c : Dev nD) : sProp 𝕄 :=
  iprop((∃ K, ghost m K c) ∗ credits c ∗ levAts L lv ∗ semVal ((c : Thread nD τ), osem 0) 0)

def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- After the point: the two scratch buffers whole again, the kernel's seven own semaphores at zero, their cells closed. -/
def Φ₁ (c : Dev nD) : sProp 𝕄 :=
  iprop((∃ f, ((c : Thread nD τ).loc cc0_scratch0) ↦{fullShare} f) ∗ (∃ f, ((c : Thread nD τ).loc cc0_scratch1) ↦{fullShare} f)
    ∗ semVal ((c : Thread nD τ), osem 0) 0 ∗ semVal (sendCell1 c) 0 ∗ semVal (sendCell2 c) 0 ∗ semVal (sendCell3 c) 0
    ∗ semVal (recvCell0 c) 0 ∗ semVal (recvCell1 c) 0 ∗ semVal (recvCell2 c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => gstg m ρ c
    | ⟨2, _⟩ => outV m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

/-! ## What the launch deals each device, before and after the global step -/

/-- The duty tokens of device `c`'s OWN cells, as minted. -/
def toks (c : Dev nD) : sProp 𝕄 :=
  iprop(dutyTok ER (barCell c) 0 1 ∗ dutyTok ER (barCell c) 0 2 ∗ dutyTok ER (barCell c) 0 3
    ∗ dutyTok ER (sendCell1 c) 0 0 ∗ dutyTok ER (sendCell2 c) 0 0 ∗ dutyTok ER (sendCell3 c) 0 0
    ∗ dutyTok ER (recvCell0 c) 0 0 ∗ dutyTok ER (recvCell1 c) 0 0 ∗ dutyTok ER (recvCell2 c) 0 0)

/-- What the launch element deals device `c`. -/
def G (c : Dev nD) : sProp 𝕄 :=
  iprop((bigSep Finset.univ fun k : Fin 7 => roundState ER (sched m) (kcell (c, k)) 0)
    ∗ (bigSep Finset.univ fun k : Fin 7 => iprop(atPos ER (kcell (c, k)) 0 ∅ 0 ∗ reached ER (kcell (c, k)) 0)) ∗ toks c)

/-- What the global step makes of it: the ghost state at some names, and the untouched own semaphore passed through. -/
def G' (c : Dev nD) : sProp 𝕄 := iprop((∃ K, ghost m K c) ∗ semVal ((c : Thread nD τ), osem 0) 0)

end Cert.KernelIdeal.Hand

end
-- ==== Proof.KernelIdealBodyDefs.lean ====
/-
  What one device's body starts from and what it leaves: the protocol's ghost state and credit, the two scratch buffers and the
  three staging buffers before; the scratch buffers whole again, the own semaphores at zero and the result's staging buffer at
  the device's block of the result after.
-/
import proofs.«900583_g7700000000000584_dist_rmsnorm_colshard_i_m1024_n512_v7x_i4_f32_1_alg».proof.Proof.KernelIdealProto
import Idealize.ShloMosaic.Lib.Tactic

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
theorem bigSep_W (Φ : Fin cfg0.W → sProp 𝕄) : bigSep Finset.univ Φ = iprop(Φ (0 : Fin 3) ∗ Φ (1 : Fin 3) ∗ Φ (2 : Fin 3)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body

variable (K : Dev nD × Fin 7 → ℕ)

def bodyPre (c : Dev nD) : sProp 𝕄 :=
  iprop((ghost m K c ∗ credits c ∗ levAts L lv ∗ semVal ((c : Thread nD τ), osem 0) 0
      ∗ (∃ f, ((c : Thread nD τ).loc cc0_scratch0) ↦{fullShare} f) ∗ (∃ f, ((c : Thread nD τ).loc cc0_scratch1) ↦{fullShare} f))
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (gstg m ρ c) ∗ stg c cc0_stg2_0 (outV m c))

theorem fetch_0 (t : Fin cfg0.N) : (cfg0.win (0 : Fin 3)).fetch t = true := fetch0_0 t
theorem fetch_1 (t : Fin cfg0.N) : (cfg0.win (1 : Fin 3)).fetch t = true := fetch0_1 t

end Body

end Cert.KernelIdeal.Hand

end
-- ==== Proof.KernelIdealSlots.lean ====
/-
  The receive buffer and its three slots, as views: where a slot's elements lie in the buffer, that the buffer is the
  disjoint union of its slots (so holding the buffer is holding the three slots, and three slots that agree with one
  contents slot by slot join to the buffer holding it), what a copy of a device's partial sums leaves in the slot it
  lands in, and what a load of one slot of the filled buffer yields.

  A slot is the slice of the `[3, 8, 128]` buffer at leading offset `k` of sizes `[1, 8, 128]`, squeezed to `[8, 128]`:
  its element `(p, q)` is the buffer's element `(k, p, q)`, and its element set is the indices with leading coordinate
  `k`. Everything is proved once for a leading offset `k < 3` and read off at `k = 0, 1, 2`.
-/
import proofs.«900583_g7700000000000584_dist_rmsnorm_colshard_i_m1024_n512_v7x_i4_f32_1_alg».proof.Proof.KernelIdealProto
import Idealize.ShloMosaic.Lib.Pipeline.Value
import Idealize.ShloMosaic.Lib.Exec.Geometry
import Idealize.ShloMosaic.Lib.ValueIdx
import Idealize.ShloMosaic.Rules.PointsTo

noncomputable section

namespace Cert.KernelIdeal.Hand

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where a slot's elements lie -/

/-- The slice of the receive buffer at leading offset `k`, squeezed: what the kernel spells for slot `k`. -/
abbrev slotAt (k : ℕ) (inb : ∀ a, (![k, 0, 0] : Fin 3 → Nat) a + S1x8x128.size a ≤ S3x8x128.size a) :
    Memref sig .tc .vmem S8x128 .f32 :=
  ((cM.slice (Rect.unit (s := S3x8x128) ![k, 0, 0] S1x8x128.size inb) (fun _ => rfl)).squeeze S8x128 squeezes_S1x8x128_S8x128)

omit [FloatOps F] in
/-- Element `(p, q)` of the slot at offset `k` is element `(k, p, q)` of the buffer. -/
theorem slotAt_emb (k : ℕ) (inb : ∀ a, (![k, 0, 0] : Fin 3 → Nat) a + S1x8x128.size a ≤ S3x8x128.size a) (hk : k < 3)
    (y : S8x128.Idx) : (slotAt k inb).view.emb y = ix3 (⟨k, hk⟩ : Fin 3) (y 0) (y 1) := by
  show (Rect.unit (s := S3x8x128) ![k, 0, 0] S1x8x128.size inb).emb (Shape.reshapeEquiv squeezes_S1x8x128_S8x128.numel_eq y) = _
  rw [Shape.reshapeEquiv_cons_one]
  funext a; refine Fin.ext ?_
  match a with
  | ⟨0, _⟩ => show k + 1 * 0 = k; omega
  | ⟨1, _⟩ => show 0 + 1 * (y 0 : Nat) = (y 0 : Nat); omega
  | ⟨2, _⟩ => show 0 + 1 * (y 1 : Nat) = (y 1 : Nat); omega

omit [FloatOps F] in
/-- The slot at offset `k` is the elements of the buffer whose leading coordinate is `k`. -/
theorem mem_slotAt_set (k : ℕ) (inb : ∀ a, (![k, 0, 0] : Fin 3 → Nat) a + S1x8x128.size a ≤ S3x8x128.size a)
    (i : S3x8x128.Idx) : i ∈ (slotAt k inb).view.set ↔ (i 0 : ℕ) = k := by
  rw [show (slotAt k inb).view.set = (Rect.unit (s := S3x8x128) ![k, 0, 0] S1x8x128.size inb).set from
    (View.set_reshape _ _).trans (View.set_slice_whole cc0_scratch1 _)]
  rw [Rect.mem_set_unit]
  constructor
  · intro h
    have := h 0
    have h1 : ((![k, 0, 0] : Fin 3 → Nat) 0) = k := rfl
    have h2 : S1x8x128.size 0 = 1 := rfl
    omega
  · intro h a
    match a with
    | ⟨0, _⟩ => exact ⟨by show k ≤ (i 0 : Nat); omega, by show (i 0 : Nat) < k + 1; omega⟩
    | ⟨1, _⟩ => exact ⟨Nat.zero_le _, by have : (i 1 : ℕ) < 8 := (i 1).isLt; show (i 1 : Nat) < 0 + 8; omega⟩
    | ⟨2, _⟩ => exact ⟨Nat.zero_le _, by have : (i 2 : ℕ) < 128 := (i 2).isLt; show (i 2 : Nat) < 0 + 128; omega⟩

omit [FloatOps F] in
theorem slot0_emb (y : S8x128.Idx) : slotM0.view.emb y = ix3 (0 : Fin 3) (y 0) (y 1) := slotAt_emb 0 _ (by decide) y
omit [FloatOps F] in
theorem slot1_emb (y : S8x128.Idx) : slotM1.view.emb y = ix3 (1 : Fin 3) (y 0) (y 1) := slotAt_emb 1 _ (by decide) y
omit [FloatOps F] in
theorem slot2_emb (y : S8x128.Idx) : slotM2.view.emb y = ix3 (2 : Fin 3) (y 0) (y 1) := slotAt_emb 2 _ (by decide) y

omit [FloatOps F] in
theorem mem_slot0_set (i : S3x8x128.Idx) : i ∈ slotM0.view.set ↔ (i 0 : ℕ) = 0 := mem_slotAt_set 0 _ i
omit [FloatOps F] in
theorem mem_slot1_set (i : S3x8x128.Idx) : i ∈ slotM1.view.set ↔ (i 0 : ℕ) = 1 := mem_slotAt_set 1 _ i
omit [FloatOps F] in
theorem mem_slot2_set (i : S3x8x128.Idx) : i ∈ slotM2.view.set ↔ (i 0 : ℕ) = 2 := mem_slotAt_set 2 _ i

omit [FloatOps F] in
theorem slot0_set : slotM0.view.set = Finset.univ.filter (fun i : S3x8x128.Idx => (i 0 : ℕ) = 0) := by
  ext i; rw [Finset.mem_filter]; exact (mem_slot0_set i).trans (by simp)
omit [FloatOps F] in
theorem slot1_set : slotM1.view.set = Finset.univ.filter (fun i : S3x8x128.Idx => (i 0 : ℕ) = 1) := by
  ext i; rw [Finset.mem_filter]; exact (mem_slot1_set i).trans (by simp)
omit [FloatOps F] in
theorem slot2_set : slotM2.view.set = Finset.univ.filter (fun i : S3x8x128.Idx => (i 0 : ℕ) = 2) := by
  ext i; rw [Finset.mem_filter]; exact (mem_slot2_set i).trans (by simp)

/-! ## The receive buffer is its three slots -/

omit [FloatOps F] in
theorem slots_cover : (Finset.univ : Finset S3x8x128.Idx) = slotM0.view.set ∪ (slotM1.view.set ∪ slotM2.view.set) := by
  ext i
  simp only [Finset.mem_univ, Finset.mem_union, true_iff]
  have h3 : (i 0 : ℕ) < 3 := (i 0).isLt
  rcases (by omega : (i 0 : ℕ) = 0 ∨ (i 0 : ℕ) = 1 ∨ (i 0 : ℕ) = 2) with h | h | h
  · exact .inl ((mem_slot0_set i).mpr h)
  · exact .inr (.inl ((mem_slot1_set i).mpr h))
  · exact .inr (.inr ((mem_slot2_set i).mpr h))

omit [FloatOps F] in
theorem slot0_disjoint : Disjoint slotM0.view.set (slotM1.view.set ∪ slotM2.view.set) :=
  Finset.disjoint_left.mpr fun i h0 h12 => by
    have e0 := (mem_slot0_set i).mp h0
    rcases Finset.mem_union.mp h12 with h | h
    · have := (mem_slot1_set i).mp h; omega
    · have := (mem_slot2_set i).mp h; omega

omit [FloatOps F] in
theorem slot12_disjoint : Disjoint slotM1.view.set slotM2.view.set :=
  Finset.disjoint_left.mpr fun i h1 h2 => by
    have e1 := (mem_slot1_set i).mp h1
    have e2 := (mem_slot2_set i).mp h2
    omega

omit [FloatOps F] in
/-- The whole receive buffer, held in full, is its three slots held in full. -/
theorem comm_split (c : Dev nD) (f : Buf (Elt F) ((c : Thread nD τ).loc cc0_scratch1)) :
    ((((c : Thread nD τ).loc cc0_scratch1) ↦{fullShare} f : sProp 𝕄))
      ⊣⊢ iprop((slotM0.view.loc (c : Thread nD τ) ↦[slotM0.view.set]{fullShare} f)
        ∗ (slotM1.view.loc (c : Thread nD τ) ↦[slotM1.view.set]{fullShare} f)
        ∗ (slotM2.view.loc (c : Thread nD τ) ↦[slotM2.view.set]{fullShare} f)) := by
  show (pointsTo ((c : Thread nD τ).loc cc0_scratch1) (Finset.univ : Finset S3x8x128.Idx) fullShare f : sProp 𝕄) ⊣⊢ _
  rw [slots_cover]
  exact (pointsTo_union slot0_disjoint).trans (sep_congr_right (pointsTo_union slot12_disjoint))

omit [FloatOps F] in
/-- Three slots holding, each on its own elements, what `g` holds there are the whole buffer holding `g`. -/
theorem comm_join (c : Dev nD) (f0 f1 f2 g : Buf (Elt F) ((c : Thread nD τ).loc cc0_scratch1))
    (h0 : ∀ i ∈ slotM0.view.set, f0 i = g i) (h1 : ∀ i ∈ slotM1.view.set, f1 i = g i)
    (h2 : ∀ i ∈ slotM2.view.set, f2 i = g i) :
    iprop((slotM0.view.loc (c : Thread nD τ) ↦[slotM0.view.set]{fullShare} f0)
        ∗ (slotM1.view.loc (c : Thread nD τ) ↦[slotM1.view.set]{fullShare} f1)
        ∗ (slotM2.view.loc (c : Thread nD τ) ↦[slotM2.view.set]{fullShare} f2))
      ⊢ ((((c : Thread nD τ).loc cc0_scratch1) ↦{fullShare} g : sProp 𝕄)) := by
  have e0 : (slotM0.view.loc (c : Thread nD τ) ↦[slotM0.view.set]{fullShare} f0 : sProp 𝕄)
      = (slotM0.view.loc (c : Thread nD τ) ↦[slotM0.view.set]{fullShare} g) := pointsTo_congr h0
  have e1 : (slotM1.view.loc (c : Thread nD τ) ↦[slotM1.view.set]{fullShare} f1 : sProp 𝕄)
      = (slotM1.view.loc (c : Thread nD τ) ↦[slotM1.view.set]{fullShare} g) := pointsTo_congr h1
  have e2 : (slotM2.view.loc (c : Thread nD τ) ↦[slotM2.view.set]{fullShare} f2 : sProp 𝕄)
      = (slotM2.view.loc (c : Thread nD τ) ↦[slotM2.view.set]{fullShare} g) := pointsTo_congr h2
  rw [e0, e1, e2]
  exact (comm_split c g).2

/-! ## The landings -/

/-- What device `c`'s copy into the slot at offset `k` of the device `n` places on leaves there is what that device's
    receive buffer is to hold there, when coming back round from it by `k + 1` places ends at `c`. -/
theorem landedAt (k : ℕ) (inb : ∀ a, (![k, 0, 0] : Fin 3 → Nat) a + S1x8x128.size a ≤ S3x8x128.size a) (hk : k < 3)
    (c d : Dev nD) (hd : peer d (k + 1) = c) (fd : Buf (Elt F) ((slotAt k inb).view.loc (d : Thread nD τ))) :
    ∀ i ∈ (slotAt k inb).view.set,
      (slotAt k inb).view.write (Elt F) fd (mM.view.read (Elt F) (mineV m c)) Finset.univ i = commV m d i := by
  intro i hi
  obtain ⟨y, rfl⟩ := View.exists_emb_of_mem_set _ hi
  rw [View.write_emb_of_mem _ _ (Finset.mem_univ y), cast_eq, slotAt_emb k inb hk]
  show mine (xin m c) y = mine (xin m (peer d (k + 1))) (ix2 (y 0) (y 1))
  rw [hd]
  exact congrArg (mine (xin m c)) (eq_ix2 y)

theorem landed0 (c : Dev nD) (fd : Buf (Elt F) (slotM0.view.loc ((peer c 3 : Dev nD) : Thread nD τ))) :
    ∀ i ∈ slotM0.view.set,
      slotM0.view.write (Elt F) fd (mM.view.read (Elt F) (mineV m c)) Finset.univ i = commV m (peer c 3) i :=
  landedAt m 0 _ (by decide) c (peer c 3) (peer_peer_31 c) fd
theorem landed1 (c : Dev nD) (fd : Buf (Elt F) (slotM1.view.loc ((peer c 2 : Dev nD) : Thread nD τ))) :
    ∀ i ∈ slotM1.view.set,
      slotM1.view.write (Elt F) fd (mM.view.read (Elt F) (mineV m c)) Finset.univ i = commV m (peer c 2) i :=
  landedAt m 1 _ (by decide) c (peer c 2) (peer_peer_22 c) fd
theorem landed2 (c : Dev nD) (fd : Buf (Elt F) (slotM2.view.loc ((peer c 1 : Dev nD) : Thread nD τ))) :
    ∀ i ∈ slotM2.view.set,
      slotM2.view.write (Elt F) fd (mM.view.read (Elt F) (mineV m c)) Finset.univ i = commV m (peer c 1) i :=
  landedAt m 2 _ (by decide) c (peer c 1) (peer_peer_13 c) fd

/-! ## The loads -/

/-- A load of the one-slot block at leading offset `k` of the whole receive buffer, once it holds what it is to hold,
    yields slot `k`. -/
theorem load_slotAt (k : ℕ) (inb : ∀ a, (![k, 0, 0] : Fin 3 → Nat) a + S1x8x128.size a ≤ S3x8x128.size a) (hk : k < 3)
    (c : Dev nD) :
    cM.view.readAt (Elt F) (Rect.unit (s := S3x8x128) ![k, 0, 0] S1x8x128.size inb).toLoadRect (commV m c)
      = slot (xin m) c ⟨k, hk⟩ := by
  funext j
  have hidx : (Rect.unit (s := S3x8x128) ![k, 0, 0] S1x8x128.size inb).toLoadRect.idx j
      = ix3 (⟨k, hk⟩ : Fin 3) (j 1) (j 2) := by
    funext a; refine Fin.ext ?_
    match a with
    | ⟨0, _⟩ => have : (j 0 : ℕ) < 1 := (j 0).isLt; show k + 1 * (j 0 : ℕ) = k; omega
    | ⟨1, _⟩ => show 0 + 1 * (j 1 : ℕ) = (j 1 : ℕ); omega
    | ⟨2, _⟩ => show 0 + 1 * (j 2 : ℕ) = (j 2 : ℕ); omega
  show comm (xin m) c ((Rect.unit (s := S3x8x128) ![k, 0, 0] S1x8x128.size inb).toLoadRect.idx j) = slot (xin m) c ⟨k, hk⟩ j
  rw [hidx]
  rfl

theorem load_slot_0 (c : Dev nD) :
    cM.view.readAt (Elt F) (Rect.unit (s := S3x8x128) ![0, 0, 0] S1x8x128.size inb_S3x8x128_S1x8x128_0_0_0).toLoadRect (commV m c)
      = slot (xin m) c 0 := load_slotAt m 0 _ (by decide) c
theorem load_slot_1 (c : Dev nD) :
    cM.view.readAt (Elt F) (Rect.unit (s := S3x8x128) ![1, 0, 0] S1x8x128.size inb_S3x8x128_S1x8x128_1_0_0).toLoadRect (commV m c)
      = slot (xin m) c 1 := load_slotAt m 1 _ (by decide) c
theorem load_slot_2 (c : Dev nD) :
    cM.view.readAt (Elt F) (Rect.unit (s := S3x8x128) ![2, 0, 0] S1x8x128.size inb_S3x8x128_S1x8x128_2_0_0).toLoadRect (commV m c)
      = slot (xin m) c 2 := load_slotAt m 2 _ (by decide) c

/-- info: 'Cert.KernelIdeal.Hand.comm_split' depends on axioms: [propext, Classical.choice, Quot.sound] -/
#guard_msgs in #print axioms comm_split
/-- info: 'Cert.KernelIdeal.Hand.comm_join' depends on axioms: [propext, Classical.choice, Quot.sound] -/
#guard_msgs in #print axioms comm_join
/-- info: 'Cert.KernelIdeal.Hand.landed0' depends on axioms: [propext, Classical.choice, Quot.sound] -/
#guard_msgs in #print axioms landed0
/-- info: 'Cert.KernelIdeal.Hand.landed1' depends on axioms: [propext, Classical.choice, Quot.sound] -/
#guard_msgs in #print axioms landed1
/-- info: 'Cert.KernelIdeal.Hand.landed2' depends on axioms: [propext, Classical.choice, Quot.sound] -/
#guard_msgs in #print axioms landed2
/-- info: 'Cert.KernelIdeal.Hand.load_slot_0' depends on axioms: [propext, Classical.choice, Quot.sound] -/
#guard_msgs in #print axioms load_slot_0
/-- info: 'Cert.KernelIdeal.Hand.load_slot_1' depends on axioms: [propext, Classical.choice, Quot.sound] -/
#guard_msgs in #print axioms load_slot_1
/-- info: 'Cert.KernelIdeal.Hand.load_slot_2' depends on axioms: [propext, Classical.choice, Quot.sound] -/
#guard_msgs in #print axioms load_slot_2

end Cert.KernelIdeal.Hand

end
-- ==== Proof.KernelIdealStaged.lean ====
/-
  The two input staging buffers, once fetched, hold the device's blocks as launched, and with them the body's result
  is the kernel side's result block.

  Each input window is the whole array at block index 0: the block's entry at an index is the array's entry at
  0 · size + 1 · index, the same index.
-/
import proofs.«900583_g7700000000000584_dist_rmsnorm_colshard_i_m1024_n512_v7x_i4_f32_1_alg».proof.Proof.KernelIdealProto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staging buffer of the block, once fetched, holds the device's block as launched. -/
theorem xstg_eq (c : Dev nD) : xstg m ρ c = xin m c := by
  funext i
  unfold xstg xin
  show m ((c : Thread nD τ).loc main_arg0) ((win0_0.blk (0 : Fin 1)).view.emb i) = m ((c : Thread nD τ).loc main_arg0) i
  refine congrArg (m ((c : Thread nD τ).loc main_arg0)) (funext fun a => Fin.ext ?_)
  show 0 * _ + 1 * (i a).val = (i a).val
  omega

/-- The staging buffer of the gains, once fetched, holds the device's gains as launched. -/
theorem gstg_eq (c : Dev nD) : gstg m ρ c = gin m c := by
  funext i
  unfold gstg gin
  show m ((c : Thread nD τ).loc main_arg1) ((win0_1.blk (0 : Fin 1)).view.emb i) = m ((c : Thread nD τ).loc main_arg1) i
  refine congrArg (m ((c : Thread nD τ).loc main_arg1)) (funext fun a => Fin.ext ?_)
  show 0 * _ + 1 * (i a).val = (i a).val
  omega

/-- The body's result of the fetched staging buffers, the device's own partial sums and the three slots is the
    kernel side's result block. -/
theorem outV_eq (c : Dev nD) :
    k0_pay1 (k0_pay4 (k0_pay2 (xstg m ρ c)) (gstg m ρ c)) (k0_pay5 (mineV m c) (slot (xin m) c 0) (slot (xin m) c 1))
      (slot (xin m) c 2) = outV m c := by
  rw [xstg_eq, gstg_eq]
  rfl

end Cert.KernelIdeal.Hand

end
-- ==== Proof.KernelIdealBody.lean ====
/-
  One device's body, once, at a symbolic device of the mesh.

  The device signals the three others' barrier cells, each signal handing over the slot of its own receive buffer that the
  signalled device will write; it stores the row sums of squares of its block; it waits for the three signals to it, which bring
  the three slots it writes on the others; it starts the three copies of its row sums, each reading the source at a quarter
  share; it waits for its three receive cells, which bring its own slots back holding the others' row sums; it adds the four
  partial sums, scales its block and stores the result; it waits for its three send cells, which bring the source's shares
  back. At the end the receive buffer's slots and the source's shares are put together again and the six own cells closed.
-/
import proofs.«900583_g7700000000000584_dist_rmsnorm_colshard_i_m1024_n512_v7x_i4_f32_1_alg».proof.Proof.KernelIdealBodyDefs
import proofs.«900583_g7700000000000584_dist_rmsnorm_colshard_i_m1024_n512_v7x_i4_f32_1_alg».proof.Proof.KernelIdealSlots
import proofs.«900583_g7700000000000584_dist_rmsnorm_colshard_i_m1024_n512_v7x_i4_f32_1_alg».proof.Proof.KernelIdealStaged
import Idealize.ShloMosaic.Lib.Tactic

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body

variable (K : Dev nD × Fin 7 → ℕ)

omit [FloatOps F] in
/-- A whole buffer held outright, spelt through its whole view. -/
theorem whole_pts (c : Dev nD) (b : Ref sig .tc) (f : Buf (Elt F) ((c : Thread nD τ).loc b)) :
    ((((c : Thread nD τ).loc b) ↦{fullShare} f : sProp 𝕄))
      = ((Memref.whole b).view.loc (c : Thread nD τ) ↦[(Memref.whole b).view.set]{fullShare} f) := by
  show ((((c : Thread nD τ).loc b) ↦[Finset.univ]{fullShare} f : sProp 𝕄)) = ((((c : Thread nD τ).loc b) ↦[(Memref.whole b).view.set]{fullShare} f))
  rw [show (Memref.whole b).view.set = Finset.univ from View.set_whole b]

omit [FloatOps F] in
theorem hz2 : (![0, 0] : Fin 2 → Nat) = fun _ => 0 := funext fun a => by fin_cases a <;> rfl

/-- The partial-sum buffer after the store of the row sums. -/
theorem mine_written (c : Dev nD) (fm : Buf (Elt F) ((c : Thread nD τ).loc cc0_scratch0)) :
    (Memref.whole cc0_scratch0).view.writes (Elt F) fm
      [⟨Rect.unit (s := S8x128) ![0, 0] S8x128.size inb_S8x128_S8x128_0_0,
          k0_pay3 (View.readAt (Elt F) (Memref.whole cc0_stg0_0).view
              (Rect.unit (s := S1024x512) ![0, 0] S1024x512.size inb_S1024x512_S1024x512_0_0).toLoadRect (xstg m ρ c))⟩]
      = mineV m c := by
  rw [View.writes_singleton]
  refine (Memref.write_access_unit_zero_univ (Elt F) cc0_scratch0 hz2 _ fm _).trans ?_
  refine (congrArg k0_pay3 (Memref.readAt_unit_zero (Elt F) cc0_stg0_0 hz2 _ (xstg m ρ c))).trans ?_
  rw [xstg_eq]; rfl

theorem mine_stored (c : Dev nD) (fm : Buf (Elt F) ((c : Thread nD τ).loc cc0_scratch0)) :
    ((Memref.whole cc0_scratch0).view.loc (c : Thread nD τ) ↦[(Memref.whole cc0_scratch0).view.set]{fullShare}
      (Memref.whole cc0_scratch0).view.writes (Elt F) fm
        [⟨Rect.unit (s := S8x128) ![0, 0] S8x128.size inb_S8x128_S8x128_0_0,
            k0_pay3 (View.readAt (Elt F) (Memref.whole cc0_stg0_0).view
                (Rect.unit (s := S1024x512) ![0, 0] S1024x512.size inb_S1024x512_S1024x512_0_0).toLoadRect (xstg m ρ c))⟩] : sProp 𝕄)
      ⊢ (mM.view.loc (c : Thread nD τ) ↦[mM.view.set]{fullShare} mineV m c) :=
  Entails.of_eq (by rw [mine_written m ρ c fm])
omit [FloatOps F] in
/-- The source of the three copies, cut into quarter shares and put together again. -/
theorem mine_cut (c : Dev nD) (f : Buf (Elt F) (mM.view.loc (c : Thread nD τ))) :
    (mM.view.loc (c : Thread nD τ) ↦[mM.view.set]{fullShare} f : sProp 𝕄)
      ⊢ iprop((mM.view.loc (c : Thread nD τ) ↦[mM.view.set]{q1} f) ∗ (mM.view.loc (c : Thread nD τ) ↦[mM.view.set]{q2} f)
          ∗ (mM.view.loc (c : Thread nD τ) ↦[mM.view.set]{q3} f) ∗ (mM.view.loc (c : Thread nD τ) ↦[mM.view.set]{q0} f)) := by
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨H1, H2⟩
  icases HR with ⟨H3, H0⟩
  isplitl [H1]; · iexact H1
  isplitl [H2]; · iexact H2
  isplitl [H3]; · iexact H3
  iexact H0

omit [FloatOps F] in
theorem mine_glue (c : Dev nD) (f : Buf (Elt F) (mM.view.loc (c : Thread nD τ))) :
    iprop((mM.view.loc (c : Thread nD τ) ↦[mM.view.set]{q1} f) ∗ (mM.view.loc (c : Thread nD τ) ↦[mM.view.set]{q2} f)
          ∗ (mM.view.loc (c : Thread nD τ) ↦[mM.view.set]{q3} f) ∗ (mM.view.loc (c : Thread nD τ) ↦[mM.view.set]{q0} f))
      ⊢ (mM.view.loc (c : Thread nD τ) ↦[mM.view.set]{fullShare} f : sProp 𝕄) := by
  iintro ⟨H1, H2, H3, H0⟩
  iapply (pointsTo_share (PosShare.mem_left_op_right fullShare)).2
  isplitl [H1 H2]
  · iapply (pointsTo_share (PosShare.mem_left_op_right fullShare.left)).2
    isplitl [H1]; · iexact H1
    iexact H2
  · iapply (pointsTo_share (PosShare.mem_left_op_right fullShare.right)).2
    isplitl [H3]; · iexact H3
    iexact H0

omit [FloatOps F] in
theorem slot_amount2 : (slotM2 : Memref sig .tc .vmem S8x128 .f32).view.amount (.dma recvS2) = N := rfl
omit [FloatOps F] in
theorem slot_amount1 : (slotM1 : Memref sig .tc .vmem S8x128 .f32).view.amount (.dma recvS1) = N := rfl
omit [FloatOps F] in
theorem slot_amount0 : (slotM0 : Memref sig .tc .vmem S8x128 .f32).view.amount (.dma recvS0) = N := rfl

set_option maxHeartbeats 1600000 in
/-- The copy to the device 1 place on: its landing in slot 2 there holds this device's row sums. -/
theorem wp_send1 (c n : Dev nD) (hn : n = peer c 1)
    {hsc : (slotM2 : Memref sig (Dev.tc n : Thread nD τ).2.kind .vmem S8x128 .f32).view.ref.isScScratch = false}
    {hsrc : (mM : Memref sig .tc .vmem S8x128 .f32).view.WordExact} {hdst : (slotM2 : Memref sig .tc .vmem S8x128 .f32).view.WordExact}
    {hsem : DmaTarget.Typed .vmem (.dma recvS2) (.remote (Dev.tc n : Thread nD τ) (slotM2 : Memref sig .tc .vmem S8x128 .f32) (.dma sendS1) hsc)}
    {α : Type} {Q : α → sProp 𝕄} {k : PUnit → Prog (TpuEff nD τ sig (Elt F) Λ₀ .tc) α}
    (fn : Buf (Elt F) ((slotM2 : Memref sig .tc .vmem S8x128 .f32).view.loc (peer c 1 : Thread nD τ))) (W : Waits sig Unit) (O : CellTallies nD τ sig Unit) :
    iprop(cellInv ER (sched m) (K (c, 1)) (sendCell1 c) ∗ cellInv ER (sched m) (K (peer c 1, 6)) (recvCell2 (peer c 1))
        ∗ (mM.view.loc (c : Thread nD τ) ↦[mM.view.set]{q1} mineV m c)
        ∗ (slotM2.view.loc (peer c 1 : Thread nD τ) ↦[slotM2.view.set]{fullShare} fn)
        ∗ owes (c : Thread nD τ) (O + tallyAt (recvCell2 (peer c 1)) () N) W
        ∗ dutyTok ER (sendCell1 c) 0 0 ∗ reached ER (sendCell1 c) 0
        ∗ dutyTok ER (recvCell2 (peer c 1)) 0 0 ∗ reached ER (recvCell2 (peer c 1)) 0)
      ⊢ iprop(((cred (tallyAt (sendCell1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) slotM2 (.dma sendS1) hsc) (.dma recvS2) hsrc hdst hsem) k) Q) := by
  subst hn
  exact Rounds.wp_send_pointsTo 𝒱₀ ER (sched m) (c : Thread nD τ) none (c' := (peer c 1 : Thread nD τ))
    (src := (mM : Memref sig .tc .vmem S8x128 .f32)) (dst := (slotM2 : Memref sig .tc .vmem S8x128 .f32))
    (sS := .dma sendS1) (sem := .dma recvS2) (κ₁ := K (c, 1)) (κ₂ := K (peer c 1, 6))
    (r₁ := 0) (r₂ := 0) (d₁ := 0) (d₂ := 0) (fd := fn) (q := q1) (fs := mineV m c)
    (by rw [duties_send1]; exact Finset.mem_singleton_self _) (by rw [duties_recv2]; exact Finset.mem_singleton_self _)
    () () N slot_amount2 (amount_send1 m c 0) (amount_recv2 m (peer c 1) 0) O rfl (W := W)
    (by rw [payload_send1])
    (by rw [payload_recv2]; exact Entails.of_eq (pointsTo_congr (landed2 m c fn)))

set_option maxHeartbeats 1600000 in
/-- The copy to the device 2 places on: its landing in slot 1 there holds this device's row sums. -/
theorem wp_send2 (c n : Dev nD) (hn : n = peer c 2)
    {hsc : (slotM1 : Memref sig (Dev.tc n : Thread nD τ).2.kind .vmem S8x128 .f32).view.ref.isScScratch = false}
    {hsrc : (mM : Memref sig .tc .vmem S8x128 .f32).view.WordExact} {hdst : (slotM1 : Memref sig .tc .vmem S8x128 .f32).view.WordExact}
    {hsem : DmaTarget.Typed .vmem (.dma recvS1) (.remote (Dev.tc n : Thread nD τ) (slotM1 : Memref sig .tc .vmem S8x128 .f32) (.dma sendS2) hsc)}
    {α : Type} {Q : α → sProp 𝕄} {k : PUnit → Prog (TpuEff nD τ sig (Elt F) Λ₀ .tc) α}
    (fn : Buf (Elt F) ((slotM1 : Memref sig .tc .vmem S8x128 .f32).view.loc (peer c 2 : Thread nD τ))) (W : Waits sig Unit) (O : CellTallies nD τ sig Unit) :
    iprop(cellInv ER (sched m) (K (c, 2)) (sendCell2 c) ∗ cellInv ER (sched m) (K (peer c 2, 5)) (recvCell1 (peer c 2))
        ∗ (mM.view.loc (c : Thread nD τ) ↦[mM.view.set]{q2} mineV m c)
        ∗ (slotM1.view.loc (peer c 2 : Thread nD τ) ↦[slotM1.view.set]{fullShare} fn)
        ∗ owes (c : Thread nD τ) (O + tallyAt (recvCell1 (peer c 2)) () N) W
        ∗ dutyTok ER (sendCell2 c) 0 0 ∗ reached ER (sendCell2 c) 0
        ∗ dutyTok ER (recvCell1 (peer c 2)) 0 0 ∗ reached ER (recvCell1 (peer c 2)) 0)
      ⊢ iprop(((cred (tallyAt (sendCell2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) slotM1 (.dma sendS2) hsc) (.dma recvS1) hsrc hdst hsem) k) Q) := by
  subst hn
  exact Rounds.wp_send_pointsTo 𝒱₀ ER (sched m) (c : Thread nD τ) none (c' := (peer c 2 : Thread nD τ))
    (src := (mM : Memref sig .tc .vmem S8x128 .f32)) (dst := (slotM1 : Memref sig .tc .vmem S8x128 .f32))
    (sS := .dma sendS2) (sem := .dma recvS1) (κ₁ := K (c, 2)) (κ₂ := K (peer c 2, 5))
    (r₁ := 0) (r₂ := 0) (d₁ := 0) (d₂ := 0) (fd := fn) (q := q2) (fs := mineV m c)
    (by rw [duties_send2]; exact Finset.mem_singleton_self _) (by rw [duties_recv1]; exact Finset.mem_singleton_self _)
    () () N slot_amount1 (amount_send2 m c 0) (amount_recv1 m (peer c 2) 0) O rfl (W := W)
    (by rw [payload_send2])
    (by rw [payload_recv1]; exact Entails.of_eq (pointsTo_congr (landed1 m c fn)))

set_option maxHeartbeats 1600000 in
/-- The copy to the device 3 places on: its landing in slot 0 there holds this device's row sums. -/
theorem wp_send3 (c n : Dev nD) (hn : n = peer c 3)
    {hsc : (slotM0 : Memref sig (Dev.tc n : Thread nD τ).2.kind .vmem S8x128 .f32).view.ref.isScScratch = false}
    {hsrc : (mM : Memref sig .tc .vmem S8x128 .f32).view.WordExact} {hdst : (slotM0 : Memref sig .tc .vmem S8x128 .f32).view.WordExact}
    {hsem : DmaTarget.Typed .vmem (.dma recvS0) (.remote (Dev.tc n : Thread nD τ) (slotM0 : Memref sig .tc .vmem S8x128 .f32) (.dma sendS3) hsc)}
    {α : Type} {Q : α → sProp 𝕄} {k : PUnit → Prog (TpuEff nD τ sig (Elt F) Λ₀ .tc) α}
    (fn : Buf (Elt F) ((slotM0 : Memref sig .tc .vmem S8x128 .f32).view.loc (peer c 3 : Thread nD τ))) (W : Waits sig Unit) :
    iprop(cellInv ER (sched m) (K (c, 3)) (sendCell3 c) ∗ cellInv ER (sched m) (K (peer c 3, 4)) (recvCell0 (peer c 3))
        ∗ (mM.view.loc (c : Thread nD τ) ↦[mM.view.set]{q3} mineV m c)
        ∗ (slotM0.view.loc (peer c 3 : Thread nD τ) ↦[slotM0.view.set]{fullShare} fn)
        ∗ owes (c : Thread nD τ) (tallyAt (recvCell0 (peer c 3)) () N) W
        ∗ dutyTok ER (sendCell3 c) 0 0 ∗ reached ER (sendCell3 c) 0
        ∗ dutyTok ER (recvCell0 (peer c 3)) 0 0 ∗ reached ER (recvCell0 (peer c 3)) 0)
      ⊢ iprop(((cred (tallyAt (sendCell3 c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma mM (.remote (Dev.tc n : Thread nD τ) slotM0 (.dma sendS3) hsc) (.dma recvS0) hsrc hdst hsem) k) Q) := by
  subst hn
  exact Rounds.wp_send_pointsTo 𝒱₀ ER (sched m) (c : Thread nD τ) none (c' := (peer c 3 : Thread nD τ))
    (src := (mM : Memref sig .tc .vmem S8x128 .f32)) (dst := (slotM0 : Memref sig .tc .vmem S8x128 .f32))
    (sS := .dma sendS3) (sem := .dma recvS0) (κ₁ := K (c, 3)) (κ₂ := K (peer c 3, 4))
    (r₁ := 0) (r₂ := 0) (d₁ := 0) (d₂ := 0) (fd := fn) (q := q3) (fs := mineV m c)
    (by rw [duties_send3]; exact Finset.mem_singleton_self _) (by rw [duties_recv0]; exact Finset.mem_singleton_self _)
    () () N slot_amount0 (amount_send3 m c 0) (amount_recv0 m (peer c 3) 0) 0 (by rw [zero_add]) (W := W)
    (by rw [payload_send3])
    (by rw [payload_recv0]; exact Entails.of_eq (pointsTo_congr (landed0 m c fn)))

omit [FloatOps F] in
/-- Three payloads of one round, as a chain. -/
theorem sep3_chain (P Q R : sProp 𝕄) : Idealize.SL.BI.sep P (Idealize.SL.BI.sep Q R) ⊢ iprop(P ∗ Q ∗ R) := BI.Entails.refl _

omit [FloatOps F] in
theorem hz1 : (![0] : Fin 1 → Nat) = fun _ => 0 := funext fun a => by fin_cases a; rfl

omit [FloatOps F] in
theorem rd_x (f : (cc0_stg0_0 : Ref sig .tc).ty.Contents (Elt F)) :
    View.readAt (Elt F) (Memref.whole cc0_stg0_0).view (Rect.unit (s := S1024x512) ![0, 0] S1024x512.size inb_S1024x512_S1024x512_0_0).toLoadRect f = f :=
  Memref.readAt_unit_zero (Elt F) cc0_stg0_0 hz2 _ f
omit [FloatOps F] in
theorem rd_g (f : (cc0_stg1_0 : Ref sig .tc).ty.Contents (Elt F)) :
    View.readAt (Elt F) (Memref.whole cc0_stg1_0).view (Rect.unit (s := S512) ![0] S512.size inb_S512_S512_0).toLoadRect f = f :=
  Memref.readAt_unit_zero (Elt F) cc0_stg1_0 hz1 _ f
omit [FloatOps F] in
theorem rd_m (f : (cc0_scratch0 : Ref sig .tc).ty.Contents (Elt F)) :
    View.readAt (Elt F) (Memref.whole cc0_scratch0).view (Rect.unit (s := S8x128) ![0, 0] S8x128.size inb_S8x128_S8x128_0_0).toLoadRect f = f :=
  Memref.readAt_unit_zero (Elt F) cc0_scratch0 hz2 _ f

omit [FloatOps F] in
/-- The result's staging buffer after the one store over all of it. -/
theorem out_written (c : Dev nD) (g2 : Buf (Elt F) ((c : Thread nD τ).loc cc0_stg2_0)) (X : FVec F S1024x512 .f32) :
    (Memref.whole cc0_stg2_0).view.writes (Elt F) g2
      [⟨Rect.unit (s := S1024x512) ![0, 0] S1024x512.size inb_S1024x512_S1024x512_0_0, X⟩] = X := by
  rw [View.writes_singleton]
  exact Memref.write_access_unit_zero_univ (Elt F) cc0_stg2_0 hz2 _ g2 X

attribute [local sl_rounds] duties_bar duties_send1 duties_send2 duties_send3 duties_recv0 duties_recv1 duties_recv2
  amount_bar amount_send1 amount_send2 amount_send3 amount_recv0 amount_recv1 amount_recv2
  expect_bar expect_send1 expect_send2 expect_send3 expect_recv0 expect_recv1 expect_recv2
  payload_bar_1 payload_bar_2 payload_bar_3
  payload_recv0 payload_recv1 payload_recv2 payload_send1 payload_send2 payload_send3

attribute [local sl_canon] dev1_eq dev2_eq dev3_eq dev4_eq dev5_eq dev6_eq

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  unfold bodyPre ghost positions payToks credits
  iintro ⟨⟨⟨⟨#Hrec, ⟨HatB, HatS1, HatS2, HatS3, HatR0, HatR1, HatR2⟩, HtB1, HtB2, HtB3, HtR2, HtR1, HtR0, HtS1, HtS2, HtS3⟩, ⟨HcB, HcR0, HcR1, HcR2⟩, #Hlev, Hz0, ⟨%fm, Hmine⟩, ⟨%fc, Hcomm⟩⟩,
    Ho, ⟨%d0, %g0, %hg0, Hx⟩, ⟨%d1, %g1, %hg1, Hg⟩, ⟨%d2, %g2, %hg2, Hout⟩⟩, Hk⟩
  have hx : g0 = xstg m ρ c := by rw [hg0]; unfold Dat.before; rw [if_pos (fetch_0 t₀)]; rfl
  have hg : g1 = gstg m ρ c := by rw [hg1]; unfold Dat.before; rw [if_pos (fetch_1 t₀)]; rfl
  subst hx; subst hg
  unfold Dat.owesAt Pipeline.owesWithin
  icases Ho with ⟨%W, %hW, HO⟩
  rw [show (dats m ρ 0 c).owed t₀.castSucc = O₀ c from rfl]
  unfold O₀ O₁ O₂ O₃
  ihave H := (inv_at m K (c, 0)) $$ Hrec; icases H with #HIbar
  ihave H := (inv_at m K (c, 1)) $$ Hrec; icases H with #HIs1
  ihave H := (inv_at m K (c, 2)) $$ Hrec; icases H with #HIs2
  ihave H := (inv_at m K (c, 3)) $$ Hrec; icases H with #HIs3
  ihave H := (inv_at m K (c, 4)) $$ Hrec; icases H with #HIr0
  ihave H := (inv_at m K (c, 5)) $$ Hrec; icases H with #HIr1
  ihave H := (inv_at m K (c, 6)) $$ Hrec; icases H with #HIr2
  ihave H := (inv_at m K (peer c 1, 0)) $$ Hrec; icases H with #HIbar1
  ihave H := (inv_at m K (peer c 2, 0)) $$ Hrec; icases H with #HIbar2
  ihave H := (inv_at m K (peer c 3, 0)) $$ Hrec; icases H with #HIbar3
  ihave H := (inv_at m K (peer c 1, 6)) $$ Hrec; icases H with #HIr2p
  ihave H := (inv_at m K (peer c 2, 5)) $$ Hrec; icases H with #HIr1p
  ihave H := (inv_at m K (peer c 3, 4)) $$ Hrec; icases H with #HIr0p
  ihave H := (reached_at m K (peer c 1, 0)) $$ Hrec; icases H with #HrB1
  ihave H := (reached_at m K (peer c 2, 0)) $$ Hrec; icases H with #HrB2
  ihave H := (reached_at m K (peer c 3, 0)) $$ Hrec; icases H with #HrB3
  ihave H := (reached_at m K (c, 1)) $$ Hrec; icases H with #HrS1
  ihave H := (reached_at m K (c, 2)) $$ Hrec; icases H with #HrS2
  ihave H := (reached_at m K (c, 3)) $$ Hrec; icases H with #HrS3
  ihave H := (reached_at m K (c, 4)) $$ Hrec; icases H with #HrR0
  ihave H := (reached_at m K (c, 5)) $$ Hrec; icases H with #HrR1
  ihave H := (reached_at m K (c, 6)) $$ Hrec; icases H with #HrR2
  have hmw : (levAts L lv : sProp 𝕄) ⊢ MayWait (c : Thread nD τ) (.reg barS) ()
      (tallyAt (recvCell0 (peer c 3)) () N + tallyAt (recvCell1 (peer c 2)) () N + tallyAt (recvCell2 (peer c 1)) () N) := mayWait_bar c
  -- the receive buffer by slots: each signal hands one slot over
  ihave Hs := (comm_split (F := F) c fc).1 $$ Hcomm
  icases Hs with ⟨Hs0, Hs1, Hs2⟩
  sl_unfold [cc0_body]
  sl_exec
  -- the three signals: each hands the device it goes to the slot of this device's receive buffer that device writes
  iapply (Rounds.wp_signal 𝒱₀ ER (sched m) (c : Thread nD τ) none (dst := (peer c 1 : Thread nD τ)) (κ := K (peer c 1, 0))
      (d := 1) (by rw [duties_bar]; decide) ((amount_bar m (peer c 1) 1).trans (by decide)) ()
      (tallyAt (recvCell0 (peer c 3)) () N + tallyAt (recvCell1 (peer c 2)) () N + tallyAt (recvCell2 (peer c 1)) () N +
          tallyAt (barCell (peer c 3)) () 1 + tallyAt (barCell (peer c 2)) () 1) rfl)
    $$ [HO HtB1 Hs0]
  · isplitr; · iexact HIbar1
    isplitl [HO]; · iexact HO
    isplitl [HtB1]; · iexact HtB1
    isplitl [Hs0]
    · rw [payload_bar_peer1]
      isplitl [Hs0]; · iexists fc; iexact Hs0
      iexact HrR0
    · iexact HrB1
  iintro HO
  sl_exec
  iapply (Rounds.wp_signal 𝒱₀ ER (sched m) (c : Thread nD τ) none (dst := (peer c 2 : Thread nD τ)) (κ := K (peer c 2, 0))
      (d := 2) (by rw [duties_bar]; decide) ((amount_bar m (peer c 2) 2).trans (by decide)) ()
      (tallyAt (recvCell0 (peer c 3)) () N + tallyAt (recvCell1 (peer c 2)) () N + tallyAt (recvCell2 (peer c 1)) () N +
          tallyAt (barCell (peer c 3)) () 1) rfl)
    $$ [HO HtB2 Hs1]
  · isplitr; · iexact HIbar2
    isplitl [HO]; · iexact HO
    isplitl [HtB2]; · iexact HtB2
    isplitl [Hs1]
    · rw [payload_bar_peer2]
      isplitl [Hs1]; · iexists fc; iexact Hs1
      iexact HrR1
    · iexact HrB2
  iintro HO
  sl_exec
  iapply (Rounds.wp_signal 𝒱₀ ER (sched m) (c : Thread nD τ) none (dst := (peer c 3 : Thread nD τ)) (κ := K (peer c 3, 0))
      (d := 3) (by rw [duties_bar]; decide) ((amount_bar m (peer c 3) 3).trans (by decide)) ()
      (tallyAt (recvCell0 (peer c 3)) () N + tallyAt (recvCell1 (peer c 2)) () N + tallyAt (recvCell2 (peer c 1)) () N) rfl)
    $$ [HO HtB3 Hs2]
  · isplitr; · iexact HIbar3
    isplitl [HO]; · iexact HO
    isplitl [HtB3]; · iexact HtB3
    isplitl [Hs2]
    · rw [payload_bar_peer3]
      isplitl [Hs2]; · iexists fc; iexact Hs2
      iexact HrR2
    · iexact HrB3
  iintro HO
  ihave Hx := (Entails.of_eq (whole_pts (F := F) c cc0_stg0_0 _)) $$ Hx
  ihave Hg := (Entails.of_eq (whole_pts (F := F) c cc0_stg1_0 _)) $$ Hg
  ihave Hout := (Entails.of_eq (whole_pts (F := F) c cc0_stg2_0 _)) $$ Hout
  ihave Hmine := (Entails.of_eq (whole_pts (F := F) c cc0_scratch0 _)) $$ Hmine
  sl_exec
  -- the three slots the barrier handed over
  ihave Hpay := (sep3_chain (F := F) _ _ _) $$ HatB_pay1
  icases Hpay with ⟨⟨⟨%fp0, Hp0⟩, #HrP0⟩, ⟨⟨%fp1, Hp1⟩, #HrP1⟩, ⟨⟨%fp2, Hp2⟩, #HrP2⟩⟩
  -- the row sums as stored, cut into the three copies' shares and the device's own
  ihave Hmine := (mine_stored m ρ c fm) $$ Hmine
  ihave Hm := (mine_cut (F := F) c (mineV m c)) $$ Hmine
  icases Hm with ⟨Hm1, Hm2, Hm3, Hm0⟩
  iapply (wp_send1 m K c _ (dev4_eq c) fp2 _ (tallyAt (recvCell0 (peer c 3)) () N + tallyAt (recvCell1 (peer c 2)) () N)) $$ [Hm1 Hp2 HO HtS1 HtR2]
  · isplitr; · iexact HIs1
    isplitr; · iexact HIr2p
    isplitl [Hm1]; · iexact Hm1
    isplitl [Hp2]; · iexact Hp2
    isplitl [HO]; · iexact HO
    isplitl [HtS1]; · iexact HtS1
    isplitr; · iexact HrS1
    isplitl [HtR2]; · iexact HtR2
    iexact HrP2
  iintro ⟨HcS1, HO⟩
  sl_exec
  iapply (wp_send2 m K c _ (dev5_eq c) fp1 _ (tallyAt (recvCell0 (peer c 3)) () N)) $$ [Hm2 Hp1 HO HtS2 HtR1]
  · isplitr; · iexact HIs2
    isplitr; · iexact HIr1p
    isplitl [Hm2]; · iexact Hm2
    isplitl [Hp1]; · iexact Hp1
    isplitl [HO]; · iexact HO
    isplitl [HtS2]; · iexact HtS2
    isplitr; · iexact HrS2
    isplitl [HtR1]; · iexact HtR1
    iexact HrP1
  iintro ⟨HcS2, HO⟩
  sl_exec
  iapply (wp_send3 m K c _ (dev6_eq c) fp0 _) $$ [Hm3 Hp0 HO HtS3 HtR0]
  · isplitr; · iexact HIs3
    isplitr; · iexact HIr0p
    isplitl [Hm3]; · iexact Hm3
    isplitl [Hp0]; · iexact Hp0
    isplitl [HO]; · iexact HO
    isplitl [HtS3]; · iexact HtS3
    isplitr; · iexact HrS3
    isplitl [HtR0]; · iexact HtR0
    iexact HrP0
  iintro ⟨HcS3, HO⟩
  sl_exec
  -- the six own cells close: their counters at zero are the device's again
  imod (Rounds.cell_close ER (sched m) (Set.mem_univ (K (c, 1))) (fun h => h) (R := 1) (duties_later m (sendCell1 c))) $$ [HatS1] with HzS1
  · isplitr; · iexact HIs1
    iexact HatS1
  imod (Rounds.cell_close ER (sched m) (Set.mem_univ (K (c, 2))) (fun h => h) (R := 1) (duties_later m (sendCell2 c))) $$ [HatS2] with HzS2
  · isplitr; · iexact HIs2
    iexact HatS2
  imod (Rounds.cell_close ER (sched m) (Set.mem_univ (K (c, 3))) (fun h => h) (R := 1) (duties_later m (sendCell3 c))) $$ [HatS3] with HzS3
  · isplitr; · iexact HIs3
    iexact HatS3
  imod (Rounds.cell_close ER (sched m) (Set.mem_univ (K (c, 4))) (fun h => h) (R := 1) (duties_later m (recvCell0 c))) $$ [HatR0] with HzR0
  · isplitr; · iexact HIr0
    iexact HatR0
  imod (Rounds.cell_close ER (sched m) (Set.mem_univ (K (c, 5))) (fun h => h) (R := 1) (duties_later m (recvCell1 c))) $$ [HatR1] with HzR1
  · isplitr; · iexact HIr1
    iexact HatR1
  imod (Rounds.cell_close ER (sched m) (Set.mem_univ (K (c, 6))) (fun h => h) (R := 1) (duties_later m (recvCell2 c))) $$ [HatR2] with HzR2
  · isplitr; · iexact HIr2
    iexact HatR2
  -- the row sums' four shares and the receive buffer's three slots put together again
  ihave Hmine := (mine_glue (F := F) c (mineV m c)) $$ [HatS1_pay1 HatS2_pay1 HatS3_pay1 Hm0]
  · isplitl [HatS1_pay1]; · iexact HatS1_pay1
    isplitl [HatS2_pay1]; · iexact HatS2_pay1
    isplitl [HatS3_pay1]; · iexact HatS3_pay1
    iexact Hm0
  ihave Hmine := (Entails.of_eq (whole_pts (F := F) c cc0_scratch0 _).symm) $$ Hmine
  ihave Hcomm := (comm_join (F := F) c (commV m c) (commV m c) (commV m c) (commV m c) (fun _ _ => rfl) (fun _ _ => rfl) (fun _ _ => rfl))
    $$ [HatR0_pay1 HatR1_pay1 HatR2_pay1]
  · isplitl [HatR0_pay1]; · iexact HatR0_pay1
    isplitl [HatR1_pay1]; · iexact HatR1_pay1
    iexact HatR2_pay1
  ihave Hx := (Entails.of_eq (whole_pts (F := F) c cc0_stg0_0 _).symm) $$ Hx
  ihave Hg := (Entails.of_eq (whole_pts (F := F) c cc0_stg1_0 _).symm) $$ Hg
  ihave Hout := (Entails.of_eq (whole_pts (F := F) c cc0_stg2_0 _).symm) $$ Hout
  rw [wp_ret]; imodintro
  iapply Hk
  unfold bodyPost Φ₁ Dat.owesAt Pipeline.owesWithin
  rw [show (dats m ρ 0 c).owed t₀.succ = 0 from rfl]
  isplitl [Hmine Hcomm Hz0 HzS1 HzS2 HzS3 HzR0 HzR1 HzR2]
  · isplitl [Hmine]; · iexists _; iexact Hmine
    isplitl [Hcomm]; · iexists _; iexact Hcomm
    isplitl [Hz0]; · iexact Hz0
    isplitl [HzS1]; · iexact HzS1
    isplitl [HzS2]; · iexact HzS2
    isplitl [HzS3]; · iexact HzS3
    isplitl [HzR0]; · iexact HzR0
    isplitl [HzR1]; · iexact HzR1
    iexact HzR2
  isplitl [HO]
  · iexists _
    isplitr
    rotate_left
    · iexact HO
    · ipureintro; exact fun _ _ => Or.inl trivial
  isplitl [Hx]
  · iexists _; isplitr; · (ipureintro; rfl)
    iexact Hx
  isplitl [Hg]
  · iexists _; isplitr; · (ipureintro; rfl)
    iexact Hg
  iexists _; isplitr
  rotate_left
  · iexact Hout
  · ipureintro
    rw [out_written]
    sl_unfold_words
    rw [rd_x, rd_g, rd_m, load_slot_0 m c, load_slot_1 m c, load_slot_2 m c]
    exact outV_eq m ρ c

/-- info: 'Cert.KernelIdeal.Hand.sound_body' depends on axioms: [propext, Classical.choice, Quot.sound] -/
#guard_msgs in #print axioms sound_body

end Body

end Cert.KernelIdeal.Hand

end
-- ==== Proof.KernelIdealObligation.lean ====
/-
  The body's obligation on every device, in the form the launch asks for: at the one point of the grid, from the invariant
  before the point, what the device still owes and the three staging buffers as the pipeline hands them over, the kernel's
  body runs to the invariant after the point, nothing owed, the staging buffers at what the pipeline expects to find.
-/
import proofs.«900583_g7700000000000584_dist_rmsnorm_colshard_i_m1024_n512_v7x_i4_f32_1_alg».proof.Proof.KernelIdealBody

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The obligation's precondition at the one point, the windows' staging buffers written out. -/
def bodyPre' (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- The body obligation on device `c`: the invariant before the point names the ghost state's names; with them the body's
    own lemma applies, and its post is the obligation's. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev, Hs⟩, Hscr0, Hscr1⟩, Ho, Hx, Hgm, Hout⟩
  iapply (sound_body m ρ K c fun _ => bodyPost m ρ c)
  unfold bodyPre
  isplitr []
  · isplitl [Hg Hcr Hlev Hs Hscr0 Hscr1]
    · isplitl [Hg]; · iexact Hg
      isplitl [Hcr]; · iexact Hcr
      isplitl [Hlev]; · iexact Hlev
      isplitl [Hs]; · iexact Hs
      isplitl [Hscr0]; · iexact Hscr0
      iexact Hscr1
    isplitl [Ho]; · iexact Ho
    isplitl [Hx]; · iexact Hx
    isplitl [Hgm]; · iexact Hgm
    iexact Hout
  · iintro H; iexact H

/-- info: 'Cert.KernelIdeal.Hand.body_obligation' depends on axioms: [propext, Classical.choice, Quot.sound] -/
#guard_msgs in #print axioms body_obligation

end Cert.KernelIdeal.Hand

end
-- ==== Proof.KernelIdealCreds.lean ====
/-
  The credit each device's cells are owed at launch.

  Device `d` owes six dues: the block's credit to the receive cell of the slot it writes on each of the three other
  devices, and one unit to each other device's barrier cell. Going a fixed number of places round the mesh is a
  permutation, so each of the six dues, summed over the payers, lands exactly once on each device: a device's barrier
  cell is owed one unit by each of the three others, three in all, and each of its three receive cells the block's
  credit by the one device that writes that slot.
-/
import proofs.«900583_g7700000000000584_dist_rmsnorm_colshard_i_m1024_n512_v7x_i4_f32_1_alg».proof.Proof.KernelIdealProto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Each due, summed over the payers, at the device it lands on -/

omit [FloatOps F] in
/-- The credit of the copy into slot 0, owed by the device three places back. -/
theorem due_recv0 (c : Dev nD) :
    (Pipeline.launchCred (fun d : Dev nD => (tallyAt (recvCell0 (peer d 3)) () N : CellTallies nD τ sig Unit)) c : sProp 𝕄)
      ⊢ cred (tallyAt (recvCell0 c) () N) :=
  Pipeline.launchCred_tallyAt (.dma recvS0) (fun d => peer d 3) (fun d => peer d 1) peer_peer_13 peer_peer_31 () N c

omit [FloatOps F] in
/-- The credit of the copy into slot 1, owed by the device two places back. -/
theorem due_recv1 (c : Dev nD) :
    (Pipeline.launchCred (fun d : Dev nD => (tallyAt (recvCell1 (peer d 2)) () N : CellTallies nD τ sig Unit)) c : sProp 𝕄)
      ⊢ cred (tallyAt (recvCell1 c) () N) :=
  Pipeline.launchCred_tallyAt (.dma recvS1) (fun d => peer d 2) (fun d => peer d 2) peer_peer_22 peer_peer_22 () N c

omit [FloatOps F] in
/-- The credit of the copy into slot 2, owed by the device one place back. -/
theorem due_recv2 (c : Dev nD) :
    (Pipeline.launchCred (fun d : Dev nD => (tallyAt (recvCell2 (peer d 1)) () N : CellTallies nD τ sig Unit)) c : sProp 𝕄)
      ⊢ cred (tallyAt (recvCell2 c) () N) :=
  Pipeline.launchCred_tallyAt (.dma recvS2) (fun d => peer d 1) (fun d => peer d 3) peer_peer_31 peer_peer_13 () N c

omit [FloatOps F] in
/-- The barrier unit of the device three places back, -/
theorem due_bar3 (c : Dev nD) :
    (Pipeline.launchCred (fun d : Dev nD => (tallyAt (barCell (peer d 3)) () 1 : CellTallies nD τ sig Unit)) c : sProp 𝕄)
      ⊢ cred (tallyAt (barCell c) () 1) :=
  Pipeline.launchCred_tallyAt (.reg barS) (fun d => peer d 3) (fun d => peer d 1) peer_peer_13 peer_peer_31 () 1 c

omit [FloatOps F] in
/-- of the device two places back, -/
theorem due_bar2 (c : Dev nD) :
    (Pipeline.launchCred (fun d : Dev nD => (tallyAt (barCell (peer d 2)) () 1 : CellTallies nD τ sig Unit)) c : sProp 𝕄)
      ⊢ cred (tallyAt (barCell c) () 1) :=
  Pipeline.launchCred_tallyAt (.reg barS) (fun d => peer d 2) (fun d => peer d 2) peer_peer_22 peer_peer_22 () 1 c

omit [FloatOps F] in
/-- and of the device one place back. -/
theorem due_bar1 (c : Dev nD) :
    (Pipeline.launchCred (fun d : Dev nD => (tallyAt (barCell (peer d 1)) () 1 : CellTallies nD τ sig Unit)) c : sProp 𝕄)
      ⊢ cred (tallyAt (barCell c) () 1) :=
  Pipeline.launchCred_tallyAt (.reg barS) (fun d => peer d 1) (fun d => peer d 3) peer_peer_31 peer_peer_13 () 1 c

omit [FloatOps F] in
/-- Three units on one cell are the cell's credit of three. -/
theorem cred_three (g : GSem nD τ sig) :
    (iprop(cred (tallyAt g () 1) ∗ cred (tallyAt g () 1) ∗ cred (tallyAt g () 1)) : sProp 𝕄) ⊢ cred (tallyAt g () 3) := by
  rw [show (tallyAt g () 3 : CellTallies nD τ sig Unit) = tallyAt g () 1 + (tallyAt g () 1 + tallyAt g () 1) from by
    rw [tallyAt_add, tallyAt_add]]
  exact (sep_mono_right (cred_add _ _).2).trans (cred_add _ _).2

omit [FloatOps F] in
/-- What the devices owe at launch, as the sum of the six dues. -/
theorem O₀_eq : (O₀ : Dev nD → CellTallies nD τ sig Unit) = fun d =>
    ((((tallyAt (recvCell0 (peer d 3)) () N + tallyAt (recvCell1 (peer d 2)) () N) + tallyAt (recvCell2 (peer d 1)) () N)
      + tallyAt (barCell (peer d 3)) () 1) + tallyAt (barCell (peer d 2)) () 1) + tallyAt (barCell (peer d 1)) () 1 := rfl

omit [FloatOps F] in
/-- The launch deals device `c` the credit its four receiving cells are owed: three units on its barrier cell, the
    block's credit on each receive cell. -/
theorem creds (c : Dev nD) : (Pipeline.launchCred O₀ c : sProp 𝕄) ⊢ credits c := by
  rw [O₀_eq, Pipeline.launchCred_add, Pipeline.launchCred_add, Pipeline.launchCred_add, Pipeline.launchCred_add,
    Pipeline.launchCred_add]
  unfold credits
  iintro ⟨⟨⟨⟨⟨H0, H1⟩, H2⟩, H3⟩, H4⟩, H5⟩
  ihave K0 := (due_recv0 (F := F) c) $$ H0
  ihave K1 := (due_recv1 (F := F) c) $$ H1
  ihave K2 := (due_recv2 (F := F) c) $$ H2
  ihave B3 := (due_bar3 (F := F) c) $$ H3
  ihave B2 := (due_bar2 (F := F) c) $$ H4
  ihave B1 := (due_bar1 (F := F) c) $$ H5
  isplitl [B1 B2 B3]
  · iapply (cred_three (F := F) (barCell c))
    isplitl [B1]; · iexact B1
    isplitl [B2]; · iexact B2
    iexact B3
  isplitl [K0]; · iexact K0
  isplitl [K1]; · iexact K1
  iexact K2

end Cert.KernelIdeal.Hand

end
-- ==== Proof.KernelIdealGhost.lean ====
/-
  The ghost side of the launch.

  The protocol's copy of the resource algebra starts from the launch element of the twenty-eight cells (seven a device)
  and the thirty-six duty tokens (nine a device: the three duties of its barrier cell, the one duty of each send and each
  receive cell). Funding turns that element into every cell's round state at counter zero, the fact that its round 0 is
  reached, its owner's position, and the tokens; grouped by device this is what the launch deals each device.

  The global step then has every device's seven protocol semaphores at zero. Each counter with its round state becomes
  the body of the cell's invariant at some name; the names are gathered into one function of (device, cell), under which
  the invariants and the reached-round facts are persistent and so there for every device. The tokens travel round the
  mesh to the devices that pay the duties: the token of duty k of a barrier cell goes to the device 4 - k places after
  the cell's owner (that device's k-th signal pays it), the token of a receive cell to the device that writes its slot
  (slot 2 the device 3 places on, slot 1 the device 2 places on, slot 0 the device 1 place on), and a send cell's token
  stays with its owner. The one scoped semaphore the protocol never touches is passed through at zero.
-/
import proofs.«900583_g7700000000000584_dist_rmsnorm_colshard_i_m1024_n512_v7x_i4_f32_1_alg».proof.Proof.KernelIdealProto
import Idealize.ShloMosaic.Lib.Rounds
import Idealize.ShloMosaic.Lib.Pipeline.Launch
import Idealize.ShloMosaic.Lib.Pipeline.Kit
import Idealize.ShloMosaic.Lib.Tactic
import Idealize.SL.ProofMode.BigOp

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch element -/

/-- Two (device, cell index) pairs name the same cell only if they are equal: the device is the cell's thread, and the
    seven semaphores are distinct. -/
theorem kcell_injective : Function.Injective (kcell : Dev nD × Fin 7 → GSem nD τ sig) := by
  rintro ⟨c, k⟩ ⟨c', k'⟩ h
  have hc : c = c' := by have := congrArg (fun g : GSem nD τ sig => g.1.1) h; exact this
  have hk : k = k' := csem_injective (congrArg Prod.snd h)
  rw [hc, hk]

def protoCells : Finset (GSem nD τ sig) := Finset.univ.map ⟨kcell, kcell_injective⟩

/-- The cell, and the duty of it, that the j-th of a device's nine tokens is for: the barrier cell's duties 1, 2, 3, then
    duty 0 of the send cells 1, 2, 3 and of the receive cells 0, 1, 2. -/
abbrev tokCell : Fin 9 → Fin 7 := fun
  | 0 => 0 | 1 => 0 | 2 => 0 | 3 => 1 | 4 => 2 | 5 => 3 | 6 => 4 | 7 => 5 | 8 => 6
abbrev tokDuty : Fin 9 → Fin 4 := fun
  | 0 => 1 | 1 => 2 | 2 => 3 | 3 => 0 | 4 => 0 | 5 => 0 | 6 => 0 | 7 => 0 | 8 => 0

theorem tok_index_injective : ∀ a b : Fin 9, tokCell a = tokCell b → tokDuty a = tokDuty b → a = b := by decide

/-- A device's own cells' duty tokens as minted, all of round 0. -/
abbrev tokOf (cj : Dev nD × Fin 9) : GSem nD τ sig × ℕ × Fin 4 := (kcell (cj.1, tokCell cj.2), 0, tokDuty cj.2)

theorem tokOf_injective : Function.Injective (tokOf : Dev nD × Fin 9 → GSem nD τ sig × ℕ × Fin 4) := by
  rintro ⟨c, j⟩ ⟨c', j'⟩ h
  have h1 : (c, tokCell j) = (c', tokCell j') := kcell_injective (congrArg Prod.fst h)
  have h2 : tokDuty j = tokDuty j' := by have := congrArg (fun x : GSem nD τ sig × ℕ × Fin 4 => x.2.2) h; exact this
  have hc : c = c' := congrArg Prod.fst h1
  have hj : j = j' := tok_index_injective j j' (congrArg Prod.snd h1) h2
  rw [hc, hj]

def protoToks : Finset (GSem nD τ sig × ℕ × Fin 4) := Finset.univ.map ⟨tokOf, tokOf_injective⟩

/-- The launch element: the staging cells' for the pipeline library's copy of the algebra, the protocol's cells and
    tokens for the other. -/
def u₀ : UU :=
  (initOf (Pipeline.cells cfgs cellOf_inj) (Pipeline.launchToks cfgs cellOf_inj), initOf protoCells protoToks)

/-! ## Funding -/

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin9 (Φ : Fin 9 → sProp 𝕄) :
    bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- A family over the protocol's cells, summed device by device and cell by cell. -/
theorem bigSep_protoCells (Φ : GSem nD τ sig → sProp 𝕄) :
    bigSep protoCells Φ = bigSep Finset.univ fun c : Dev nD => bigSep Finset.univ fun k : Fin 7 => Φ (kcell (c, k)) := by
  unfold protoCells; rw [bigSep_map, bigSep_univ_prod]; rfl

/-- The minted tokens, summed device by device: each device's nine. -/
theorem bigSep_protoToks :
    bigSep protoToks (fun x => (dutyTok ER x.1 x.2.1 x.2.2 : sProp 𝕄)) = bigSep Finset.univ fun c : Dev nD => toks c := by
  unfold protoToks; rw [bigSep_map, bigSep_univ_prod]
  exact bigSep_congr fun c _ => by unfold toks; rw [bigSep_fin9]; rfl

/-- The protocol's launch element pays for every device's share: its cells' round states at counter zero, their
    positions and reached rounds, and its own cells' tokens. -/
theorem fund_proto : BI.own (ER (initOf protoCells protoToks)) ⊢ (|==> bigSep Finset.univ (G m) : sProp 𝕄) := by
  iintro HX
  imod (Rounds.fund ER (sched m) protoCells protoToks) $$ HX with ⟨Hst, Hr, Hat, Htok⟩
  imodintro
  ihave Hst' := (Entails.of_eq (bigSep_protoCells fun g => roundState ER (sched m) g 0)) $$ Hst
  ihave Hat' := (Entails.of_eq (bigSep_protoCells (F := F) fun g => atPos ER g 0 ∅ 0)) $$ Hat
  ihave Hr' := (Entails.of_eq (bigSep_protoCells (F := F) fun g => reached ER g 0)) $$ Hr
  ihave Htok' := (Entails.of_eq (bigSep_protoToks (F := F))) $$ Htok
  unfold G; simp only [bigSep_sep']
  isplitl [Hst']; · iexact Hst'
  isplitl [Hat' Hr']
  · isplitl [Hat'] <;> iassumption
  iexact Htok'

/-- The launch element splits into the two copies' halves; the protocol's half is funded. -/
theorem hu0 : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_proto m) $$ HX with HG
  imodintro
  isplitl [HP] <;> iassumption

/-! ## The semaphores at zero -/

/-- The kernel's own seven semaphores at zero, one by one: the one the protocol never touches, then the six cells'. -/
theorem ownSems0_eq (c : Dev nD) :
    (Pipeline.ownSems0 (Ix := Unit) (Name := ℕ) (U := UU) (Lvl := ℕ) (Val := Elt F) (τ := τ) osem c : sProp 𝕄)
      = iprop(semVal ((c : Thread nD τ), osem 0) 0 ∗ semVal (sendCell1 c) 0 ∗ semVal (sendCell2 c) 0 ∗ semVal (sendCell3 c) 0
          ∗ semVal (recvCell0 c) 0 ∗ semVal (recvCell1 c) 0 ∗ semVal (recvCell2 c) 0) := by
  rw [Pipeline.ownSems0_eq_of_list c osem [0, 1, 2, 3, 4, 5, 6] (by decide) (by decide)]; rfl

/-- The barrier semaphore is the launch's one semaphore that is not scoped. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- Together: the untouched semaphore, and the seven cells' counters in the order of the cells. -/
theorem sems0_eq (c : Dev nD) :
    iprop(Pipeline.ownSems0 (Ix := Unit) (Name := ℕ) (U := UU) (Lvl := ℕ) (Val := Elt F) (τ := τ) osem c ∗ unscopedSems0 c)
      ⊢ (iprop(semVal ((c : Thread nD τ), osem 0) 0 ∗ bigSep Finset.univ fun k : Fin 7 => semVal (kcell (c, k)) 0) : sProp 𝕄) := by
  rw [ownSems0_eq, unscopedSems0_eq, bigSep_fin7]
  iintro ⟨⟨H0, H1, H2, H3, H4, H5, H6⟩, HB⟩
  isplitl [H0]; · iexact H0
  isplitl [HB]; · iexact HB
  isplitl [H1]; · iexact H1
  isplitl [H2]; · iexact H2
  isplitl [H3]; · iexact H3
  isplitl [H4]; · iexact H4
  isplitl [H5]; · iexact H5
  iexact H6

/-! ## The global step, device by device: the cells' invariants allocated -/

/-- Each of a device's seven counters at zero, with the cell's round state at zero, becomes the cell's invariant at some
    name. -/
theorem cells_alloc (c : Dev nD) :
    iprop((bigSep Finset.univ fun k : Fin 7 => semVal (kcell (c, k)) 0)
        ∗ bigSep Finset.univ fun k : Fin 7 => roundState ER (sched m) (kcell (c, k)) 0)
      ⊢ (|={Set.univ}=> bigSep Finset.univ fun k : Fin 7 => iprop(∃ κ : ℕ, cellInv ER (sched m) κ (kcell (c, k))) : sProp 𝕄) := by
  rw [← bigSep_sep']
  exact (bigSep_mono fun k _ => (Rounds.body_intro ER (sched m) (kcell (c, k))).trans inv_alloc).trans (bigSep_fupd _ _)

/-- One device's share after that: its cells' invariants at some names, its positions and reached rounds, its own cells'
    tokens, and the untouched semaphore. -/
def mid (c : Dev nD) : sProp 𝕄 :=
  iprop((bigSep Finset.univ fun k : Fin 7 => iprop(∃ κ : ℕ, cellInv ER (sched m) κ (kcell (c, k))))
    ∗ (bigSep Finset.univ fun k : Fin 7 => iprop(atPos ER (kcell (c, k)) 0 ∅ 0 ∗ reached ER (kcell (c, k)) 0))
    ∗ toks c ∗ semVal ((c : Thread nD τ), osem 0) 0)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> mid m c := by
  unfold G mid
  iintro ⟨Hos, Hus, Hst, Hat, Htok⟩
  ihave Hv := (sems0_eq (F := F) c) $$ [Hos Hus]
  · isplitl [Hos] <;> iassumption
  icases Hv with ⟨H0, Hv⟩
  imod (cells_alloc m c) $$ [Hv Hst] with Hinv
  · isplitl [Hv] <;> iassumption
  imodintro
  isplitl [Hinv]; · iexact Hinv
  isplitl [Hat]; · iexact Hat
  isplitl [Htok]; · iexact Htok
  iexact H0

/-! ## The global step, over the mesh: the names gathered, the tokens dealt -/

/-- The tokens dealt round the mesh. Summed over the payers c: duty k of the barrier cell of the device k places on; the
    receive cell of the slot c writes on the device 1, 2, 3 places on (slots 2, 1, 0); c's own send cells. Each sum is
    the sum over the cells' owners re-indexed by going k places on. -/
theorem toks_around :
    (bigSep Finset.univ fun c : Dev nD => (toks c : sProp 𝕄)) ⊢ bigSep Finset.univ fun c : Dev nD => payToks c := by
  unfold toks payToks
  simp only [bigSep_sep']
  rw [bigSep_univ_equiv shift1 (fun c : Dev nD => (dutyTok ER (barCell c) 0 1 : sProp 𝕄)),
    bigSep_univ_equiv shift2 (fun c : Dev nD => (dutyTok ER (barCell c) 0 2 : sProp 𝕄)),
    bigSep_univ_equiv shift3 (fun c : Dev nD => (dutyTok ER (barCell c) 0 3 : sProp 𝕄)),
    bigSep_univ_equiv shift1 (fun c : Dev nD => (dutyTok ER (recvCell2 c) 0 0 : sProp 𝕄)),
    bigSep_univ_equiv shift2 (fun c : Dev nD => (dutyTok ER (recvCell1 c) 0 0 : sProp 𝕄)),
    bigSep_univ_equiv shift3 (fun c : Dev nD => (dutyTok ER (recvCell0 c) 0 0 : sProp 𝕄))]
  iintro ⟨B1, B2, B3, S1, S2, S3, R0, R1, R2⟩
  isplitl [B1]; · iexact B1
  isplitl [B2]; · iexact B2
  isplitl [B3]; · iexact B3
  isplitl [R2]; · iexact R2
  isplitl [R1]; · iexact R1
  isplitl [R0]; · iexact R0
  isplitl [S1]; · iexact S1
  isplitl [S2]; · iexact S2
  iexact S3

/-- A persistent assertion in hand serves every summand. -/
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's positions are its seven cells' positions in the order of the cells. -/
theorem positions_eq (c : Dev nD) :
    (positions c : sProp 𝕄) = bigSep Finset.univ fun k : Fin 7 => atPos ER (kcell (c, k)) 0 ∅ 0 := by
  unfold positions; rw [bigSep_fin7]

/-- What stays linear with a device: its positions, the tokens of the duties it pays, the untouched semaphore. -/
theorem linear_intro :
    iprop((bigSep Finset.univ fun c : Dev nD => bigSep Finset.univ fun k : Fin 7 => (atPos ER (kcell (c, k)) 0 ∅ 0 : sProp 𝕄))
        ∗ (bigSep Finset.univ fun c : Dev nD => (payToks c : sProp 𝕄))
        ∗ bigSep Finset.univ fun c : Dev nD => (semVal ((c : Thread nD τ), osem 0) 0 : sProp 𝕄))
      ⊢ bigSep Finset.univ fun c : Dev nD => (iprop(positions c ∗ payToks c ∗ semVal ((c : Thread nD τ), osem 0) 0) : sProp 𝕄) := by
  rw [bigSep_sep', bigSep_sep', bigSep_congr (s := Finset.univ) fun (c : Dev nD) _ => positions_eq (F := F) c]

/-- Under the records at the names K, what stays with device c is what its body starts from. -/
theorem ghost_intro (K : Dev nD × Fin 7 → ℕ) (c : Dev nD) :
    iprop(records m K ∗ (positions c ∗ payToks c ∗ semVal ((c : Thread nD τ), osem 0) 0)) ⊢ G' m c := by
  unfold G' ghost
  iintro ⟨#HR, Hp, Ht, H0⟩
  isplitr [H0]
  · iexists K
    isplitr; · iexact HR
    isplitl [Hp]; · iexact Hp
    iexact Ht
  · iexact H0

theorem regroup : (bigSep Finset.univ fun c : Dev nD => mid m c) ⊢ bigSep Finset.univ (G' m) := by
  unfold mid
  rw [bigSep_sep', bigSep_sep', bigSep_sep',
    ← bigSep_univ_prod (fun ck : Dev nD × Fin 7 => iprop(∃ κ : ℕ, cellInv ER (sched m) κ (kcell ck))),
    bigSep_congr (s := Finset.univ) (fun (c : Dev nD) _ => bigSep_sep' Finset.univ
      (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok, H0⟩
  ihave HK := (BI.bigSep_exists_pi Finset.univ
    (fun (ck : Dev nD × Fin 7) (κ : ℕ) => (cellInv ER (sched m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (linear_intro (F := F))
    isplitl [Hat]; · iexact Hat
    isplitl [Htk]; · iexact Htk
    iexact H0

/-- The global step: every device's own and unscoped semaphores at zero with its funded share become what every
    device's body starts from. -/
theorem glob :
    (bigSep Finset.univ fun c => iprop(Pipeline.ownSems0 (Ix := Unit) (Name := ℕ) (U := UU) (Lvl := ℕ) (Val := Elt F) (τ := τ) osem c
        ∗ unscopedSems0 c ∗ G m c) : sProp 𝕄)
      ⊢ |={Set.univ}=> bigSep Finset.univ (G' m) :=
  ((bigSep_mono fun c _ => core_alloc m c).trans (bigSep_fupd _ _)).trans (BI.fupd_mono (regroup m))

/-- info: 'Cert.KernelIdeal.Hand.hu0' depends on axioms: [propext, Classical.choice, Quot.sound] -/
#guard_msgs in #print axioms hu0

/-- info: 'Cert.KernelIdeal.Hand.glob' depends on axioms: [propext, Classical.choice, Quot.sound] -/
#guard_msgs in #print axioms glob

end Cert.KernelIdeal.Hand

end
-- ==== Proof.KernelIdealLaunch.lean ====
/-
  The launch of the kernel on the mesh of four: what the launch theorem asks of the layout, of the levels, of the
  launch credit and of the hand-over between the launch and each device's body, and the run it gives — every fair
  interleaving of the four devices ends, each device's result buffer holding its block scaled by the reciprocal root
  of the mean of squares over all four devices, its two argument buffers what they held.
-/
import proofs.«900583_g7700000000000584_dist_rmsnorm_colshard_i_m1024_n512_v7x_i4_f32_1_alg».proof.Proof.KernelIdealProto
import proofs.«900583_g7700000000000584_dist_rmsnorm_colshard_i_m1024_n512_v7x_i4_f32_1_alg».proof.Proof.KernelIdealCreds
import proofs.«900583_g7700000000000584_dist_rmsnorm_colshard_i_m1024_n512_v7x_i4_f32_1_alg».proof.Proof.KernelIdealGhost

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout -/

theorem ownSemFacts : Pipeline.OwnSemFacts cfg0.spec osem := by decide

theorem share_eq (c : Dev nD) (w : Fin cfg0.W) : (dats m ρ 0 c).share w = fullShare := by unfold Dat.share; split <;> rfl

/-! ## The levels -/

omit [FloatOps F] in
/-- A one-entry tally is positive only at its own cell. -/
theorem tallyAt_pos {g₀ g : GSem nD τ sig} {n : ℕ} {u : Unit} (h : 0 < tallyAt g₀ () n g u) : g = g₀ := by
  rw [tallyAt_apply] at h
  by_contra hn
  rw [if_neg (fun h' => hn h'.1)] at h
  exact Nat.lt_irrefl 0 h

omit [FloatOps F] in
/-- What a device owes at launch sits on six cells: the three receive cells it copies onto and the three barrier cells
    it signals. -/
theorem O₀_pos {c : Dev nD} {g : GSem nD τ sig} {u : Unit} (h : 0 < O₀ c g u) :
    g = recvCell0 (peer c 3) ∨ g = recvCell1 (peer c 2) ∨ g = recvCell2 (peer c 1)
      ∨ g = barCell (peer c 3) ∨ g = barCell (peer c 2) ∨ g = barCell (peer c 1) := by
  unfold O₀ at h
  rcases Pipeline.add_pos_cases h with h | h
  · unfold O₁ at h
    rcases Pipeline.add_pos_cases h with h | h
    · unfold O₂ at h
      rcases Pipeline.add_pos_cases h with h | h
      · rcases O₃_pos h with h | h | h
        · exact .inl h
        · exact .inr (.inl h)
        · exact .inr (.inr (.inl h))
      · exact .inr (.inr (.inr (.inl (tallyAt_pos h))))
    · exact .inr (.inr (.inr (.inr (.inl (tallyAt_pos h)))))
  · exact .inr (.inr (.inr (.inr (.inr (tallyAt_pos h)))))

omit [FloatOps F] in
/-- A staging semaphore's wait: it sits at level 0, below every cell the device owes at launch (barrier cells at 1,
    receive cells at 2); once the device owes nothing there is nothing to show. -/
theorem mayWait_stage (c : Dev nD) (q : DmaSem sig) (hq0 : (SemLoc.dma q : SemLoc sig) ≠ .dma recvS0)
    (hq1 : (SemLoc.dma q : SemLoc sig) ≠ .dma recvS1) (hq2 : (SemLoc.dma q : SemLoc sig) ≠ .dma recvS2)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with rfl | rfl | rfl | rfl | rfl | rfl <;> exact Finset.mem_singleton_self _)
      (fun p hp => by
        rw [Finset.mem_singleton.mp hp]; dsimp only [lv]
        rw [if_neg (fun h => by cases h), if_neg (fun h => by rcases h with h | h | h; exacts [hq0 h, hq1 h, hq2 h])])
      (fun g u hg => by
        rcases O₀_pos hg with rfl | rfl | rfl | rfl | rfl | rfl
        · rw [lv_recv0]; decide
        · rw [lv_recv1]; decide
        · rw [lv_recv2]; decide
        · rw [lv_bar]; decide
        · rw [lv_bar]; decide
        · rw [lv_bar]; decide)
  · rw [MayWait_zero]; iintro -; iempintro

/-- The pipeline's own waits, on the three staging semaphores, before and after the one point. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) (by fin_cases w <;> fin_cases s <;> decide)
      (by fin_cases w <;> fin_cases s <;> decide) _ (by
      rcases t with ⟨_ | _, ht⟩
      · exact Or.inl rfl
      · exact Or.inr rfl)

/-! ## The hand-over between the launch and a device's body -/

/-- What the launch leaves a device after the global step is what its body starts from: the ghost state, the credit
    the other three devices owe its cells, the level facts, the untouched own semaphore. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G'
  iintro ⟨-, Hlev, Hcr, -, Hg, Hs⟩
  ihave Hc := (creds (F := F) c) $$ Hcr
  imodintro
  isplitl
  · isplitl [Hg]; · iexact Hg
    isplitl [Hc]; · iexact Hc
    isplitl [Hlev]; · iexact Hlev
    iexact Hs
  · iempintro

/-- With the two scratch buffers, whole at some contents, that is the body's invariant before the point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

/-- The invariant after the point hands back the two scratch buffers and the kernel's seven own semaphores at zero. -/
theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁
  iintro ⟨H0, H1, Hs⟩
  isplitr; · iempintro
  isplitl [Hs]; · iexact Hs
  isplitl [H0]; · iexact H0
  iexact H1

/-! ## The final arrays -/

/-- The two argument arrays are inputs: after the run they hold what they held. -/
theorem final_x (c : Dev nD) : (dats m ρ 0 c).arrAt (0 : Fin 3) cfg0.N = m ((c.tc : Thread nD τ).loc main_arg0) :=
  (dats (F := F) m ρ 0 c).arrAt_in (0 : Fin 3) rfl _
theorem final_g (c : Dev nD) : (dats m ρ 0 c).arrAt (1 : Fin 3) cfg0.N = m ((c.tc : Thread nD τ).loc main_arg1) :=
  (dats (F := F) m ρ 0 c).arrAt_in (1 : Fin 3) rfl _

/-- The result array's one block is the whole array, written back at the one point: it ends holding what the body left
    in the result's staging buffer. -/
theorem final_out (c : Dev nD) : (dats m ρ 0 c).arrAt (2 : Fin 3) cfg0.N = outV m c := by
  have hz : (fun a => (win0_2.index (0 : Fin 1)) a * main_v1.ty.shape.size a) = fun _ => 0 :=
    funext fun a => by fin_cases a <;> decide
  have hr := fun f => Memref.read_access_unit_zero (Elt F) main_v1 hz (fun a => by fin_cases a <;> decide) f
  have h : (win0_2.blk (0 : Fin 1)).view.read (Elt F) ((dats m ρ 0 c).arrAt (2 : Fin 3) cfg0.N) = outV m c := by
    rw [show cfg0.N = ((0 : Fin 1) : Fin cfg0.N).val + 1 from rfl, (dats m ρ 0 c).arrAt_succ (2 : Fin 3) (0 : Fin 1)]
    rw [show (cfg0.win (2 : Fin 3)).flush (0 : Fin 1) = true from by decide, if_pos rfl]
    exact View.read_write_univ _ _
  exact (hr _).symm.trans h

/-! ## The run -/

set_option maxRecDepth 8000 in
/-- At the compiled mesh of four devices, for any float values, from any memory with zero counters, given the body's
    obligation on every device: every weakly fair execution of @main — the four kernels meeting on the barrier
    semaphore, exchanging their partial sums, scaling their blocks — terminates, and every final state has each device's
    result array at the computed contents and its two argument arrays unchanged. -/
theorem run_post (hbody : ∀ c, BodyObligation (dats (F := F) m ρ 0 c) (defs₀ (F := F)) 𝒱₀ () Set.univ) :
    θ_run (defs (F := F)) (onTc (τ := τ) (main (F := F))) ⟨m, fun _ => 0, ρ⟩
      (fun r => ∀ c : Dev nD, r.2.mem ((c.tc : Thread nD τ).loc main_v1) = outV m c
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := hu0 m)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c => ⟨((h c).1 (2 : Fin 3)).trans (final_out m ρ c), ((h c).1 (0 : Fin 3)).trans (final_x m ρ c),
      ((h c).1 (1 : Fin 3)).trans (final_g m ρ c)⟩)

/-- info: 'Cert.KernelIdeal.Hand.run_post' depends on axioms: [propext, Classical.choice, Quot.sound] -/
#guard_msgs in #print axioms run_post

end Cert.KernelIdeal.Hand

end
-- ==== Proof.RmsLaw.lean ====
/-
  The arithmetic both programs share, on the extended reals.

  A row of 2048 entries is four stretches of 512; the sum of its squares is the sum of the four stretches' sums, added
  in any order and starting from any of the four. For a positive real `y` the quotient by the square root of `y` is the
  product with the reciprocal square root of `y`. The mean of squares of real entries, shifted by a positive epsilon, is
  such a `y`.
-/
import Idealize.ShloMosaic.PureOps.Ideal
import Idealize.ShloMosaic.PureOps.Ideal.Laws
import Mathlib.Algebra.BigOperators.Fin
import Mathlib.Logic.Equiv.Fin.Basic
import Mathlib.Data.EReal.Operations
import Mathlib.Analysis.SpecialFunctions.Pow.Real

noncomputable section

open scoped BigOperators

namespace Cert.Proof.ValueSide

open Idealize.ShloMosaic

/-! ## The literals -/

/-- The divisor's word denotes the real 2048. -/
theorem ofBits_2048 : Ideal.ofBits .f32 0x45000000#32 = ((2048 : ℝ) : EReal) := by
  simp [Ideal.ofBits, Ideal.ieee, -EReal.coe_mul]; norm_num

/-- The epsilon's word denotes a positive real. -/
theorem ofBits_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-! ## Sums -/

/-- A sum over 2048 columns is the sum over four blocks of the sums over each block's 512 columns. -/
theorem sum_four_blocks {M : Type*} [AddCommMonoid M] (f : Fin 2048 → M) :
    ∑ k : Fin 2048, f k = ∑ d : Fin 4, ∑ l : Fin 512, f ⟨d.val * 512 + l.val, by omega⟩ := by
  have h := Equiv.sum_comp (finProdFinEquiv (m := 4) (n := 512)) f
  rw [Fintype.sum_prod_type] at h
  rw [← h]
  refine Finset.sum_congr rfl fun d _ => Finset.sum_congr rfl fun l _ => congrArg f (Fin.ext ?_)
  show l.val + 512 * d.val = d.val * 512 + l.val
  omega

/-- Four terms indexed round a ring of four, added from any starting place, are the sum over the ring. -/
theorem sum_round_four {M : Type*} [AddCommMonoid M] (h : Fin 4 → M) (c : Fin 4) (c1 c2 c3 : Fin 4)
    (h1 : c1.val = (c.val + 1) % 4) (h2 : c2.val = (c.val + 2) % 4) (h3 : c3.val = (c.val + 3) % 4) :
    h c + h c1 + h c2 + h c3 = ∑ d : Fin 4, h d := by
  rw [Fin.sum_univ_four]
  have e1 : c1 = ⟨(c.val + 1) % 4, Nat.mod_lt _ (by decide)⟩ := Fin.ext h1
  have e2 : c2 = ⟨(c.val + 2) % 4, Nat.mod_lt _ (by decide)⟩ := Fin.ext h2
  have e3 : c3 = ⟨(c.val + 3) % 4, Nat.mod_lt _ (by decide)⟩ := Fin.ext h3
  subst e1 e2 e3
  fin_cases c
  · rfl
  · show h 1 + h 2 + h 3 + h 0 = _; abel
  · show h 2 + h 3 + h 0 + h 1 = _; abel
  · show h 3 + h 0 + h 1 + h 2 = _; abel

/-- A sum of reals, read in the extended reals, is the real sum. -/
theorem sum_coe_real {ι : Type*} (s : Finset ι) (g : ι → ℝ) :
    ∑ k ∈ s, (g k : EReal) = ((∑ k ∈ s, g k : ℝ) : EReal) := by
  classical
  induction s using Finset.induction_on with
  | empty => simp
  | insert a s ha ih => rw [Finset.sum_insert ha, Finset.sum_insert ha, ih, ← EReal.coe_add]

/-- A sum of squares of reals is a real sum of squares. -/
theorem sum_sq_real {ι : Type*} (s : Finset ι) (f : ι → EReal) (g : ι → ℝ) (hf : ∀ k, f k = (g k : EReal)) :
    ∑ k ∈ s, f k * f k = ((∑ k ∈ s, g k * g k : ℝ) : EReal) := by
  rw [← sum_coe_real]
  exact Finset.sum_congr rfl fun k _ => by rw [hf k, ← EReal.coe_mul]

/-! ## The quotient by a root is the product with the reciprocal root -/

/-- For a real sum of squares `S ≥ 0`, a positive real count `t` and a positive real epsilon `e`: dividing by the square
    root of the shifted mean `S / t + e` is multiplying by its reciprocal square root, whatever is divided. -/
theorem div_sqrt_eq_mul_rsqrt (a : EReal) (S t e : ℝ) (hS : 0 ≤ S) (ht : 0 < t) (he : 0 < e) :
    Ideal.div a (Ideal.sqrt (Ideal.div (S : EReal) (t : EReal) + (e : EReal)))
      = a * Ideal.rsqrt (Ideal.div (S : EReal) (t : EReal) + (e : EReal)) := by
  have hy : Ideal.div (S : EReal) (t : EReal) + (e : EReal) = ((S * (1 / t) + e : ℝ) : EReal) := by
    rw [Ideal.div_coe ht.ne', ← EReal.coe_mul, ← EReal.coe_add]
  have hpos : 0 < S * (1 / t) + e := by positivity
  rw [hy, Ideal.sqrt_coe, if_neg (not_lt.mpr hpos.le), Ideal.rsqrt_coe, if_neg (not_lt.mpr hpos.le), if_neg hpos.ne',
    Ideal.div_coe (Real.sqrt_pos.mpr hpos).ne', one_div]

end Cert.Proof.ValueSide

end
-- ==== Proof.RefValue.lean ====
/-
  The reference's result as one function of the whole arrays.

  Entry `(r, j)` of the result is the gain `j` times the entry `(r, j)`, divided by the square root of the mean of the
  squares of row `r` (its 2048 entries) shifted by the epsilon. The run of the reference ends holding that function of
  its two argument arrays and leaves the arguments as they were.
-/
import proofs.«900583_g7700000000000584_dist_rmsnorm_colshard_i_m1024_n512_v7x_i4_f32_1_alg».proof.Defs
import proofs.«900583_g7700000000000584_dist_rmsnorm_colshard_i_m1024_n512_v7x_i4_f32_1_alg».proof.Proof.Gen.ReferenceIdeal
import proofs.«900583_g7700000000000584_dist_rmsnorm_colshard_i_m1024_n512_v7x_i4_f32_1_alg».proof.Proof.Gen.ReferenceIdeal.Run
import proofs.«900583_g7700000000000584_dist_rmsnorm_colshard_i_m1024_n512_v7x_i4_f32_1_alg».proof.Proof.Gen.ReferenceIdeal.Read
import proofs.«900583_g7700000000000584_dist_rmsnorm_colshard_i_m1024_n512_v7x_i4_f32_1_alg».proof.Proof.Gen.Pre_finite_inputs_ReferenceIdeal
import Idealize.ShloMosaic.Lib.ValueIdx

noncomputable section

open scoped BigOperators

namespace Cert.Proof.ValueSide

open Idealize.ShloMosaic Idealize.SL.Sem Idealize.ShloMosaic.ValueIdx
open Cert.ReferenceIdeal Cert.ReferenceIdeal.Read

/-- The reference's result, of the whole array `X` and the whole gains `G`. -/
def refVal (X : FVec Ideal Cert.ReferenceIdeal.S1024x2048 .f32) (G : FVec Ideal Cert.ReferenceIdeal.S2048 .f32) :
    FVec Ideal Cert.ReferenceIdeal.S1024x2048 .f32 :=
  val_main_v12 (F := Ideal) X G

/-- Entry `(r, j)`: the scaled entry over the root of the shifted mean of squares of row `r`. -/
theorem refVal_apply (X : FVec Ideal Cert.ReferenceIdeal.S1024x2048 .f32) (G : FVec Ideal Cert.ReferenceIdeal.S2048 .f32)
    (r : Fin 1024) (j : Fin 2048) :
    refVal X G (ix2 r j)
      = Ideal.div (G (ix1 j) * X (ix2 r j))
          (Ideal.sqrt (Ideal.div (Ideal.ofBits .f32 0x00000000#32 + ∑ k : Fin 2048, X (ix2 r k) * X (ix2 r k))
            (Ideal.ofBits .f32 0x45000000#32) + Ideal.ofBits .f32 0x3727C5AC#32)) := by
  have e1 : idx_main_v8 (idx_main_v9 (ix2 r j)) = ix1 j :=
    funext fun a => Fin.ext (by match a with | ⟨0, _⟩ => rfl)
  have e2 : ∀ k : Fin 2048, idx_main_v1 (idx_main_v2 (idx_main_v11 (ix2 r j))) k = ix2 r k := fun k =>
    funext fun a => Fin.ext (by match a with | ⟨0, _⟩ => rfl | ⟨1, _⟩ => rfl)
  unfold refVal
  rw [val_main_v12_apply, val_main_v10_apply, val_main_v9_apply, val_main_v8_apply, val_main_v11_apply,
    val_main_v7_apply, val_main_v6_apply, val_main_v4_apply, val_main_v2_apply, val_main_v1_apply, val_main_v3_apply,
    val_main_cst_0_apply, val_main_v5_apply, val_main_cst_1_apply, val_main_cst_apply]
  simp only [val_main_v0_apply, e1, e2, Ideal.hostDivf_def, Ideal.mulf_def, Ideal.addf_def, Ideal.hostUnary_sqrt_def,
    Ideal.ofBits_def]

/-- The reference runs to the end, its result buffer ends holding `refVal` of its argument arrays, and the arguments end
    unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r =>
        r.2.mem (((0 : Dev Cert.ReferenceIdeal.nD).tc : Thread Cert.ReferenceIdeal.nD Cert.ReferenceIdeal.τ).loc Cert.ReferenceIdeal.main_v12)
          = refVal (m' (((0 : Dev Cert.ReferenceIdeal.nD).tc : Thread Cert.ReferenceIdeal.nD Cert.ReferenceIdeal.τ).loc Cert.ReferenceIdeal.main_arg0))
              (m' (((0 : Dev Cert.ReferenceIdeal.nD).tc : Thread Cert.ReferenceIdeal.nD Cert.ReferenceIdeal.τ).loc Cert.ReferenceIdeal.main_arg1))
        ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)
        ∧ r.2.mem (((0 : Dev Cert.ReferenceIdeal.nD).tc : Thread Cert.ReferenceIdeal.nD Cert.ReferenceIdeal.τ).loc Cert.ReferenceIdeal.main_arg1)
          = m' (((0 : Dev Cert.ReferenceIdeal.nD).tc : Thread Cert.ReferenceIdeal.nD Cert.ReferenceIdeal.τ).loc Cert.ReferenceIdeal.main_arg1)) :=
  (θ_run Cert.ReferenceIdeal.defs _ _).mono
    (fun _ h => ⟨(h 0).1.trans (val_main_v12_eq (F := Ideal) _ _), (h 0).2⟩)
    (Cert.ReferenceIdeal.Value.run (F := Ideal) m' g')

/-- The reference's frame: its run with the value dropped. -/
theorem frame_ref : Cert.frame_ReferenceIdeal := fun m ρ _ =>
  (θ_run Cert.ReferenceIdeal.defs _ _).mono (fun _ h c => (h c).2) (Cert.ReferenceIdeal.Value.run (F := Ideal) m ρ)

end Cert.Proof.ValueSide

end
-- ==== Proof.KernelValue.lean ====
/-
  The kernel side's result block, read entry by entry.

  Row `r = 128 p + q` of a device's block sits at `(p, q)` of the per-row partial sums. A device's own partial sum at
  `(p, q)` is the sum of the squares of its 512 entries of row `r`; entry `(r, l)` of its result block is its entry
  `(r, l)` times its gain `l`, times the reciprocal square root of the four devices' partial sums of row `r` added,
  divided by 2048 and shifted by the epsilon.
-/
import proofs.«900583_g7700000000000584_dist_rmsnorm_colshard_i_m1024_n512_v7x_i4_f32_1_alg».proof.Proof.KernelIdealSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Proof.ValueSide

open Idealize.ShloMosaic Idealize.ShloMosaic.ValueIdx
open Cert.KernelIdeal Cert.KernelIdeal.Gen Cert.KernelIdeal.Hand

/-- The row of the block that sits at `(p, q)` of the per-row sums. -/
abbrev row (p : Fin 8) (q : Fin 128) : Fin 1024 := ⟨p.val * 128 + q.val, by omega⟩

/-- The block regrouped by rows of 128: `(p, q, l)` is entry `(128 p + q, l)`. -/
theorem pay2_apply (x : FVec Ideal S1024x512 .f32) (p : Fin 8) (q : Fin 128) (l : Fin 512) :
    k0_pay2 (F := Ideal) x (ix3 p q l) = x (ix2 (row p q) l) := by
  unfold k0_pay2
  rw [shapeCast_self]
  exact shapeCast_apply x _ (ix3 p q l) (ix2 (row p q) l) (by
    rw [Shape.rowMajor_val_two, Shape.rowMajor_val_three]; rfl)

/-- A device's own partial sum at `(p, q)`: the sum of the squares of its 512 entries of row `128 p + q`. -/
theorem mine_apply (x : FVec Ideal S1024x512 .f32) (p : Fin 8) (q : Fin 128) :
    mine (F := Ideal) x (ix2 p q) = ∑ k : Fin 512, x (ix2 (row p q) k) * x (ix2 (row p q) k) := by
  unfold mine k0_pay3
  rw [shapeCast_self]
  refine (Ideal.multiReduction_add_single (mulf (k0_pay2 (F := Ideal) x) (k0_pay2 (F := Ideal) x)) 0x00000000#32
    reduces_S8x128x512_S8x128 (.inl rfl) rfl (ix2 p q)).trans ?_
  show ∑ k : Fin 512, mulf (k0_pay2 (F := Ideal) x) (k0_pay2 (F := Ideal) x) (reduces_S8x128x512_S8x128.lift (ix2 p q) k) = _
  refine Finset.sum_congr rfl fun k _ => ?_
  have e : reduces_S8x128x512_S8x128.lift (ix2 p q) k = ix3 p q k :=
    funext fun a => Fin.ext (by match a with | ⟨0, _⟩ => rfl | ⟨1, _⟩ => rfl | ⟨2, _⟩ => rfl)
  rw [e, mulf_apply, pay2_apply]

/-- A slot of the receive buffer at `(0, p, q)`: the partial sum at `(p, q)` of the device that wrote it. -/
theorem slot_apply (xs : Dev nD → FVec Ideal S1024x512 .f32) (c : Dev nD) (s : Fin 3) (u : Fin 1) (p : Fin 8) (q : Fin 128) :
    slot (F := Ideal) xs c s (ix3 u p q) = mine (F := Ideal) (xs (peer c (s.val + 1))) (ix2 p q) := rfl

/-- Three of the four partial sums added. -/
theorem pay5_apply (v77 : FVec Ideal S8x128 .f32) (v78 v81 : FVec Ideal S1x8x128 .f32) (p : Fin 8) (q : Fin 128) :
    k0_pay5 (F := Ideal) v77 v78 v81 (ix2 p q) = v77 (ix2 p q) + v78 (ix3 (0 : Fin 1) p q) + v81 (ix3 (0 : Fin 1) p q) := by
  unfold k0_pay5
  rw [addf_apply, addf_apply, shapeCast_1ab_ab_apply, shapeCast_1ab_ab_apply]

/-- The block times the gains: entry `(p, q, l)` times gain `l`. -/
theorem pay4_apply (v18 : FVec Ideal S8x128x512 .f32) (g : FVec Ideal S512 .f32) (p : Fin 8) (q : Fin 128) (l : Fin 512) :
    k0_pay4 (F := Ideal) v18 g (ix3 p q l) = v18 (ix3 p q l) * g (ix1 l) := by
  unfold k0_pay4
  rw [mulf_apply, shapeCast_self]
  refine congrArg (v18 (ix3 p q l) * ·) ?_
  refine (broadcastTo_apply _ broadcasts_S1x1x512_S8x128x512 (ix3 p q l) (ix3 (0 : Fin 1) (0 : Fin 1) l) fun a => ?_).trans ?_
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show l.val = if (512 : Nat) = 1 then 0 else l.val; rw [if_neg (by decide)]
  · exact shapeCast_apply g _ (ix3 (0 : Fin 1) (0 : Fin 1) l) (ix1 l) (by
      rw [Shape.rowMajor_val_one, Shape.rowMajor_val_three]
      show l.val = (0 * 1 + 0) * 512 + l.val
      omega)

/-- The result block: the scaled block times the reciprocal root of the shifted mean, spread along each row. -/
theorem pay1_apply (v58 : FVec Ideal S8x128x512 .f32) (v83 : FVec Ideal S8x128 .f32) (v84 : FVec Ideal S1x8x128 .f32)
    (p : Fin 8) (q : Fin 128) (l : Fin 512) :
    k0_pay1 (F := Ideal) v58 v83 v84 (ix2 (row p q) l)
      = v58 (ix3 p q l) * Ideal.rsqrt (Ideal.div (v83 (ix2 p q) + v84 (ix3 (0 : Fin 1) p q)) (Ideal.ofBits .f32 0x45000000#32)
          + Ideal.ofBits .f32 0x3727C5AC#32) := by
  unfold k0_pay1
  refine (shapeCast_apply _ shapeCasts_S8x128x512_S1024x512 (ix2 (row p q) l) (ix3 p q l) (by
    rw [Shape.rowMajor_val_two, Shape.rowMajor_val_three]; rfl)).trans ?_
  rw [mulf_apply]
  refine congrArg (v58 (ix3 p q l) * ·) ?_
  refine (broadcastTo_apply _ broadcasts_S8x128x1_S8x128x512 (ix3 p q l) (ix3 p q (0 : Fin 1)) fun a => ?_).trans ?_
  · match a with
    | ⟨0, _⟩ => show p.val = if (8 : Nat) = 1 then 0 else p.val; rw [if_neg (by decide)]
    | ⟨1, _⟩ => show q.val = if (128 : Nat) = 1 then 0 else q.val; rw [if_neg (by decide)]
    | ⟨2, _⟩ => show 0 = if (1 : Nat) = 1 then 0 else l.val; rw [if_pos rfl]
  refine (shapeCast_apply _ shapeCasts_S8x128_S8x128x1 (ix3 p q (0 : Fin 1)) (ix2 p q) (by
    rw [Shape.rowMajor_val_two, Shape.rowMajor_val_three]
    show p.val * 128 + q.val = (p.val * 128 + q.val) * 1 + 0
    omega)).trans ?_
  show Ideal.rsqrt (Ideal.div (v83 (ix2 p q) + shapeCast S8x128 v84 shapeCasts_S1x8x128_S8x128 (ix2 p q)) _ + _) = _
  rw [shapeCast_1ab_ab_apply]
  rfl

/-- The sum of the squares of a block's 512 entries of row `128 p + q`. -/
def rowSq (x : FVec Ideal S1024x512 .f32) (p : Fin 8) (q : Fin 128) : EReal :=
  ∑ k : Fin 512, x (ix2 (row p q) k) * x (ix2 (row p q) k)

/-- Entry `(128 p + q, l)` of device `c`'s result block: its entry times its gain, times the reciprocal root of the mean
    of squares over the four devices' partial sums of that row — its own first, then round the mesh — shifted by the
    epsilon. -/
theorem out_apply (xs : Dev nD → FVec Ideal S1024x512 .f32) (gs : Dev nD → FVec Ideal S512 .f32) (c : Dev nD)
    (p : Fin 8) (q : Fin 128) (l : Fin 512) :
    out (F := Ideal) xs gs c (ix2 (row p q) l)
      = (xs c (ix2 (row p q) l) * gs c (ix1 l))
        * Ideal.rsqrt (Ideal.div (rowSq (xs c) p q + rowSq (xs (peer c 1)) p q + rowSq (xs (peer c 2)) p q
            + rowSq (xs (peer c 3)) p q) (Ideal.ofBits .f32 0x45000000#32) + Ideal.ofBits .f32 0x3727C5AC#32) := by
  unfold out
  rw [pay1_apply, pay4_apply, pay2_apply, pay5_apply, slot_apply, slot_apply, slot_apply, mine_apply, mine_apply,
    mine_apply, mine_apply]
  rfl

end Cert.Proof.ValueSide

end
-- ==== Proof.Finite.lean ====
/-
  What the precondition gives: every entry of a device's block and of its gains is a real number.

  The printed predicate compares the absolute value of every entry with +∞ and takes the conjunction of all the
  comparisons; the conjunction being true, every comparison is, and an extended real whose absolute value is below +∞ is
  neither infinity.
-/
import proofs.«900583_g7700000000000584_dist_rmsnorm_colshard_i_m1024_n512_v7x_i4_f32_1_alg».proof.Defs
import proofs.«900583_g7700000000000584_dist_rmsnorm_colshard_i_m1024_n512_v7x_i4_f32_1_alg».proof.Proof.Gen.Pre_finite_inputs_Kernel
import Idealize.ShloMosaic.Lib.ReduceAll
import Idealize.ShloMosaic.Lib.ValueIdx
import Idealize.ShloMosaic.PureOps.Ideal.Laws

noncomputable section

namespace Cert.Proof.ValueSide

open Idealize.ShloMosaic Idealize.ShloMosaic.ValueIdx

/-- An extended real whose absolute value compares below the word of +∞ is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- Under the printed predicate every entry of the block and of the gains is a real. -/
theorem real_of_finite_inputs (x : FVec Ideal Cert.Pre_finite_inputs_Kernel.S1024x512 .f32)
    (g : FVec Ideal Cert.Pre_finite_inputs_Kernel.S512 .f32)
    (h : Cert.Pre_finite_inputs_Kernel.fn (F := Ideal) x g = fun _ => 1#1) :
    (∀ i, ∃ r : ℝ, x i = (r : EReal)) ∧ (∀ i, ∃ r : ℝ, g i = (r : EReal)) := by
  haveI : Subsingleton Cert.Pre_finite_inputs_Kernel.S_.Idx := ⟨fun a b => funext fun d => d.elim0⟩
  have h0 := congrFun h ix0
  dsimp only [Cert.Pre_finite_inputs_Kernel.fn] at h0
  obtain ⟨hx, hg⟩ := IntOp.andi_eq_one.1 h0
  refine ⟨fun i => ?_, fun i => ?_⟩
  · exact real_of_abs_lt_inf (x i) (Host.reduce_andi_all _ _ _ _ _ hx i)
  · exact real_of_abs_lt_inf (g i) (Host.reduce_andi_all _ _ _ _ _ hg i)

end Cert.Proof.ValueSide

end
-- ==== Proof.Value.lean ====
/-
  Each device's result block is its block of the reference's result.

  Device `d` holds columns `512 d … 512 d + 511` of the whole array and of the gains. The four devices' partial sums of
  a row, added from any of them round the mesh, are the sum of the squares of the row's 2048 entries, which is what
  the reference sums; both then divide by 2048 and add the epsilon. The entries being real, that shifted mean is a
  positive real, where dividing by its square root and multiplying by its reciprocal square root agree; the entry
  times the gain and the gain times the entry are one product.
-/
import proofs.«900583_g7700000000000584_dist_rmsnorm_colshard_i_m1024_n512_v7x_i4_f32_1_alg».proof.Defs
import proofs.«900583_g7700000000000584_dist_rmsnorm_colshard_i_m1024_n512_v7x_i4_f32_1_alg».proof.Proof.RmsLaw
import proofs.«900583_g7700000000000584_dist_rmsnorm_colshard_i_m1024_n512_v7x_i4_f32_1_alg».proof.Proof.RefValue
import proofs.«900583_g7700000000000584_dist_rmsnorm_colshard_i_m1024_n512_v7x_i4_f32_1_alg».proof.Proof.KernelValue
import proofs.«900583_g7700000000000584_dist_rmsnorm_colshard_i_m1024_n512_v7x_i4_f32_1_alg».proof.Proof.Finite
import Idealize.ShloMosaic.Lib.Layout

noncomputable section

open scoped BigOperators

namespace Cert.Proof.ValueSide

open Idealize.ShloMosaic Idealize.SL.Sem Idealize.ShloMosaic.ValueIdx
open Cert.KernelIdeal.Hand

/-- Column `l` of device `c`'s block is column `512 c + l` of the whole array. -/
abbrev col (c : Fin 4) (l : Fin 512) : Fin 2048 := ⟨c.val * 512 + l.val, by omega⟩

/-- An entry of a device's block of an array cut along its columns. -/
theorem block_cols_apply (X : FVec Ideal ⟨2, ![1024, 2048]⟩ .f32) (c : Fin 4) (r : Fin 1024) (l : Fin 512) :
    (Layout.block ⟨2, ![1024, 512]⟩ ⟨2, ![1024, 2048]⟩ 1 4 c X) (ix2 r l) = X (ix2 r (col c l)) :=
  congrArg X (funext fun a => Fin.ext (by match a with | ⟨0, _⟩ => rfl | ⟨1, _⟩ => rfl))

/-- An entry of a device's block of the gains. -/
theorem block_gains_apply (G : FVec Ideal ⟨1, ![2048]⟩ .f32) (c : Fin 4) (l : Fin 512) :
    (Layout.block ⟨1, ![512]⟩ ⟨1, ![2048]⟩ 0 4 c G) (ix1 l) = G (ix1 (col c l)) :=
  congrArg G (funext fun a => Fin.ext (by match a with | ⟨0, _⟩ => rfl))

/-- The kernel side's result block of real blocks of whole arrays is that block of the reference's result. -/
theorem out_eq_block_of_real (X : FVec Ideal ⟨2, ![1024, 2048]⟩ .f32) (G : FVec Ideal ⟨1, ![2048]⟩ .f32)
    (xs : Dev Cert.KernelIdeal.nD → FVec Ideal Cert.KernelIdeal.S1024x512 .f32)
    (gs : Dev Cert.KernelIdeal.nD → FVec Ideal Cert.KernelIdeal.S512 .f32)
    (hx : ∀ d, xs d = Layout.block ⟨2, ![1024, 512]⟩ ⟨2, ![1024, 2048]⟩ 1 4 d X)
    (hg : ∀ d, gs d = Layout.block ⟨1, ![512]⟩ ⟨1, ![2048]⟩ 0 4 d G)
    (hreal : ∀ d i, ∃ r : ℝ, xs d i = (r : EReal)) (c : Dev Cert.KernelIdeal.nD) :
    out (F := Ideal) xs gs c = Layout.block ⟨2, ![1024, 512]⟩ ⟨2, ![1024, 2048]⟩ 1 4 c (refVal X G) := by
  funext j
  obtain ⟨r, l, rfl⟩ : ∃ (r : Fin 1024) (l : Fin 512), j = ix2 r l := ⟨j 0, j 1, eq_ix2 j⟩
  obtain ⟨p, q, rfl⟩ : ∃ (p : Fin 8) (q : Fin 128), r = row p q :=
    ⟨⟨r.val / 128, by omega⟩, ⟨r.val % 128, by omega⟩, Fin.ext (by show r.val = r.val / 128 * 128 + r.val % 128; omega)⟩
  rw [out_apply, block_cols_apply, refVal_apply]
  choose gx hgx using hreal
  -- the sum of squares of the whole row, as a real
  obtain ⟨Sr, hSr0, hker, href⟩ : ∃ Sr : ℝ, 0 ≤ Sr
      ∧ rowSq (xs c) p q + rowSq (xs (peer c 1)) p q + rowSq (xs (peer c 2)) p q + rowSq (xs (peer c 3)) p q = (Sr : EReal)
      ∧ Ideal.ofBits .f32 0x00000000#32 + ∑ k : Fin 2048, X (ix2 (row p q) k) * X (ix2 (row p q) k) = (Sr : EReal) := by
    have hrs : ∀ d : Fin 4, rowSq (xs d) p q
        = ((∑ k : Fin 512, gx d (ix2 (row p q) k) * gx d (ix2 (row p q) k) : ℝ) : EReal) :=
      fun d => sum_sq_real _ _ _ (fun k => hgx d _)
    refine ⟨∑ d : Fin 4, ∑ k : Fin 512, gx d (ix2 (row p q) k) * gx d (ix2 (row p q) k),
      Finset.sum_nonneg fun d _ => Finset.sum_nonneg fun k _ => mul_self_nonneg _, ?_, ?_⟩
    · rw [sum_round_four (fun d => rowSq (xs d) p q) c (peer c 1) (peer c 2) (peer c 3) rfl rfl rfl, ← sum_coe_real]
      exact Finset.sum_congr rfl fun d _ => hrs d
    · rw [Ideal.ofBits_zero_f32, zero_add, sum_four_blocks, ← sum_coe_real]
      refine Finset.sum_congr rfl fun d _ => ?_
      rw [← hrs d]
      unfold rowSq
      refine Finset.sum_congr rfl fun k _ => ?_
      rw [hx d, block_cols_apply]
  obtain ⟨e, he, hee⟩ := ofBits_eps
  rw [hker, href, ofBits_2048, hee, hx c, hg c, block_cols_apply, block_gains_apply, mul_comm (X _) (G _)]
  exact (div_sqrt_eq_mul_rsqrt _ Sr 2048 e hSr0 (by norm_num) he).symm

/-- Under the precondition, from memories that agree on the inputs, the kernel side's result of the devices' argument
    blocks is, on every device, that device's block of the reference's result of the whole arrays. -/
theorem out_eq_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.block ⟨2, ![1024, 512]⟩ ⟨2, ![1024, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![512]⟩ ⟨1, ![2048]⟩ 0 4 c (m' (((0 : Dev Cert.ReferenceIdeal.nD).tc : Thread Cert.ReferenceIdeal.nD Cert.ReferenceIdeal.τ).loc Cert.ReferenceIdeal.main_arg1)))
    (c : Dev Cert.KernelIdeal.nD) :
    Cert.KernelIdeal.Hand.out (F := Ideal)
        (fun d => m ((d.tc : Thread Cert.KernelIdeal.nD Cert.KernelIdeal.τ).loc Cert.KernelIdeal.main_arg0))
        (fun d => m ((d.tc : Thread Cert.KernelIdeal.nD Cert.KernelIdeal.τ).loc Cert.KernelIdeal.main_arg1)) c
      = Layout.block ⟨2, ![1024, 512]⟩ ⟨2, ![1024, 2048]⟩ 1 4 c
          (refVal (m' (((0 : Dev Cert.ReferenceIdeal.nD).tc : Thread Cert.ReferenceIdeal.nD Cert.ReferenceIdeal.τ).loc Cert.ReferenceIdeal.main_arg0))
            (m' (((0 : Dev Cert.ReferenceIdeal.nD).tc : Thread Cert.ReferenceIdeal.nD Cert.ReferenceIdeal.τ).loc Cert.ReferenceIdeal.main_arg1))) :=
  out_eq_block_of_real _ _ _ _ (fun d => (hagree d).1) (fun d => (hagree d).2)
    (fun d => (real_of_finite_inputs _ _ (hpre d)).1) c

end Cert.Proof.ValueSide

end
-- ==== Proof.lean ====
/-
  Root-mean-square normalisation of the rows of a 1024 × 2048 array whose columns are cut into four blocks of 512, one
  per device, with the gains cut the same way.

  The reference, on one device over the whole arrays, sends entry (r, j) to the gain j times the entry, divided by the
  square root of the mean of the squares of row r plus a small epsilon. Each of the four devices forms, row by row, the sum
  of the squares of its own 512 entries, receives the three other devices' row sums, adds the four, divides by 2048, adds
  the same epsilon, takes the reciprocal square root and scales its own block, already multiplied by its block of the gains.

  The protocol. Every device first tells the three others that it has entered, and waits until the three others have told
  it; only then does it copy its row sums into the slot reserved for it in each other device's receive buffer, the slot
  `s` of a device being written by the device `s + 1` places after it round the mesh. A device reads its receive buffer
  only once all three copies into it have landed, and leaves only once its own three copies have departed, so that no
  slot is written before its owner is there or read before it is full.

  The law that joins the two sides. A row's 2048 columns are the four devices' stretches of 512, so the sum of the row's
  squares is the sum of the four partial sums, from whichever device the adding starts and in whatever order. Under the
  precondition every entry is a real number; the mean of squares plus the epsilon is then a positive real `y`, and for
  a positive real `y` dividing by the square root of `y` is multiplying by its reciprocal square root, whatever extended
  real is divided; the gain times the entry is the entry times the gain. Hence device `c`'s result block is block `c` of
  the reference's result. The word-level kernel and its idealisation are the same text read at two instances, so the
  frames of both are the one run with the value dropped, and nothing was rewritten between them.
-/
import proofs.«900583_g7700000000000584_dist_rmsnorm_colshard_i_m1024_n512_v7x_i4_f32_1_alg».proof.Defs
import proofs.«900583_g7700000000000584_dist_rmsnorm_colshard_i_m1024_n512_v7x_i4_f32_1_alg».proof.Proof.Gen.Kernel
import proofs.«900583_g7700000000000584_dist_rmsnorm_colshard_i_m1024_n512_v7x_i4_f32_1_alg».proof.Proof.Gen.Kernel.Skeleton
import proofs.«900583_g7700000000000584_dist_rmsnorm_colshard_i_m1024_n512_v7x_i4_f32_1_alg».proof.Proof.Gen.Kernel.Launch
import proofs.«900583_g7700000000000584_dist_rmsnorm_colshard_i_m1024_n512_v7x_i4_f32_1_alg».proof.Proof.Gen.Kernel.Points
import proofs.«900583_g7700000000000584_dist_rmsnorm_colshard_i_m1024_n512_v7x_i4_f32_1_alg».proof.Proof.Gen.Kernel.Frame
import proofs.«900583_g7700000000000584_dist_rmsnorm_colshard_i_m1024_n512_v7x_i4_f32_1_alg».proof.Proof.Gen.KernelIdeal
import proofs.«900583_g7700000000000584_dist_rmsnorm_colshard_i_m1024_n512_v7x_i4_f32_1_alg».proof.Proof.Gen.KernelIdeal.Skeleton
import proofs.«900583_g7700000000000584_dist_rmsnorm_colshard_i_m1024_n512_v7x_i4_f32_1_alg».proof.Proof.Gen.KernelIdeal.Launch
import proofs.«900583_g7700000000000584_dist_rmsnorm_colshard_i_m1024_n512_v7x_i4_f32_1_alg».proof.Proof.Gen.KernelIdeal.Points
import proofs.«900583_g7700000000000584_dist_rmsnorm_colshard_i_m1024_n512_v7x_i4_f32_1_alg».proof.Proof.Gen.KernelIdeal.Frame
import proofs.«900583_g7700000000000584_dist_rmsnorm_colshard_i_m1024_n512_v7x_i4_f32_1_alg».proof.Proof.Gen.ReferenceIdeal
import proofs.«900583_g7700000000000584_dist_rmsnorm_colshard_i_m1024_n512_v7x_i4_f32_1_alg».proof.Proof.Gen.Pre_finite_inputs_Kernel
import proofs.«900583_g7700000000000584_dist_rmsnorm_colshard_i_m1024_n512_v7x_i4_f32_1_alg».proof.Proof.Gen.Pre_finite_inputs_ReferenceIdeal
import proofs.«900583_g7700000000000584_dist_rmsnorm_colshard_i_m1024_n512_v7x_i4_f32_1_alg».proof.Proof.KernelObligation
import proofs.«900583_g7700000000000584_dist_rmsnorm_colshard_i_m1024_n512_v7x_i4_f32_1_alg».proof.Proof.KernelLaunch
import proofs.«900583_g7700000000000584_dist_rmsnorm_colshard_i_m1024_n512_v7x_i4_f32_1_alg».proof.Proof.KernelIdealObligation
import proofs.«900583_g7700000000000584_dist_rmsnorm_colshard_i_m1024_n512_v7x_i4_f32_1_alg».proof.Proof.KernelIdealLaunch
import proofs.«900583_g7700000000000584_dist_rmsnorm_colshard_i_m1024_n512_v7x_i4_f32_1_alg».proof.Proof.Value
import Idealize.ShloMosaic.Adequacy
import Idealize.ShloMosaic.Init

noncomputable section

namespace Cert.Proof

open Idealize.ShloMosaic Idealize.SL.Sem
open Cert.Proof.ValueSide

/-- The word-level kernel runs to the end and leaves its arguments as they were: its run, the value dropped. -/
theorem frame_Kernel : Cert.frame_Kernel := fun m ρ _ =>
  (θ_run Cert.Kernel.defs _ _).mono (fun _ h c => (h c).2)
    (Cert.Kernel.Hand.run_post (F := Bits) m ρ (Cert.Kernel.Hand.body_obligation m ρ))

/-- The same of the kernel read over the extended reals. -/
theorem frame_KernelIdeal : Cert.frame_KernelIdeal := fun m ρ _ =>
  (θ_run Cert.KernelIdeal.defs _ _).mono (fun _ h c => (h c).2)
    (Cert.KernelIdeal.Hand.run_post (F := Ideal) m ρ (Cert.KernelIdeal.Hand.body_obligation m ρ))

/-- Over the extended reals, from memories that agree on the inputs and under the precondition, the reference ends
    holding its result of the whole arrays and every device ends holding its block of that result. -/
theorem algebraic : Cert.algebraic_KernelIdeal_ReferenceIdeal := by
  intro m g m' g' hpre hagree
  refine ⟨refVal _ _, ?_, ref_run m' g'⟩
  exact (θ_run Cert.KernelIdeal.defs _ _).mono
    (fun _ h c => ⟨(h c).1.trans (out_eq_block m m' hpre hagree c), (h c).2⟩)
    (Cert.KernelIdeal.Hand.run_post (F := Ideal) m g (Cert.KernelIdeal.Hand.body_obligation m g))

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ref, trivial, algebraic⟩

end Cert.Proof

end
